-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S100000x512 : Shape := ⟨2, ![100000, 512]⟩
abbrev S512 : Shape := ⟨1, ![512]⟩
abbrev S_ : Shape := ⟨0, ![]⟩
abbrev S100000 : Shape := ⟨1, ![100000]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S512 : S_.BroadcastsInDim S512 (![] : Fin 0 → Fin S512.rank)
  reducesTo_S512_S_d0 : S512.ReducesTo [0] S_
  reducesTo_S100000x512_S100000_d1 : S100000x512.ReducesTo [1] S100000
  bcast_S_S100000 : S_.BroadcastsInDim S100000 (![] : Fin 0 → Fin S100000.rank)
  reducesTo_S100000_S_d0 : S100000.ReducesTo [0] S_

variable [Facts]

def fn_part1 {F : FTy → Type} [FloatOps F] (main_arg1 : FVec F S100000x512 .f32) (main_v12 : IVec S_ 1) (main_v15 : IVec S_ 1) : IVec S_ 1 :=
  let main_v16 : IVec S_ 1 := andi main_v12 main_v15
  let main_v17 : FVec F S100000x512 .f32 := mulf main_arg1 main_arg1
  let main_cst_6 : FVec F S_ .f32 := constant S_ .f32 0x00000000#32
  let main_v18 : FVec F S100000 .f32 := (fun x v => Host.reduceAdd x v reducesTo_S100000x512_S100000_d1 h_S_) main_v17 main_cst_6
  let main_cst_7 : FVec F S_ .f32 := constant S_ .f32 0x00000000#32
  let main_v19 : FVec F S100000 .f32 := broadcastInDim S100000 ![] bcast_S_S100000 main_cst_7
  let main_v20 : IVec S100000 1 := cmpf .ogt main_v18 main_v19
  let main_c_8 : IVec S_ 1 := constantI S_ 1 1#1
  let main_v21 : IVec S_ 1 := (fun x v => Host.reduce IntOp.andi x v reducesTo_S100000_S_d0 h_S_) main_v20 main_c_8
  let main_v22 : IVec S_ 1 := andi main_v16 main_v21
  main_v22

def fn {F : FTy → Type} [FloatOps F] (main_arg0 : FVec F S512x512 .f32) (main_arg1 : FVec F S100000x512 .f32) (main_arg2 : IVec S512 32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_c_2 : IVec S_ 32 := constantI S_ 32 0#32
  let main_v9 : IVec S512 32 := broadcastInDim S512 ![] bcast_S_S512 main_c_2
  let main_v10 : IVec S512 1 := cmpi .sge main_arg2 main_v9
  let main_c_3 : IVec S_ 1 := constantI S_ 1 1#1
  let main_v11 : IVec S_ 1 := (fun x v => Host.reduce IntOp.andi x v reducesTo_S512_S_d0 h_S_) main_v10 main_c_3
  let main_v12 : IVec S_ 1 := andi main_v8 main_v11
  let main_c_4 : IVec S_ 32 := constantI S_ 32 100000#32
  let main_v13 : IVec S512 32 := broadcastInDim S512 ![] bcast_S_S512 main_c_4
  let main_v14 : IVec S512 1 := cmpi .slt main_arg2 main_v13
  let main_c_5 : IVec S_ 1 := constantI S_ 1 1#1
  let main_v15 : IVec S_ 1 := (fun x v => Host.reduce IntOp.andi x v reducesTo_S512_S_d0 h_S_) main_v14 main_c_5
  fn_part1 (F := F) main_arg1 main_v12 main_v15
-- ==== Kernel.lean ====
abbrev S512x512 : Shape := ⟨2, ![512, 512]⟩
abbrev S100000x512 : Shape := ⟨2, ![100000, 512]⟩
abbrev S512 : Shape := ⟨1, ![512]⟩
abbrev S_ : Shape := ⟨0, ![]⟩
abbrev S512x1 : Shape := ⟨2, ![512, 1]⟩
abbrev S2x512x1 : Shape := ⟨3, ![2, 512, 1]⟩
abbrev S2000x512 : Shape := ⟨2, ![2000, 512]⟩
abbrev S1x512x1 : Shape := ⟨3, ![1, 512, 1]⟩
abbrev S2000 : Shape := ⟨1, ![2000]⟩
abbrev S2000x1 : Shape := ⟨2, ![2000, 1]⟩
abbrev S1x2000 : Shape := ⟨2, ![1, 2000]⟩
abbrev S512x2000 : Shape := ⟨2, ![512, 2000]⟩

abbrev nBuf : Space → Nat
  | .hbm => 92
  | .vmem => 8
  | .smem => 0
  | _ => 0

abbrev bufTy : (tb : Table) → Fin (tcTables nBuf tb) → BufTy
  | .hbm, ⟨0, _⟩ => ⟨S512x512, .f32⟩
  | .hbm, ⟨1, _⟩ => ⟨S100000x512, .f32⟩
  | .hbm, ⟨2, _⟩ => ⟨S512, .i32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S512x512, .f32⟩
  | .hbm, ⟨9, _⟩ => ⟨S512x512, .f32⟩
  | .hbm, ⟨10, _⟩ => ⟨S512x512, .bf16⟩
  | .hbm, ⟨11, _⟩ => ⟨S_, .i32⟩
  | .hbm, ⟨12, _⟩ => ⟨S512, .i32⟩
  | .hbm, ⟨13, _⟩ => ⟨S512, .i1⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512, .i32⟩
  | .hbm, ⟨18, _⟩ => ⟨S512x1, .i32⟩
  | .hbm, ⟨19, _⟩ => ⟨S512x512, .f32⟩
  | .hbm, ⟨20, _⟩ => ⟨S512x512, .f32⟩
  | .hbm, ⟨21, _⟩ => ⟨S_, .f32⟩
  | .hbm, ⟨22, _⟩ => ⟨S512, .f32⟩
  | .hbm, ⟨23, _⟩ => ⟨S512x1, .f32⟩
  | .hbm, ⟨24, _⟩ => ⟨S512x1, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S_, .f32⟩
  | .hbm, ⟨29, _⟩ => ⟨S512, .f32⟩
  | .hbm, ⟨30, _⟩ => ⟨S512x1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S512x1, .f32⟩
  | .hbm, ⟨35, _⟩ => ⟨S512x1, .f32⟩
  | .hbm, ⟨36, _⟩ => ⟨S_, .f32⟩
  | .hbm, ⟨37, _⟩ => ⟨S512x1, .f32⟩
  | .hbm, ⟨38, _⟩ => ⟨S512x1, .f32⟩
  | .hbm, ⟨39, _⟩ => ⟨S512x1, .f32⟩
  | .hbm, ⟨40, _⟩ => ⟨S_, .f32⟩
  | .hbm, ⟨41, _⟩ => ⟨S512x1, .f32⟩
  | .hbm, ⟨42, _⟩ => ⟨S512x1, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S512x1, .f32⟩
  | .hbm, ⟨47, _⟩ => ⟨S512x1, .f32⟩
  | .hbm, ⟨48, _⟩ => ⟨S_, .f32⟩
  | .hbm, ⟨49, _⟩ => ⟨S512x1, .f32⟩
  | .hbm, ⟨50, _⟩ => ⟨S512x1, .f32⟩
  | .hbm, ⟨51, _⟩ => ⟨S512x1, .f32⟩
  | .hbm, ⟨52, _⟩ => ⟨S_, .f32⟩
  | .hbm, ⟨53, _⟩ => ⟨S512x1, .f32⟩
  | .hbm, ⟨54, _⟩ => ⟨S512x1, .f32⟩
  | .hbm, ⟨55, _⟩ => ⟨S_, .f32⟩
  | .hbm, ⟨56, _⟩ => ⟨S512x1, .f32⟩
  | .hbm, ⟨57, _⟩ => ⟨S512x1, .f32⟩
  | .hbm, ⟨58, _⟩ => ⟨S512x1, .f32⟩
  | .hbm, ⟨59, _⟩ => ⟨S_, .f32⟩
  | .hbm, ⟨60, _⟩ => ⟨S512x1, .f32⟩
  | .hbm, ⟨61, _⟩ => ⟨S512x1, .i1⟩
  | .hbm, ⟨62, _⟩ => ⟨S_, .f32⟩
  | .hbm, ⟨63, _⟩ => ⟨S512x1, .f32⟩
  | .hbm, ⟨64, _⟩ => ⟨S512x1, .f32⟩
  | .hbm, ⟨65, _⟩ => ⟨S512x1, .f32⟩
  | .hbm, ⟨66, _⟩ => ⟨S512x1, .i32⟩
  | .hbm, ⟨67, _⟩ => ⟨S2x512x1, .f32⟩
  | .hbm, ⟨68, _⟩ => ⟨S1x512x1, .f32⟩
  | .hbm, ⟨69, _⟩ => ⟨S512x1, .f32⟩
  | .hbm, ⟨70, _⟩ => ⟨S1x512x1, .f32⟩
  | .hbm, ⟨71, _⟩ => ⟨S512x1, .f32⟩
  | .hbm, ⟨72, _⟩ => ⟨S512x1, .f32⟩
  | .hbm, ⟨73, _⟩ => ⟨S512x1, .f32⟩
  | .hbm, ⟨74, _⟩ => ⟨S512x1, .i1⟩
  | .hbm, ⟨75, _⟩ => ⟨S512x1, .f32⟩
  | .hbm, ⟨76, _⟩ => ⟨S512x1, .f32⟩
  | .hbm, ⟨77, _⟩ => ⟨S512x1, .f32⟩
  | .hbm, ⟨78, _⟩ => ⟨S512x1, .f32⟩
  | .hbm, ⟨79, _⟩ => ⟨S512x1, .f32⟩
  | .hbm, ⟨80, _⟩ => ⟨S512x1, .f32⟩
  | .hbm, ⟨81, _⟩ => ⟨S512x1, .f32⟩
  | .hbm, ⟨82, _⟩ => ⟨S512, .f32⟩
  | .hbm, ⟨83, _⟩ => ⟨S512, .f32⟩
  | .hbm, ⟨84, _⟩ => ⟨S_, .f32⟩
  | .hbm, ⟨85, _⟩ => ⟨S512, .f32⟩
  | .hbm, ⟨86, _⟩ => ⟨S512, .f32⟩
  | .hbm, ⟨87, _⟩ => ⟨S512, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .local _ .vmem, ⟨0, _⟩ => ⟨S512x512, .bf16⟩
  | .local _ .vmem, ⟨1, _⟩ => ⟨S2000x512, .f32⟩
  | .local _ .vmem, ⟨2, _⟩ => ⟨S2000x512, .f32⟩
  | .local _ .vmem, ⟨3, _⟩ => ⟨S512x1, .i32⟩
  | .local _ .vmem, ⟨4, _⟩ => ⟨S512x1, .f32⟩
  | .local _ .vmem, ⟨5, _⟩ => ⟨S1x512x1, .f32⟩
  | .local _ .vmem, ⟨6, _⟩ => ⟨S1x512x1, .f32⟩
  | .local _ .vmem, ⟨7, _⟩ => ⟨S512x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_call1_v2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_cst_2 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_cst_4 : Ref sig .tc := ⟨.hbm, 43, rfl⟩
abbrev main_cst_5 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_v21 : Ref sig .tc := ⟨.hbm, 50, rfl⟩
abbrev main_v22 : Ref sig .tc := ⟨.hbm, 51, rfl⟩
abbrev main_cst_6 : Ref sig .tc := ⟨.hbm, 52, rfl⟩
abbrev main_v23 : Ref sig .tc := ⟨.hbm, 53, rfl⟩
abbrev main_v24 : Ref sig .tc := ⟨.hbm, 54, rfl⟩
abbrev main_cst_7 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_8 : Ref sig .tc := ⟨.hbm, 59, rfl⟩
abbrev main_v28 : Ref sig .tc := ⟨.hbm, 60, rfl⟩
abbrev main_v29 : Ref sig .tc := ⟨.hbm, 61, rfl⟩
abbrev main_cst_9 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_10 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_11 : Ref sig .tc := ⟨.hbm, 88, rfl⟩
abbrev main_v54 : Ref sig .tc := ⟨.hbm, 89, rfl⟩
abbrev main_cst_12 : Ref sig .tc := ⟨.hbm, 90, rfl⟩
abbrev main_v55 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v54 : BitVec 1 := Scalar.cmpi .eq arg1 c24_i32
  let v55 : BitVec 32 := Scalar.extui v54
  let c0_i32_20 : BitVec 32 := 0#32
  let v56 : BitVec 1 := Scalar.cmpi .ne v55 c0_i32_20
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bitsLt_bf16_f32 : FTy.bits .bf16 < FTy.bits .f32
  bcast_S_S512 : S_.BroadcastsInDim S512 (![] : Fin 0 → Fin S512.rank)
  bcast_S_S512x1 : S_.BroadcastsInDim S512x1 (![] : Fin 0 → Fin S512x1.rank)
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2000x512_S2000x512_0_0 : ∀ a, (![0, 0] : Fin 2 → Nat) a + S2000x512.size a ≤ S2000x512.size a
  h_S2000x512 : 0 < S2000x512.numel
  reduces_S2000x512_S2000 : S2000x512.Reduces [1] S2000
  shapeCasts_S2000_S2000x1 : S2000.ShapeCasts S2000x1
  transposes_S2000x1_p1_0_S1x2000 : S2000x1.Transposes [1, 0] S1x2000
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x2000_S512x2000 : S1x2000.Broadcasts S512x2000
  broadcasts_S512x1_S512x2000 : S512x1.Broadcasts S512x2000
  iota_S1x2000_d1_w32 : S1x2000.Iotas .tc 32 [1]
  reduces_S512x2000_S512 : S512x2000.Reduces [1] S512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  slices_S2x512x1_S1x512x1_0_0_0 : S2x512x1.Slices ![0, 0, 0] S1x512x1
  slices_S2x512x1_S1x512x1_1_0_0 : S2x512x1.Slices ![1, 0, 0] S1x512x1
  shapeCasts_S512x1_S512 : S512x1.ShapeCasts S512
  reducesTo_S512_S_d0 : S512.ReducesTo [0] S_
  gather_S100000x512_S512x1_S512x512_1_0_n_n_0_1_1512_wf : GatherDims.WF S100000x512 S512x1 S512x512 [1] [0] [] [0] [] 1 ![1, 512]
  dot_S512x512_S2000x512_S512x2000_1_1_0_0_n_n_wf : DotDims.WF S512x512 S2000x512 S512x2000 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .bf16 = 32 ∨ (Rect.block (s := S512x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S100000x512.size a
  hwx0_1 : ∀ i : grid0.Coords, EltTy.bits .f32 = 32 ∨ (Rect.block (s := S100000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .i32 = 32 ∨ (Rect.block (s := S512x1) S512x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .f32 = 32 ∨ (Rect.block (s := S512x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S2x512x1.size a
  hwx0_4 : ∀ i : grid0.Coords, EltTy.bits .f32 = 32 ∨ (Rect.block (s := S2x512x1) S1x512x1.size (cc0_transform_4 i) (hinb0_4 i)).WholeWords (EltTy.packing .f32)

variable [Facts₀]

def gather_S100000x512_S512x1_S512x512_1_0_n_n_0_1_1512 : GatherDims S100000x512 S512x1 S512x512 where
  offsetDims := [1]
  collapsedSliceDims := [0]
  operandBatchingDims := []
  startIndicesBatchingDims := []
  startIndexMap := [0]
  indexVectorDim := 1
  sliceSizes := ![1, 512]
  wf := gather_S100000x512_S512x1_S512x512_1_0_n_n_0_1_1512_wf
def dot_S512x512_S2000x512_S512x2000_1_1_0_0_n_n : DotDims S512x512 S2000x512 S512x2000 where
  lhsContracting := [1]
  rhsContracting := [1]
  lhsNonContracting := [0]
  rhsNonContracting := [0]
  lhsBatch := []
  rhsBatch := []
  wf := dot_S512x512_S2000x512_S512x2000_1_1_0_0_n_n_wf

abbrev win0_0 : Pipeline.Window sig grid0 :=
  Pipeline.Window.ofSpec (Memref.whole main_v3) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S512x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S512x512 : Shape := ⟨2, ![512, 512]⟩
abbrev S100000x512 : Shape := ⟨2, ![100000, 512]⟩
abbrev S512 : Shape := ⟨1, ![512]⟩
abbrev S_ : Shape := ⟨0, ![]⟩
abbrev S512x1 : Shape := ⟨2, ![512, 1]⟩
abbrev S100000 : Shape := ⟨1, ![100000]⟩
abbrev S100000x1 : Shape := ⟨2, ![100000, 1]⟩
abbrev S512x100000 : Shape := ⟨2, ![512, 100000]⟩
abbrev S512x1x1 : Shape := ⟨3, ![512, 1, 1]⟩
abbrev S1 : Shape := ⟨1, ![1]⟩
abbrev S1x1x1 : Shape := ⟨3, ![1, 1, 1]⟩
abbrev S512x2 : Shape := ⟨2, ![512, 2]⟩

abbrev nBuf : Space → Nat
  | .hbm => 151
  | .vmem => 0
  | .smem => 0
  | _ => 0

abbrev hbmTy0_0 (i : Nat) : BufTy := match i % 128 with
  | 0 => ⟨S512x512, .f32⟩
  | 1 => ⟨S100000x512, .f32⟩
  | 2 => ⟨S512, .i32⟩
  | 3 => ⟨S512x512, .f32⟩
  | 4 => ⟨S_, .f32⟩
  | 5 => ⟨S512, .f32⟩
  | 6 => ⟨S512x1, .f32⟩
  | 7 => ⟨S512x1, .f32⟩
  | 8 => ⟨S512x512, .f32⟩
  | 9 => ⟨S512x512, .f32⟩
  | 10 => ⟨S100000x512, .f32⟩
  | 11 => ⟨S_, .f32⟩
  | 12 => ⟨S100000, .f32⟩
  | 13 => ⟨S100000x1, .f32⟩
  | 14 => ⟨S100000x1, .f32⟩
  | 15 => ⟨S100000x512, .f32⟩
  | 16 => ⟨S100000x512, .f32⟩
  | 17 => ⟨S512x100000, .f32⟩
  | 18 => ⟨S_, .f32⟩
  | 19 => ⟨S_, .f32⟩
  | 20 => ⟨S_, .f32⟩
  | 21 => ⟨S512x100000, .f32⟩
  | 22 => ⟨S512x100000, .f32⟩
  | 23 => ⟨S_, .f32⟩
  | 24 => ⟨S512x100000, .f32⟩
  | 25 => ⟨S512x100000, .f32⟩
  | 26 => ⟨S512x1, .i32⟩
  | 27 => ⟨S_, .i32⟩
  | 28 => ⟨S512x1, .i32⟩
  | 29 => ⟨S512x1, .i1⟩
  | 30 => ⟨S_, .i32⟩
  | 31 => ⟨S512x1, .i32⟩
  | 32 => ⟨S512x1, .i32⟩
  | 33 => ⟨S512x1, .i32⟩
  | 34 => ⟨S512x1x1, .i32⟩
  | 35 => ⟨S1, .i32⟩
  | 36 => ⟨S_, .i32⟩
  | 37 => ⟨S512x1x1, .i32⟩
  | 38 => ⟨S512x1x1, .i1⟩
  | 39 => ⟨S1x1x1, .i32⟩
  | 40 => ⟨S512x1x1, .i32⟩
  | 41 => ⟨S512x1x1, .i1⟩
  | 42 => ⟨S512x1x1, .i1⟩
  | 43 => ⟨S_, .i1⟩
  | 44 => ⟨S512x1, .i1⟩
  | 45 => ⟨S512x1, .f32⟩
  | 46 => ⟨S_, .f32⟩
  | 47 => ⟨S512x1, .f32⟩
  | 48 => ⟨S512x1, .f32⟩
  | 49 => ⟨S512x1, .f32⟩
  | 50 => ⟨S_, .f32⟩
  | 51 => ⟨S512x1, .f32⟩
  | 52 => ⟨S512x1, .f32⟩
  | 53 => ⟨S_, .f32⟩
  | 54 => ⟨S_, .f32⟩
  | 55 => ⟨S_, .f32⟩
  | 56 => ⟨S512x1, .f32⟩
  | 57 => ⟨S512x1, .f32⟩
  | 58 => ⟨S_, .f32⟩
  | 59 => ⟨S512x1, .f32⟩
  | 60 => ⟨S512x1, .f32⟩
  | 61 => ⟨S512x1, .f32⟩
  | 62 => ⟨S_, .f32⟩
  | 63 => ⟨S512x1, .f32⟩
  | 64 => ⟨S512x1, .f32⟩
  | 65 => ⟨S_, .f32⟩
  | 66 => ⟨S512x1, .f32⟩
  | 67 => ⟨S512x1, .f32⟩
  | 68 => ⟨S512x1, .f32⟩
  | 69 => ⟨S_, .f32⟩
  | 70 => ⟨S512x1, .f32⟩
  | 71 => ⟨S512x1, .i1⟩
  | 72 => ⟨S_, .f32⟩
  | 73 => ⟨S512x1, .f32⟩
  | 74 => ⟨S512x1, .f32⟩
  | 75 => ⟨S512x1, .f32⟩
  | 76 => ⟨S512x100000, .f32⟩
  | 77 => ⟨S512x100000, .i1⟩
  | 78 => ⟨S_, .f32⟩
  | 79 => ⟨S512x100000, .f32⟩
  | 80 => ⟨S512x100000, .f32⟩
  | 81 => ⟨S_, .f32⟩
  | 82 => ⟨S512x100000, .f32⟩
  | 83 => ⟨S512x100000, .f32⟩
  | 84 => ⟨S512x100000, .f32⟩
  | 85 => ⟨S512, .i32⟩
  | 86 => ⟨S512, .f32⟩
  | 87 => ⟨S_, .i32⟩
  | 88 => ⟨S512, .i32⟩
  | 89 => ⟨S512, .i1⟩
  | 90 => ⟨S_, .i32⟩
  | 91 => ⟨S512, .i32⟩
  | 92 => ⟨S512, .i32⟩
  | 93 => ⟨S512, .i32⟩
  | 94 => ⟨S_, .i32⟩
  | 95 => ⟨S512, .i32⟩
  | 96 => ⟨S512, .i1⟩
  | 97 => ⟨S_, .i32⟩
  | 98 => ⟨S512, .i32⟩
  | 99 => ⟨S512, .i32⟩
  | 100 => ⟨S512, .i32⟩
  | 101 => ⟨S512x1, .i32⟩
  | 102 => ⟨S512x1, .i32⟩
  | 103 => ⟨S512x2, .i32⟩
  | 104 => ⟨S512x100000, .f32⟩
  | 105 => ⟨S_, .f32⟩
  | 106 => ⟨S512x100000, .f32⟩
  | 107 => ⟨S512x100000, .f32⟩
  | 108 => ⟨S_, .f32⟩
  | 109 => ⟨S512, .f32⟩
  | 110 => ⟨S_, .f32⟩
  | 111 => ⟨S512, .f32⟩
  | 112 => ⟨S512, .f32⟩
  | 113 => ⟨S512x1, .f32⟩
  | 114 => ⟨S512x100000, .f32⟩
  | 115 => ⟨S512x100000, .f32⟩
  | 116 => ⟨S512x100000, .f32⟩
  | 117 => ⟨S_, .f32⟩
  | 118 => ⟨S512, .f32⟩
  | 119 => ⟨S512x1, .f32⟩
  | 120 => ⟨S512x1, .f32⟩
  | 121 => ⟨S512x100000, .f32⟩
  | 122 => ⟨S512x100000, .f32⟩
  | 123 => ⟨S512x1, .i32⟩
  | 124 => ⟨S_, .i32⟩
  | 125 => ⟨S512x1, .i32⟩
  | 126 => ⟨S512x1, .i1⟩
  | 127 => ⟨S_, .i32⟩
  | _ => ⟨S512x512, .f32⟩

abbrev hbmTy0_1 (i : Nat) : BufTy := match i % 128 with
  | 0 => ⟨S512x1, .i32⟩
  | 1 => ⟨S512x1, .i32⟩
  | 2 => ⟨S512x1, .i32⟩
  | 3 => ⟨S512x1x1, .i32⟩
  | 4 => ⟨S1, .i32⟩
  | 5 => ⟨S_, .i32⟩
  | 6 => ⟨S512x1x1, .i32⟩
  | 7 => ⟨S512x1x1, .i1⟩
  | 8 => ⟨S1x1x1, .i32⟩
  | 9 => ⟨S512x1x1, .i32⟩
  | 10 => ⟨S512x1x1, .i1⟩
  | 11 => ⟨S512x1x1, .i1⟩
  | 12 => ⟨S_, .i1⟩
  | 13 => ⟨S512x1, .i1⟩
  | 14 => ⟨S512x1, .f32⟩
  | 15 => ⟨S_, .f32⟩
  | 16 => ⟨S512x1, .f32⟩
  | 17 => ⟨S512x1, .f32⟩
  | 18 => ⟨S_, .f32⟩
  | 19 => ⟨S_, .f32⟩
  | 20 => ⟨S_, .f32⟩
  | 21 => ⟨S_, .f32⟩
  | 22 => ⟨S_, .f32⟩
  | _ => ⟨S512x512, .f32⟩

abbrev hbmTy (i : Nat) : BufTy := match i / 128 with
  | 0 => hbmTy0_0 i
  | 1 => hbmTy0_1 i
  | _ => ⟨S512x512, .f32⟩

abbrev bufTy : (tb : Table) → Fin (tcTables nBuf tb) → BufTy
  | .hbm, ⟨i, _⟩ => hbmTy i
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_cst_0 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v7 : Ref sig .tc := ⟨.hbm, 25, rfl⟩
abbrev main_v8 : Ref sig .tc := ⟨.hbm, 26, rfl⟩
abbrev main_call3_c : Ref sig .tc := ⟨.hbm, 27, rfl⟩
abbrev main_call3_v0 : Ref sig .tc := ⟨.hbm, 28, rfl⟩
abbrev main_call3_v1 : Ref sig .tc := ⟨.hbm, 29, rfl⟩
abbrev main_call3_c_0 : Ref sig .tc := ⟨.hbm, 30, rfl⟩
abbrev main_call3_v2 : Ref sig .tc := ⟨.hbm, 31, rfl⟩
abbrev main_call3_v3 : Ref sig .tc := ⟨.hbm, 32, rfl⟩
abbrev main_call3_v4 : Ref sig .tc := ⟨.hbm, 33, rfl⟩
abbrev main_call3_v5 : Ref sig .tc := ⟨.hbm, 34, rfl⟩
abbrev main_call3_c_1 : Ref sig .tc := ⟨.hbm, 35, rfl⟩
abbrev main_call3_c_2 : Ref sig .tc := ⟨.hbm, 36, rfl⟩
abbrev main_call3_v6 : Ref sig .tc := ⟨.hbm, 37, rfl⟩
abbrev main_call3_v7 : Ref sig .tc := ⟨.hbm, 38, rfl⟩
abbrev main_call3_v8 : Ref sig .tc := ⟨.hbm, 39, rfl⟩
abbrev main_call3_v9 : Ref sig .tc := ⟨.hbm, 40, rfl⟩
abbrev main_call3_v10 : Ref sig .tc := ⟨.hbm, 41, rfl⟩
abbrev main_call3_v11 : Ref sig .tc := ⟨.hbm, 42, rfl⟩
abbrev main_call3_c_3 : Ref sig .tc := ⟨.hbm, 43, rfl⟩
abbrev main_call3_v12 : Ref sig .tc := ⟨.hbm, 44, rfl⟩
abbrev main_call3_v13 : Ref sig .tc := ⟨.hbm, 45, rfl⟩
abbrev main_call3_cst : Ref sig .tc := ⟨.hbm, 46, rfl⟩
abbrev main_call3_v14 : Ref sig .tc := ⟨.hbm, 47, rfl⟩
abbrev main_v9 : Ref sig .tc := ⟨.hbm, 48, rfl⟩
abbrev main_v10 : Ref sig .tc := ⟨.hbm, 49, rfl⟩
abbrev main_cst_1 : Ref sig .tc := ⟨.hbm, 50, rfl⟩
abbrev main_v11 : Ref sig .tc := ⟨.hbm, 51, rfl⟩
abbrev main_v12 : Ref sig .tc := ⟨.hbm, 52, rfl⟩
abbrev main_cst_2 : Ref sig .tc := ⟨.hbm, 53, rfl⟩
abbrev main_cst_3 : Ref sig .tc := ⟨.hbm, 54, rfl⟩
abbrev main_call4_v0 : Ref sig .tc := ⟨.hbm, 55, rfl⟩
abbrev main_call4_v1 : Ref sig .tc := ⟨.hbm, 56, rfl⟩
abbrev main_call4_v2 : Ref sig .tc := ⟨.hbm, 57, rfl⟩
abbrev main_call4_v3 : Ref sig .tc := ⟨.hbm, 58, rfl⟩
abbrev main_call4_v4 : Ref sig .tc := ⟨.hbm, 59, rfl⟩
abbrev main_v13 : Ref sig .tc := ⟨.hbm, 60, rfl⟩
abbrev main_v14 : Ref sig .tc := ⟨.hbm, 61, rfl⟩
abbrev main_cst_4 : Ref sig .tc := ⟨.hbm, 62, rfl⟩
abbrev main_v15 : Ref sig .tc := ⟨.hbm, 63, rfl⟩
abbrev main_v16 : Ref sig .tc := ⟨.hbm, 64, rfl⟩
abbrev main_cst_5 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_cst_6 : Ref sig .tc := ⟨.hbm, 69, rfl⟩
abbrev main_v20 : Ref sig .tc := ⟨.hbm, 70, rfl⟩
abbrev main_v21 : Ref sig .tc := ⟨.hbm, 71, rfl⟩
abbrev main_cst_7 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_cst_8 : Ref sig .tc := ⟨.hbm, 78, rfl⟩
abbrev main_v27 : Ref sig .tc := ⟨.hbm, 79, rfl⟩
abbrev main_v28 : Ref sig .tc := ⟨.hbm, 80, rfl⟩
abbrev main_cst_9 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_c : Ref sig .tc := ⟨.hbm, 87, rfl⟩
abbrev main_v34 : Ref sig .tc := ⟨.hbm, 88, rfl⟩
abbrev main_v35 : Ref sig .tc := ⟨.hbm, 89, rfl⟩
abbrev main_c_10 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_c_11 : Ref sig .tc := ⟨.hbm, 94, rfl⟩
abbrev main_v39 : Ref sig .tc := ⟨.hbm, 95, rfl⟩
abbrev main_v40 : Ref sig .tc := ⟨.hbm, 96, rfl⟩
abbrev main_c_12 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_cst_13 : Ref sig .tc := ⟨.hbm, 105, rfl⟩
abbrev main_v48 : Ref sig .tc := ⟨.hbm, 106, rfl⟩
abbrev main_v49 : Ref sig .tc := ⟨.hbm, 107, rfl⟩
abbrev main_call7_cst : Ref sig .tc := ⟨.hbm, 108, rfl⟩
abbrev main_call7_v0 : Ref sig .tc := ⟨.hbm, 109, rfl⟩
abbrev main_call7_cst_0 : Ref sig .tc := ⟨.hbm, 110, rfl⟩
abbrev main_call7_v1 : Ref sig .tc := ⟨.hbm, 111, rfl⟩
abbrev main_call7_v2 : Ref sig .tc := ⟨.hbm, 112, rfl⟩
abbrev main_call7_v3 : Ref sig .tc := ⟨.hbm, 113, rfl⟩
abbrev main_call7_v4 : Ref sig .tc := ⟨.hbm, 114, rfl⟩
abbrev main_call7_v5 : Ref sig .tc := ⟨.hbm, 115, rfl⟩
abbrev main_call7_v6 : Ref sig .tc := ⟨.hbm, 116, rfl⟩
abbrev main_call7_cst_1 : Ref sig .tc := ⟨.hbm, 117, rfl⟩
abbrev main_call7_v7 : Ref sig .tc := ⟨.hbm, 118, rfl⟩
abbrev main_call7_v8 : Ref sig .tc := ⟨.hbm, 119, rfl⟩
abbrev main_call7_v9 : Ref sig .tc := ⟨.hbm, 120, rfl⟩
abbrev main_call7_v10 : Ref sig .tc := ⟨.hbm, 121, rfl⟩
abbrev main_v50 : Ref sig .tc := ⟨.hbm, 122, rfl⟩
abbrev main_v51 : Ref sig .tc := ⟨.hbm, 123, rfl⟩
abbrev main_call8_c : Ref sig .tc := ⟨.hbm, 124, rfl⟩
abbrev main_call8_v0 : Ref sig .tc := ⟨.hbm, 125, rfl⟩
abbrev main_call8_v1 : Ref sig .tc := ⟨.hbm, 126, rfl⟩
abbrev main_call8_c_0 : Ref sig .tc := ⟨.hbm, 127, rfl⟩
abbrev main_call8_v2 : Ref sig .tc := ⟨.hbm, 128, rfl⟩
abbrev main_call8_v3 : Ref sig .tc := ⟨.hbm, 129, rfl⟩
abbrev main_call8_v4 : Ref sig .tc := ⟨.hbm, 130, rfl⟩
abbrev main_call8_v5 : Ref sig .tc := ⟨.hbm, 131, rfl⟩
abbrev main_call8_c_1 : Ref sig .tc := ⟨.hbm, 132, rfl⟩
abbrev main_call8_c_2 : Ref sig .tc := ⟨.hbm, 133, rfl⟩
abbrev main_call8_v6 : Ref sig .tc := ⟨.hbm, 134, rfl⟩
abbrev main_call8_v7 : Ref sig .tc := ⟨.hbm, 135, rfl⟩
abbrev main_call8_v8 : Ref sig .tc := ⟨.hbm, 136, rfl⟩
abbrev main_call8_v9 : Ref sig .tc := ⟨.hbm, 137, rfl⟩
abbrev main_call8_v10 : Ref sig .tc := ⟨.hbm, 138, rfl⟩
abbrev main_call8_v11 : Ref sig .tc := ⟨.hbm, 139, rfl⟩
abbrev main_call8_c_3 : Ref sig .tc := ⟨.hbm, 140, rfl⟩
abbrev main_call8_v12 : Ref sig .tc := ⟨.hbm, 141, rfl⟩
abbrev main_call8_v13 : Ref sig .tc := ⟨.hbm, 142, rfl⟩
abbrev main_call8_cst : Ref sig .tc := ⟨.hbm, 143, rfl⟩
abbrev main_call8_v14 : Ref sig .tc := ⟨.hbm, 144, rfl⟩
abbrev main_v52 : Ref sig .tc := ⟨.hbm, 145, rfl⟩
abbrev main_cst_14 : Ref sig .tc := ⟨.hbm, 146, rfl⟩
abbrev main_v53 : Ref sig .tc := ⟨.hbm, 147, rfl⟩
abbrev main_cst_15 : Ref sig .tc := ⟨.hbm, 148, rfl⟩
abbrev main_v54 : Ref sig .tc := ⟨.hbm, 149, rfl⟩
abbrev main_v55 : Ref sig .tc := ⟨.hbm, 150, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  reducesTo_S100000x512_S100000_d1 : S100000x512.ReducesTo [1] S100000
  bcast_S100000_S100000x1_0 : S100000.BroadcastsInDim S100000x1 (![0] : Fin 1 → Fin S100000x1.rank)
  bcast_S100000x1_S100000x512_0_1 : S100000x1.BroadcastsInDim S100000x512 (![0, 1] : Fin 2 → Fin S100000x512.rank)
  bcast_S_S512x100000 : S_.BroadcastsInDim S512x100000 (![] : Fin 0 → Fin S512x100000.rank)
  bcast_S_S512x1 : S_.BroadcastsInDim S512x1 (![] : Fin 0 → Fin S512x1.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  bcast_S512x1_S512x100000_0_1 : S512x1.BroadcastsInDim S512x100000 (![0, 1] : Fin 2 → Fin S512x100000.rank)
  shapeCasts_S512x1_S512 : S512x1.ShapeCasts S512
  bcast_S_S512 : S_.BroadcastsInDim S512 (![] : Fin 0 → Fin S512.rank)
  concatenates_S512x1_S512x1_S512x2_d1 : Shape.Concatenates [S512x1, S512x1] S512x2 1
  reducesTo_S512x100000_S512_d1 : S512x100000.ReducesTo [1] S512
  reducesTo_S512x1_S_d0_1 : S512x1.ReducesTo [0, 1] S_
  dot_S512x512_S100000x512_S512x100000_1_1_0_0_n_n_wf : DotDims.WF S512x512 S100000x512 S512x100000 [1] [1] [0] [0] [] []
  gather_S512x100000_S512x1x1_S512x1_n_1_0_0_1_2_11_wf : GatherDims.WF S512x100000 S512x1x1 S512x1 [] [1] [0] [1] [0] 2 ![1, 1]
  scatter_S512x100000_S512x2_S512_n_01_01_1_wf : ScatterDims.WF S512x100000 S512x2 S512 [] [0, 1] [0, 1] 1

variable [Facts₀]

def dot_S512x512_S100000x512_S512x100000_1_1_0_0_n_n : DotDims S512x512 S100000x512 S512x100000 where
  lhsContracting := [1]
  rhsContracting := [1]
  lhsNonContracting := [0]
  rhsNonContracting := [0]
  lhsBatch := []
  rhsBatch := []
  wf := dot_S512x512_S100000x512_S512x100000_1_1_0_0_n_n_wf
def gather_S512x100000_S512x1x1_S512x1_n_1_0_0_1_2_11 : GatherDims S512x100000 S512x1x1 S512x1 where
  offsetDims := []
  collapsedSliceDims := [1]
  operandBatchingDims := [0]
  startIndicesBatchingDims := [0]
  startIndexMap := [1]
  indexVectorDim := 2
  sliceSizes := ![1, 1]
  wf := gather_S512x100000_S512x1x1_S512x1_n_1_0_0_1_2_11_wf
def scatter_S512x100000_S512x2_S512_n_01_01_1 : ScatterDims S512x100000 S512x2 S512 where
  updateWindowDims := []
  insertedWindowDims := [0, 1]
  scatterDimsToOperandDims := [0, 1]
  indexVectorDim := 1
  wf := scatter_S512x100000_S512x2_S512_n_01_01_1_wf

class Facts : Prop extends Facts₀ where

variable [Facts]
-- ==== Proof.Spec.lean ====
/-
  What the two programs compute, entry by entry, on the extended reals.

  Both take an embedding matrix, a weight matrix whose rows are classes, and one class label per embedding row.
  Each embedding row and each weight row is divided by its Euclidean norm; the cosine of a pair of rows is their
  inner product, clipped into [-(1 - ε), 1 - ε]. The label's cosine p gets an additive angular margin,
  φ = cos(θ + m) = p cos m - sin θ sin m where the angle allows it and p - m sin m otherwise. A row of logits holds φ
  in the label's column and, elsewhere, the cosine c, raised to 1.2 c + 0.2 where it exceeds φ; all times 64. The loss
  is the mean over the rows of (log-sum-exp of the row) - (the label's logit).

  The two programs differ in three places, and the definitions below name each side's spelling:
    * the cosine: the reference normalises the weight row first (`cosRef`); the other program contracts with the raw
      row and scales the product by the reciprocal root of the row's sum of squares (`cosKer`);
    * the log-sum-exp: the reference shifts a row by its maximum (`lossRef`); the other program shifts by a constant,
      sums the classes in two halves of twenty-five tiles of two thousand, and joins the halves' logarithms by
      log(e^a + e^b) = max a b + log(1 + e^(-|a - b|)) (`tileSum`, `halfLse`, `logAddExp`, `lossKer`);
    * the mean: the reference negates the mean of (label's logit - log-sum-exp).
  Float literals are kept as the words both programs carry; only their being real numbers is ever used, except for
  the zero word.
-/
import Idealize.ShloMosaic.PureOps.Ideal
import Idealize.ShloMosaic.PureOps.Ideal.Laws

noncomputable section

namespace Cert.Spec

open Idealize.ShloMosaic

/-- The extended real a 32-bit float word denotes. -/
abbrev lit (b : BitVec 32) : EReal := Ideal.ofBits .f32 b

/-- A cosine clipped into [-(1 - ε), 1 - ε], spelt `min hi (max lo x)` by both programs. -/
def clip (x : EReal) : EReal := min (lit 0x3F7FFFFE#32) (max (lit 0xBF7FFFFE#32) x)

/-- Entry `d` of a row divided by its Euclidean norm. -/
def unitRow {n : ℕ} (v : Fin n → EReal) (d : Fin n) : EReal := Ideal.div (v d) (Ideal.sqrt (∑ k, v k * v k))

/-- The reference's cosine of a (normalised) embedding row `e` and a weight row `wt`: normalise `wt`, contract, clip. -/
def cosRef {n : ℕ} (e wt : Fin n → EReal) : EReal := clip (∑ d, e d * unitRow wt d)

/-- The other program's: contract with the raw weight row, scale by the reciprocal root of its sum of squares, clip. -/
def cosKer {n : ℕ} (e wt : Fin n → EReal) : EReal := clip ((∑ d, e d * wt d) * Ideal.rsqrt (∑ k, wt k * wt k))

/-- The additive angular margin on the label's cosine `p`: `p cos m - √(clip (1 - p²)) sin m` above the threshold
    `cos(π - m)`, and `p - m sin m` at or below it. -/
def margin (p : EReal) : EReal :=
  if lit 0xBF60A940#32 < p then
    p * lit 0x3F60A940#32
      - Ideal.sqrt (min (lit 0x3F7FFFFE#32) (max (lit 0x33D6BF95#32) (lit 0x3F800000#32 - p * p))) * lit 0x3EF57744#32
  else p - lit 0x3E757744#32

/-- One entry of a row of logits, from the entry's cosine `c`, the row's margin value `φ` and whether the column is
    the row's label. -/
def logit (c φ : EReal) (isLabel : Bool) : EReal :=
  (if isLabel then φ else if φ < c then lit 0x3F99999A#32 * c + lit 0x3E4CCCCD#32 else c) * lit 0x42800000#32

/-- The sum of `exp (logit - offset)` over the two thousand columns of tile `t` of a row of logits `x` (columns are
    natural numbers; only those below the number of classes are ever read). -/
def tileSum (x : ℕ → EReal) (t : ℕ) : EReal := ∑ j : Fin 2000, Ideal.exp (x (t * 2000 + j.val) - lit 0x42B33332#32)

/-- Half `p` of the classes (twenty-five tiles): the offset plus the logarithm of its tiles' sums. -/
def halfLse (x : ℕ → EReal) (p : ℕ) : EReal :=
  lit 0x42B33332#32 + Ideal.log (∑ k ∈ Finset.range 25, tileSum x (25 * p + k))

/-- `log (e^a + e^b)` as `max a b + log (1 + e^(-|a - b|))`. -/
def logAddExp (a b : EReal) : EReal := max a b + Ideal.log1p (Ideal.exp (-(max (a - b) (-(a - b)))))

/-- The loss the tiled program returns: the mean of (the two halves joined) - (margin value × 64). -/
def lossKer (X : Fin 512 → ℕ → EReal) (φ : Fin 512 → EReal) : EReal :=
  Ideal.div (∑ b, (logAddExp (halfLse (X b) 0) (halfLse (X b) 1) - φ b * lit 0x42800000#32)) (lit 0x44000000#32)

/-- The loss the reference returns, with `M b` the shift it subtracts from row `b` (its maximum) and `g b` the row's
    label: minus the mean of the label's log-probability. -/
def lossRef (X : Fin 512 → ℕ → EReal) (M : Fin 512 → EReal) (g : Fin 512 → Fin 100000) : EReal :=
  -(Ideal.div (∑ b, ((X b (g b).val - M b) - Ideal.log (∑ c : Fin 100000, Ideal.exp (X b c.val - M b))))
      (lit 0x44000000#32))

/-- A select on a float "greater than" test is an `if` on the order. -/
theorem select_ogt {α : Type} (x y : EReal) (a b : α) :
    Scalar.select (Ideal.cmp .ogt x y) a b = if y < x then a else b := by
  unfold Scalar.select Ideal.cmp
  by_cases h : y < x <;> simp [h]

end Cert.Spec

end
-- ==== Proof.KArrays.lean ====
/-
  The tiled region's four operands and its result, named as arrays of extended reals (and of label words) over
  their literal shapes, as the region finds them and as the run leaves it.
-/
import proofs.«423590_j54898271977563_3_alg».proof.Proof.Gen.KernelIdeal.Frame
import Idealize.ShloMosaic.PureOps.Ideal

noncomputable section

namespace Cert.KernelIdeal.Arrays

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The normalised embeddings the region is handed. -/
abbrev eArr (c : Dev nD) : S512x512.Idx → EReal := V m c main_v3
/-- The weights. -/
abbrev wArr (c : Dev nD) : S100000x512.Idx → EReal := V m c main_arg1
/-- The labels, as a column of 32-bit words. -/
abbrev gtArr (c : Dev nD) : S512x1.Idx → BitVec 32 := V m c main_v33
/-- The margin values, as a column. -/
abbrev phiArr (c : Dev nD) : S512x1.Idx → EReal := V m c main_v32
/-- The region's result array after the run, for any proof data. -/
abbrev outArr (dats : (p : Fin 1) → (c : Dev nD) → Dat τ (Elt Ideal) Unit ℕ (UR sig nD τ) ℕ (cfgs p) c) (c : Dev nD) :
    S2x512x1.Idx → EReal := (dats 0 c).arrAt 4 cfg0.N
/-- The three arguments of the program, as launched. -/
abbrev embArg (c : Dev nD) : S512x512.Idx → EReal := m ((c : Thread nD τ).loc main_arg0)
abbrev wArg (c : Dev nD) : S100000x512.Idx → EReal := m ((c : Thread nD τ).loc main_arg1)
abbrev gtArg (c : Dev nD) : S512.Idx → BitVec 32 := m ((c : Thread nD τ).loc main_arg2)

end Cert.KernelIdeal.Arrays

end
-- ==== Proof.KHost.lean ====
/-
  The host operations around the tiled region, as values.

  Before the region the host normalises the embedding rows (e), gathers each row's label row of the weights,
  normalises it, contracts it with e, clips (the label's cosine) and applies the margin (φ); it hands the region e, the
  weights, the labels as a column and φ. After the region it joins the two halves' values of each row by
  log (e^a + e^b), subtracts φ·64 and takes the mean over the 512 rows.
-/
import proofs.«423590_j54898271977563_3_alg».proof.Proof.Gen.KernelIdeal.Frame
import proofs.«423590_j54898271977563_3_alg».proof.Proof.Spec
import proofs.«423590_j54898271977563_3_alg».proof.Proof.KArrays
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.Host

open Cert.KernelIdeal Cert.KernelIdeal.Gen Cert.KernelIdeal.Arrays Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

open Idealize.ShloMosaic.StableHlo

/-! ## The stages of the host operations, as functions of their operands -/

section Stages
variable {F : FTy → Type} [FloatOps F]

/-- The sums of the rows of a square array (the host's float sum over the second axis, from zero). -/
def rowSum (y : (⟨S512x512, .f32⟩ : BufTy).Contents (Elt F)) : (⟨S512, .f32⟩ : BufTy).Contents (Elt F) :=
  Host.reduceAdd y (constant S_ .f32 0x00000000#32) reducesTo_S512x512_S512_d1 h_S_

/-- The Euclidean norms of the rows, as a column. -/
def normCol (x : (⟨S512x512, .f32⟩ : BufTy).Contents (Elt F)) : (⟨S512x1, .f32⟩ : BufTy).Contents (Elt F) :=
  Host.sqrt (broadcastInDim S512x1 ![0] bcast_S512_S512x1_0 (rowSum (mulf x x)))

/-- The rows divided by their norms. -/
def unitRows (x : (⟨S512x512, .f32⟩ : BufTy).Contents (Elt F)) : (⟨S512x512, .f32⟩ : BufTy).Contents (Elt F) :=
  Host.divf x (broadcastInDim S512x512 ![0, 1] bcast_S512x1_S512x512_0_1 (normCol x))

end Stages

/-! ## The stages read at an index -/

theorem rowSum_apply (y : S512x512.Idx → EReal) (b : Fin 512) :
    rowSum (F := Ideal) y (ix1 b) = ∑ k : Fin 512, y (ix2 b k) := by
  unfold rowSum
  simp only [Host.reduceAdd, Ideal.hostReduceAdd_def]
  rw [Ideal.hostReduceAdd_single reducesTo_S512x512_S512_d1 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

theorem bcastCol_apply {α : Type} (y : S512.Idx → α) (b : Fin 512) :
    broadcastInDim S512x1 ![0] bcast_S512_S512x1_0 y (ix2 b (0 : Fin 1)) = y (ix1 b) :=
  broadcastInDim_apply _ bcast_S512_S512x1_0 y _ (ix1 b) (fun a => match a with
    | ⟨0, _⟩ => by show b.val = if (512 : Nat) = 1 then 0 else b.val; rw [if_neg (by decide)])

theorem bcastRow_apply {α : Type} (y : S512x1.Idx → α) (b d : Fin 512) :
    broadcastInDim S512x512 ![0, 1] bcast_S512x1_S512x512_0_1 y (ix2 b d) = y (ix2 b (0 : Fin 1)) :=
  broadcastInDim_apply _ bcast_S512x1_S512x512_0_1 y _ (ix2 b (0 : Fin 1)) (fun a => match a with
    | ⟨0, _⟩ => by show b.val = if (512 : Nat) = 1 then 0 else b.val; rw [if_neg (by decide)]
    | ⟨1, _⟩ => by show 0 = if (1 : Nat) = 1 then 0 else d.val; rw [if_pos rfl])

theorem hsqrt_apply {s : Shape} (y : FVec Ideal s .f32) (i : s.Idx) : Host.sqrt y i = Ideal.sqrt (y i) := rfl
theorem hdivf_apply {s : Shape} (x y : FVec Ideal s .f32) (i : s.Idx) : Host.divf x y i = Ideal.div (x i) (y i) := rfl

theorem normCol_apply (x : S512x512.Idx → EReal) (b : Fin 512) :
    normCol (F := Ideal) x (ix2 b (0 : Fin 1)) = Ideal.sqrt (∑ k : Fin 512, x (ix2 b k) * x (ix2 b k)) := by
  unfold normCol
  rw [hsqrt_apply, bcastCol_apply, rowSum_apply]
  rfl

theorem unitRows_apply (x : S512x512.Idx → EReal) (b d : Fin 512) :
    unitRows (F := Ideal) x (ix2 b d) = Spec.unitRow (fun k : Fin 512 => x (ix2 b k)) d := by
  unfold unitRows Spec.unitRow
  rw [hdivf_apply, bcastRow_apply, normCol_apply]

/-! ## The region's operands -/

/-- The region's first operand is the normalised embeddings (their conversion to the narrower format is the identity on the values). -/
theorem v3_val (c : Dev nD) :
    (V m c main_v3 : S512x512.Idx → EReal) = unitRows (F := Ideal) (embArg m c) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results_simp
  rfl

/-- The region's first operand: the embedding rows divided by their norms. -/
theorem V_e (c : Dev nD) (b d : Fin 512) :
    eArr m c (ix2 b d) = Spec.unitRow (fun k : Fin 512 => embArg m c (ix2 b k)) d := by
  show (V m c main_v3 : S512x512.Idx → EReal) (ix2 b d) = _
  rw [v3_val, unitRows_apply]

/-- Its second: the weights, as launched. -/
theorem V_w (c : Dev nD) : wArr m c = wArg m c := V_main_arg1 m c

/-- The labels' column is the labels reshaped. -/
theorem gt_val (c : Dev nD) :
    (V m c main_v33 : S512x1.Idx → BitVec 32) = shapeCast S512x1 (gtArg m c) shapeCasts_S512_S512x1 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results_simp
  rfl

/-- Its third: the labels, as a column. -/
theorem V_gt (c : Dev nD) (b : Fin 512) : gtArr m c (ix2 b (0 : Fin 1)) = gtArg m c (ix1 b) := by
  show (V m c main_v33 : S512x1.Idx → BitVec 32) (ix2 b (0 : Fin 1)) = _
  rw [gt_val]
  exact shapeCast_apply _ shapeCasts_S512_S512x1 (ix2 b (0 : Fin 1)) (ix1 b) (by
    rw [Shape.rowMajor_val_one, Shape.rowMajor_val_two]
    show b.val = b.val * 1 + 0
    omega)

/-! ## The gather of the label rows -/

/-- The row gather read at an index: row `b` of the result is the operand's row at the start index of `b`, read signed
    and clamped into the rows. -/
theorem gatherRows_apply {α : Type} (x : S100000x512.Idx → α) (idx : IVec S512x1 32) (b d : Fin 512) :
    Host.gather gather_S100000x512_S512x1_S512x512_1_0_n_n_0_1_1512 x idx (ix2 b d)
      = x (ix2 (⟨min (idx (ix2 b (0 : Fin 1))).toInt.toNat (100000 - 1), by omega⟩ : Fin 100000) d) := by
  unfold Host.gather
  refine congrArg x (funext fun a => Fin.ext ?_)
  match a with
  | ⟨0, _⟩ =>
    show gather_S100000x512_S512x1_S512x512_1_0_n_n_0_1_1512.start (ix2 b d) idx 0
        + gather_S100000x512_S512x1_S512x512_1_0_n_n_0_1_1512.batchCoord (ix2 b d) 0
        + gather_S100000x512_S512x1_S512x512_1_0_n_n_0_1_1512.offCoord (ix2 b d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x512_S512x1_S512x512_1_0_n_n_0_1_1512.startIndexMap from List.mem_singleton.mpr rfl)]
    have hsi : gather_S100000x512_S512x1_S512x512_1_0_n_n_0_1_1512.siIdx (ix2 b d)
        ⟨List.idxOf (0 : Fin 2) gather_S100000x512_S512x1_S512x512_1_0_n_n_0_1_1512.startIndexMap,
          List.idxOf_lt_length_iff.2 (List.mem_singleton.mpr rfl)⟩ = ix2 b (0 : Fin 1) := by
      funext e; refine Fin.ext ?_
      match e with
      | ⟨0, _⟩ => rfl
      | ⟨1, _⟩ => rfl
    rw [hsi]
    rfl
  | ⟨1, _⟩ =>
    show gather_S100000x512_S512x1_S512x512_1_0_n_n_0_1_1512.start (ix2 b d) idx 1
        + gather_S100000x512_S512x1_S512x512_1_0_n_n_0_1_1512.batchCoord (ix2 b d) 1
        + gather_S100000x512_S512x1_S512x512_1_0_n_n_0_1_1512.offCoord (ix2 b d) 1 = d.val
    rw [GatherDims.batchCoord_eq_zero _ _ _ List.not_mem_nil]
    have hst : gather_S100000x512_S512x1_S512x512_1_0_n_n_0_1_1512.start (ix2 b d) idx 1 = 0 := by
      unfold GatherDims.start
      rw [dif_neg (show (1 : Fin 2) ∉ gather_S100000x512_S512x1_S512x512_1_0_n_n_0_1_1512.startIndexMap from by
        intro h; exact absurd (List.mem_singleton.mp h) (by decide))]
    rw [hst]
    unfold GatherDims.offCoord
    rw [dif_pos ((GatherDims.mem_sKept _ _).2 ⟨by intro h; exact absurd (List.mem_singleton.mp h) (by decide), List.not_mem_nil⟩)]
    simp only [Nat.zero_add]
    rfl

/-! ## The margin column -/

section PhiStages
variable {F : FTy → Type} [FloatOps F]

/-- A scalar constant spread over a column. -/
def colConst (b : BitVec 32) : (⟨S512x1, .f32⟩ : BufTy).Contents (Elt F) :=
  broadcastInDim S512x1 ![] bcast_S_S512x1 (constant S_ .f32 b)

/-- The start indices of the gather, as a column: a negative label moved up by the number of classes. -/
def labelCol (gt : IVec S512 32) : IVec S512x1 32 :=
  broadcastInDim S512x1 ![0] bcast_S512_S512x1_0
    (select (cmpi .slt gt (broadcastInDim S512 ![] bcast_S_S512 (constantI S_ 32 0#32)))
      (addi gt (broadcastInDim S512 ![] bcast_S_S512 (constantI S_ 32 100000#32))) gt)

/-- The label rows of the weights. -/
def gatherStage (w : (⟨S100000x512, .f32⟩ : BufTy).Contents (Elt F)) (gt : IVec S512 32) :
    (⟨S512x512, .f32⟩ : BufTy).Contents (Elt F) :=
  Host.gather gather_S100000x512_S512x1_S512x512_1_0_n_n_0_1_1512 w (labelCol gt)

/-- The rows of `e` contracted with the normalised rows of `wr`, clipped, as a column. -/
def cosStage (e wr : (⟨S512x512, .f32⟩ : BufTy).Contents (Elt F)) : (⟨S512x1, .f32⟩ : BufTy).Contents (Elt F) :=
  minimumf (colConst 0x3F7FFFFE#32) (maximumf (colConst 0xBF7FFFFE#32)
    (broadcastInDim S512x1 ![0] bcast_S512_S512x1_0 (rowSum (mulf e (unitRows wr)))))

/-- The margin applied to a column of cosines. -/
def marginStage (p : (⟨S512x1, .f32⟩ : BufTy).Contents (Elt F)) : (⟨S512x1, .f32⟩ : BufTy).Contents (Elt F) :=
  select (cmpf .ogt p (colConst 0xBF60A940#32))
    (subf (mulf p (colConst 0x3F60A940#32))
      (mulf (Host.sqrt (minimumf (colConst 0x3F7FFFFE#32) (maximumf (colConst 0x33D6BF95#32)
        (subf (colConst 0x3F800000#32) (mulf p p))))) (colConst 0x3EF57744#32)))
    (subf p (colConst 0x3E757744#32))

end PhiStages

theorem marginStage_apply (p : S512x1.Idx → EReal) (i : S512x1.Idx) :
    marginStage (F := Ideal) p i = Spec.margin (p i) := by
  unfold marginStage Spec.margin
  rw [select_apply, cmpf_apply, Ideal.cmpf_def, Spec.select_ogt]
  rfl

theorem cosStage_apply (e wr : S512x512.Idx → EReal) (b : Fin 512) :
    cosStage (F := Ideal) e wr (ix2 b (0 : Fin 1))
      = Spec.clip (∑ d : Fin 512, e (ix2 b d) * Spec.unitRow (fun k : Fin 512 => wr (ix2 b k)) d) := by
  unfold cosStage Spec.clip
  rw [minimumf_apply, maximumf_apply, bcastCol_apply, rowSum_apply]
  simp only [mulf_apply, unitRows_apply]
  rfl

/-- A class index as a 32-bit word reads back, signed, as itself. -/
theorem toInt_ofNat_class (n : Nat) (h : n < 100000) : (BitVec.ofNat 32 n).toInt = (n : Int) := by
  have h1 : (BitVec.ofNat 32 n).toNat = n := by rw [BitVec.toNat_ofNat]; exact Nat.mod_eq_of_lt (by omega)
  rw [BitVec.toInt_eq_toNat_of_lt (by rw [h1]; omega), h1]

/-- Where the labels are class indices `g`, the gathered row `b` is the weights' row `g b`. -/
theorem gatherStage_apply (w : S100000x512.Idx → EReal) (gt : IVec S512 32) (g : Fin 512 → Fin 100000)
    (hg : ∀ b : Fin 512, gt (ix1 b) = BitVec.ofNat 32 (g b).val) (b d : Fin 512) :
    gatherStage (F := Ideal) w gt (ix2 b d) = w (ix2 (g b) d) := by
  have hlt : (g b).val < 100000 := (g b).isLt
  unfold gatherStage labelCol
  rw [gatherRows_apply]
  refine congrArg w (congrArg (fun r : Fin 100000 => ix2 r d) (Fin.ext ?_))
  show min _ (100000 - 1) = (g b).val
  rw [bcastCol_apply, select_apply]
  have hc : cmpi .slt gt (broadcastInDim S512 ![] bcast_S_S512 (constantI S_ 32 0#32)) (ix1 b) = 0#1 := by
    show BitVec.ofBool ((gt (ix1 b)).slt 0#32) = 0#1
    rw [hg, BitVec.slt_eq_decide, toInt_ofNat_class _ hlt, BitVec.toInt_zero, decide_eq_false (by omega)]
    rfl
  rw [hc, select_zero, hg, toInt_ofNat_class _ hlt]
  omega

/-- The margin column, as the stages of the three arguments. -/
theorem v32_val (c : Dev nD) :
    (V m c main_v32 : S512x1.Idx → EReal)
      = marginStage (F := Ideal) (cosStage (unitRows (embArg m c)) (gatherStage (wArg m c) (gtArg m c))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results_simp
  rfl

/-- Its fourth: the margin of the label's cosine, where the labels are class indices `g`. -/
theorem V_phi (c : Dev nD) (g : Fin 512 → Fin 100000)
    (hg : ∀ b : Fin 512, gtArg m c (ix1 b) = BitVec.ofNat 32 (g b).val) (b : Fin 512) :
    phiArr m c (ix2 b (0 : Fin 1))
      = Spec.margin (Spec.cosRef (Spec.unitRow (fun k : Fin 512 => embArg m c (ix2 b k)))
          (fun d : Fin 512 => wArg m c (ix2 (g b) d))) := by
  show (V m c main_v32 : S512x1.Idx → EReal) (ix2 b (0 : Fin 1)) = _
  rw [v32_val, marginStage_apply, cosStage_apply]
  unfold Spec.cosRef
  simp only [unitRows_apply, gatherStage_apply _ _ g hg]

/-! ## After the region -/

section TailStages
variable {F : FTy → Type} [FloatOps F]

/-- The first half's values of the region's result, as a column. -/
def half0 (o : (⟨S2x512x1, .f32⟩ : BufTy).Contents (Elt F)) : (⟨S512x1, .f32⟩ : BufTy).Contents (Elt F) :=
  shapeCast S512x1 (extractStridedSlice S1x512x1 ![0, 0, 0] o slices_S2x512x1_S1x512x1_0_0_0) shapeCasts_S1x512x1_S512x1

/-- The second half's. -/
def half1 (o : (⟨S2x512x1, .f32⟩ : BufTy).Contents (Elt F)) : (⟨S512x1, .f32⟩ : BufTy).Contents (Elt F) :=
  shapeCast S512x1 (extractStridedSlice S1x512x1 ![1, 0, 0] o slices_S2x512x1_S1x512x1_1_0_0) shapeCasts_S1x512x1_S512x1

/-- Two columns joined entry by entry as log (e^a + e^b), guarded as the program spells it. -/
def joinStage (a b : (⟨S512x1, .f32⟩ : BufTy).Contents (Elt F)) : (⟨S512x1, .f32⟩ : BufTy).Contents (Elt F) :=
  select (cmpf .une (subf a b) (subf a b)) (addf a b)
    (addf (maximumf a b) (Host.log1p (Host.exp (Host.negf (Host.absf (subf a b))))))

/-- The mean over the rows of (the halves joined) - (the margin values × 64). -/
def lossStage (o : (⟨S2x512x1, .f32⟩ : BufTy).Contents (Elt F)) (phi : (⟨S512x1, .f32⟩ : BufTy).Contents (Elt F)) :
    (⟨S_, .f32⟩ : BufTy).Contents (Elt F) :=
  Host.divf
    (Host.reduceAdd
      (subf (shapeCast S512 (joinStage (half0 o) (half1 o)) shapeCasts_S512x1_S512)
        (mulf (shapeCast S512 phi shapeCasts_S512x1_S512)
          (broadcastInDim S512 ![] bcast_S_S512 (constant S_ .f32 0x42800000#32))))
      (constant S_ .f32 0x00000000#32) reducesTo_S512_S_d0 h_S_)
    (constant S_ .f32 0x44000000#32)

end TailStages

theorem half0_apply {α : Type} (o : S2x512x1.Idx → α) (b : Fin 512) :
    shapeCast S512x1 (extractStridedSlice S1x512x1 ![0, 0, 0] o slices_S2x512x1_S1x512x1_0_0_0) shapeCasts_S1x512x1_S512x1
      (ix2 b (0 : Fin 1)) = o (ix3 (0 : Fin 2) b (0 : Fin 1)) := by
  rw [shapeCast_apply _ shapeCasts_S1x512x1_S512x1 (ix2 b (0 : Fin 1)) (ix3 (0 : Fin 1) b (0 : Fin 1)) (by
    rw [Shape.rowMajor_val_three, Shape.rowMajor_val_two]
    show (0 * 512 + b.val) * 1 + 0 = b.val * 1 + 0
    omega)]
  exact extractStridedSlice_apply _ o slices_S2x512x1_S1x512x1_0_0_0 _ (ix3 (0 : Fin 2) b (0 : Fin 1)) (fun a => match a with
    | ⟨0, _⟩ => rfl
    | ⟨1, _⟩ => by show b.val = 0 + b.val; omega
    | ⟨2, _⟩ => rfl)

theorem half1_apply {α : Type} (o : S2x512x1.Idx → α) (b : Fin 512) :
    shapeCast S512x1 (extractStridedSlice S1x512x1 ![1, 0, 0] o slices_S2x512x1_S1x512x1_1_0_0) shapeCasts_S1x512x1_S512x1
      (ix2 b (0 : Fin 1)) = o (ix3 (1 : Fin 2) b (0 : Fin 1)) := by
  rw [shapeCast_apply _ shapeCasts_S1x512x1_S512x1 (ix2 b (0 : Fin 1)) (ix3 (0 : Fin 1) b (0 : Fin 1)) (by
    rw [Shape.rowMajor_val_three, Shape.rowMajor_val_two]
    show (0 * 512 + b.val) * 1 + 0 = b.val * 1 + 0
    omega)]
  exact extractStridedSlice_apply _ o slices_S2x512x1_S1x512x1_1_0_0 _ (ix3 (1 : Fin 2) b (0 : Fin 1)) (fun a => match a with
    | ⟨0, _⟩ => rfl
    | ⟨1, _⟩ => by show b.val = 0 + b.val; omega
    | ⟨2, _⟩ => rfl)

theorem colToVec_apply {α : Type} (y : S512x1.Idx → α) (b : Fin 512) :
    shapeCast S512 y shapeCasts_S512x1_S512 (ix1 b) = y (ix2 b (0 : Fin 1)) :=
  shapeCast_apply y shapeCasts_S512x1_S512 (ix1 b) (ix2 b (0 : Fin 1)) (by
    rw [Shape.rowMajor_val_one, Shape.rowMajor_val_two]
    show b.val * 1 + 0 = b.val
    omega)

theorem joinStage_apply (a b : S512x1.Idx → EReal) (i : S512x1.Idx) :
    joinStage (F := Ideal) a b i = Spec.logAddExp (a i) (b i) := by
  unfold joinStage Spec.logAddExp
  rw [select_apply, cmpf_apply]
  have hne : ∀ x : EReal, FloatOps.cmpf (F := Ideal) (φ := .f32) .une x x = 0#1 := fun x => by
    rw [Ideal.cmpf_def]; simp [Ideal.cmp]
  rw [hne, select_zero]
  rfl

/-- The rank-one indices are the coordinates. -/
def idxEquiv1 {n : Nat} : (⟨1, ![n]⟩ : Shape).Idx ≃ Fin n where
  toFun j := j 0
  invFun a := ix1 a
  left_inv j := (eq_ix1 j).symm
  right_inv _ := rfl

theorem lossStage_apply (o : S2x512x1.Idx → EReal) (phi : S512x1.Idx → EReal) (i : S_.Idx) :
    lossStage (F := Ideal) o phi i
      = Ideal.div (∑ b : Fin 512, (Spec.logAddExp (o (ix3 (0 : Fin 2) b (0 : Fin 1))) (o (ix3 (1 : Fin 2) b (0 : Fin 1)))
          - phi (ix2 b (0 : Fin 1)) * Spec.lit 0x42800000#32)) (Spec.lit 0x44000000#32) := by
  unfold lossStage
  rw [hdivf_apply]
  simp only [Host.reduceAdd, Ideal.hostReduceAdd_def]
  rw [Ideal.hostReduceAdd_total reducesTo_S512_S_d0 (fun b => b.elim0)]
  rw [constant_apply, Ideal.ofBits_zero_f32, zero_add, constant_apply]
  refine congrArg (Ideal.div · _) ?_
  refine (Fintype.sum_equiv (idxEquiv1 (n := 512)).symm _ _ fun a => ?_).symm
  symm
  show subf (shapeCast S512 (joinStage (F := Ideal) (half0 o) (half1 o)) shapeCasts_S512x1_S512)
      (mulf (shapeCast S512 phi shapeCasts_S512x1_S512)
        (broadcastInDim S512 ![] bcast_S_S512 (constant (F := Ideal) S_ .f32 0x42800000#32))) (ix1 a) = _
  rw [subf_apply, mulf_apply, colToVec_apply, colToVec_apply, joinStage_apply]
  unfold half0 half1
  rw [half0_apply, half1_apply]
  rfl

/-- The program's result after the region, as the stages of the region's result and the margin column. -/
theorem tail_val (dats : (p : Fin 1) → (c : Dev nD) → Dat τ (Elt Ideal) Unit ℕ (UR sig nD τ) ℕ (cfgs p) c)
    (hA : ∀ c w, (dats 0 c).A w = V m c (Pipeline.arrRef spec0 w)) (c : Dev nD) :
    (Pipeline.afterTail₀ cfgs dats 0 (V0 m) [hostOps1] c main_v55 : S_.Idx → EReal)
      = lossStage (F := Ideal) (outArr dats c) (phiArr m c) := by
  unfold Pipeline.afterTail₀
  show StableHlo.after hostOps1 _ (Proc.devRef .tc main_v55) = _
  simp only [Gen.hostOps1]
  after_results_simp
  rw [Pipeline.withArrays_arr spec0 launch0.win.arr_inj c _ _ 4, Pipeline.withArrays_arr spec0 launch0.win.arr_inj c _ _ 3,
    (dats 0 c).arrAt_in 3 rfl _, hA c 3]
  rfl

/-- The program's result after the region: the mean over the rows of (the two halves joined) - φ·64. The margin column is
    one of the region's operands, so after the region it is read through the region's arrays: `hA` says they entered
    the region at the host's values. -/
theorem tail_eq (dats : (p : Fin 1) → (c : Dev nD) → Dat τ (Elt Ideal) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_v55
      = fun _ => Ideal.div (∑ b : Fin 512,
          (Spec.logAddExp (outArr dats c (ix3 (0 : Fin 2) b (0 : Fin 1))) (outArr dats c (ix3 (1 : Fin 2) b (0 : Fin 1)))
            - phiArr m c (ix2 b (0 : Fin 1)) * Spec.lit 0x42800000#32)) (Spec.lit 0x44000000#32) :=
  (tail_val m dats hA c).trans (funext fun i => lossStage_apply _ _ i)

end Cert.KernelIdeal.Host

end
-- ==== Proof.KBody.lean ====
/-
  One grid point of the tiled program, as values.

  At a grid point the body holds four blocks: the normalised embeddings e (all 512 rows), a tile of 2000 weight rows,
  the labels and the margin values φ (one per embedding row). It adds to a running column of row sums, for every
  embedding row b, the tile's Σ_j exp (logit_bj - offset), where logit_bj is the scaled, margin-adjusted cosine of
  embedding row b and the tile's weight row j, with φ_b in its place where column (tile base + j) is row b's label.
  The first point of each half starts the column from zero; the last point of each half stores offset + log of it.
-/
import proofs.«423590_j54898271977563_3_alg».proof.Proof.Gen.KernelIdeal.Frame
import proofs.«423590_j54898271977563_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.TcCoe Idealize.SL.Sem Idealize.ShloMosaic.ValueIdx

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- One grid point's update of the running column of row sums `acc`, from the point's four blocks. -/
def step (i : grid0.Coords) (x0 : Vec F S512x512 .bf16) (x1 : Vec F S2000x512 .f32) (x2 : Vec F S512x1 .i32) (x3 : Vec F S512x1 .f32) (acc : Vec F S512x1 .f32) : Vec F S512x1 .f32 :=
  k0_pay1 (k0_pay4 x3) (k0_pay5 x1 x0 x3) (k0_pay6 i x2) acc

/-- The first point of a half leaves the update of the zero column in the carried column. -/
theorem sout_A (c : Dev nD) (i : grid0.Coords) (arg2 : Memref sig .tc .vmem S512x512 .bf16) (harg2 : arg2.IsWhole) (arg3 : Memref sig .tc .vmem S2000x512 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S1x512x1 .f32) (harg6 : arg6.IsWhole) (arg7 : Memref sig .tc .vmem S512x1 .f32) (harg7 : arg7.IsWhole) (hc0 : cond0_0 i) (hc1 : ¬cond0_1 i) (x0 : Vec F S512x512 .bf16) (x1 : Vec F S2000x512 .f32) (x2 : Vec F S512x1 .i32) (x3 : Vec F S512x1 .f32) :
    sout0_A_0 c i arg2 harg2 arg3 harg3 arg4 harg4 arg5 harg5 arg6 harg6 arg7 harg7 hc0 hc1 x0 x1 x2 x3 = step i x0 x1 x2 x3 (k0_pay3 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S512x1) hz, View.readCov_unit_zero (S := S512x1) _ hz]
  unfold step
  simp only [View.readAt_eq_ld, harg2.read_unread, harg3.read_unread, harg4.read_unread, harg5.read_unread, harg7.read_unread, View.ld_unit_zero (S := S512x1) hz, View.ld_unit_zero (S := S2000x512) hz, View.ld_unit_zero (S := S512x512) hz, shapeCast_self]

/-- A middle point leaves the update of what the point before left. -/
theorem sout_B (c : Dev nD) (i : grid0.Coords) (arg2 : Memref sig .tc .vmem S512x512 .bf16) (harg2 : arg2.IsWhole) (arg3 : Memref sig .tc .vmem S2000x512 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S1x512x1 .f32) (harg6 : arg6.IsWhole) (arg7 : Memref sig .tc .vmem S512x1 .f32) (harg7 : arg7.IsWhole) (hc0 : ¬cond0_0 i) (hc1 : ¬cond0_1 i) (x0 : Vec F S512x512 .bf16) (x1 : Vec F S2000x512 .f32) (x2 : Vec F S512x1 .i32) (x3 : Vec F S512x1 .f32) (xs0 : Vec F S512x1 .f32) :
    sout0_B_0 c i arg2 harg2 arg3 harg3 arg4 harg4 arg5 harg5 arg6 harg6 arg7 harg7 hc0 hc1 x0 x1 x2 x3 xs0 = step i x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  unfold step
  simp only [View.readAt_eq_ld, harg2.read_unread, harg3.read_unread, harg4.read_unread, harg5.read_unread, harg7.read_unread, View.ld_unit_zero (S := S512x1) hz, View.ld_unit_zero (S := S2000x512) hz, View.ld_unit_zero (S := S512x512) hz, shapeCast_self]

/-- The last point of a half leaves the same in the carried column, -/
theorem sout_C (c : Dev nD) (i : grid0.Coords) (arg2 : Memref sig .tc .vmem S512x512 .bf16) (harg2 : arg2.IsWhole) (arg3 : Memref sig .tc .vmem S2000x512 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S1x512x1 .f32) (harg6 : arg6.IsWhole) (arg7 : Memref sig .tc .vmem S512x1 .f32) (harg7 : arg7.IsWhole) (hc0 : ¬cond0_0 i) (hc1 : cond0_1 i) (x0 : Vec F S512x512 .bf16) (x1 : Vec F S2000x512 .f32) (x2 : Vec F S512x1 .i32) (x3 : Vec F S512x1 .f32) (xs0 : Vec F S512x1 .f32) :
    sout0_C_0 c i arg2 harg2 arg3 harg3 arg4 harg4 arg5 harg5 arg6 harg6 arg7 harg7 hc0 hc1 x0 x1 x2 x3 xs0 = step i x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  unfold step
  simp only [View.readAt_eq_ld, harg2.read_unread, harg3.read_unread, harg4.read_unread, harg5.read_unread, harg7.read_unread, View.ld_unit_zero (S := S512x1) hz, View.ld_unit_zero (S := S2000x512) hz, View.ld_unit_zero (S := S512x512) hz, shapeCast_self]

/-- and, in the output block, the offset plus the logarithm of that column. -/
theorem out_C (c : Dev nD) (i : grid0.Coords) (arg2 : Memref sig .tc .vmem S512x512 .bf16) (harg2 : arg2.IsWhole) (arg3 : Memref sig .tc .vmem S2000x512 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S1x512x1 .f32) (harg6 : arg6.IsWhole) (arg7 : Memref sig .tc .vmem S512x1 .f32) (harg7 : arg7.IsWhole) (hc0 : ¬cond0_0 i) (hc1 : cond0_1 i) (x0 : Vec F S512x512 .bf16) (x1 : Vec F S2000x512 .f32) (x2 : Vec F S512x1 .i32) (x3 : Vec F S512x1 .f32) (xs0 : Vec F S512x1 .f32) :
    out0_C_4 c i arg2 harg2 arg3 harg3 arg4 harg4 arg5 harg5 arg6 harg6 arg7 harg7 hc0 hc1 x0 x1 x2 x3 xs0 = k0_pay2 (step i x0 x1 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz3, View.readCov_unit_zero (S := S512x1) _ hz]
  unfold step
  simp only [View.readAt_eq_ld, harg2.read_unread, harg3.read_unread, harg4.read_unread, harg5.read_unread, harg7.read_unread, View.ld_unit_zero (S := S512x1) hz, View.ld_unit_zero (S := S2000x512) hz, View.ld_unit_zero (S := S512x512) hz, shapeCast_self]

/-! ## Layout operations of this body read at explicit coordinates -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum along axis 1 of an `[a, b]` array of extended reals, read at row `p`: the sum over the row. -/
theorem rowsum_apply {a b : ℕ} (src : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => ?_)
  match d with
  | ⟨0, _⟩ => exact Fin.ext rfl
  | ⟨1, _⟩ => exact Fin.ext rfl

/-! ## The body's one matrix product read at an entry -/

theorem lhs_dot_S512x512_S2000x512_S512x2000_1_1_0_0_n_n_0 (i : S512x2000.Idx) (q : dot_S512x512_S2000x512_S512x2000_1_1_0_0_n_n.contr.Idx) :
    (dot_S512x512_S2000x512_S512x2000_1_1_0_0_n_n.lhsIdx i q 0).val = (i 0).val := by
  unfold DotDims.lhsIdx
  rw [dif_neg (show ¬(0 : Fin S512x512.rank) ∈ dot_S512x512_S2000x512_S512x2000_1_1_0_0_n_n.lhsBatch by decide), dif_pos (show (0 : Fin S512x512.rank) ∈ dot_S512x512_S2000x512_S512x2000_1_1_0_0_n_n.lhsNonContracting by decide)]
  rfl
theorem lhs_dot_S512x512_S2000x512_S512x2000_1_1_0_0_n_n_1 (i : S512x2000.Idx) (q : dot_S512x512_S2000x512_S512x2000_1_1_0_0_n_n.contr.Idx) :
    (dot_S512x512_S2000x512_S512x2000_1_1_0_0_n_n.lhsIdx i q 1).val = (q ⟨0, by decide⟩).val :=
  dot_S512x512_S2000x512_S512x2000_1_1_0_0_n_n.lhsIdx_val_of_single rfl i q
theorem rhs_dot_S512x512_S2000x512_S512x2000_1_1_0_0_n_n_0 (i : S512x2000.Idx) (q : dot_S512x512_S2000x512_S512x2000_1_1_0_0_n_n.contr.Idx) :
    (dot_S512x512_S2000x512_S512x2000_1_1_0_0_n_n.rhsIdx i q 0).val = (i 1).val := by
  unfold DotDims.rhsIdx
  rw [dif_neg (show ¬(0 : Fin S2000x512.rank) ∈ dot_S512x512_S2000x512_S512x2000_1_1_0_0_n_n.rhsBatch by decide), dif_pos (show (0 : Fin S2000x512.rank) ∈ dot_S512x512_S2000x512_S512x2000_1_1_0_0_n_n.rhsNonContracting by decide)]
  rfl
theorem rhs_dot_S512x512_S2000x512_S512x2000_1_1_0_0_n_n_1 (i : S512x2000.Idx) (q : dot_S512x512_S2000x512_S512x2000_1_1_0_0_n_n.contr.Idx) :
    (dot_S512x512_S2000x512_S512x2000_1_1_0_0_n_n.rhsIdx i q 1).val = (q ⟨0, by decide⟩).val :=
  dot_S512x512_S2000x512_S512x2000_1_1_0_0_n_n.rhsIdx_val_of_single rfl i q

/-- The product of a `[512, 512]` block with the transpose of a `[2000, 512]` block, accumulated into zero, read at
    `(b, j)`: the sum over the shared axis of the products of row `b` of the first and row `j` of the second. -/
theorem matmul_rows_apply {φ₁ φ₂ : FTy} (lhs : FVec Ideal S512x512 φ₁) (rhs : FVec Ideal S2000x512 φ₂) (b : Fin 512) (j : Fin 2000) :
    matmul dot_S512x512_S2000x512_S512x2000_1_1_0_0_n_n none lhs rhs (constant S512x2000 .f32 0x00000000#32) (ix2 b j)
      = ∑ k : Fin 512, lhs (ix2 b k) * rhs (ix2 j k) := by
  refine (Ideal.matmul_constant_zero_apply dot_S512x512_S2000x512_S512x2000_1_1_0_0_n_n none lhs rhs (ix2 b j)).trans ?_
  rw [← Equiv.sum_comp (contrEquiv1 dot_S512x512_S2000x512_S512x2000_1_1_0_0_n_n 512 rfl rfl).symm]
  refine Finset.sum_congr rfl fun k _ => ?_
  have hk := contrEquiv1_symm_val dot_S512x512_S2000x512_S512x2000_1_1_0_0_n_n 512 rfl rfl k
  have el : dot_S512x512_S2000x512_S512x2000_1_1_0_0_n_n.lhsIdx (ix2 b j) ((contrEquiv1 dot_S512x512_S2000x512_S512x2000_1_1_0_0_n_n 512 rfl rfl).symm k) = ix2 b k := funext fun a => Fin.ext (by
    match a with
    | ⟨0, _⟩ => exact lhs_dot_S512x512_S2000x512_S512x2000_1_1_0_0_n_n_0 _ _
    | ⟨1, _⟩ => exact (lhs_dot_S512x512_S2000x512_S512x2000_1_1_0_0_n_n_1 _ _).trans hk)
  have er : dot_S512x512_S2000x512_S512x2000_1_1_0_0_n_n.rhsIdx (ix2 b j) ((contrEquiv1 dot_S512x512_S2000x512_S512x2000_1_1_0_0_n_n 512 rfl rfl).symm k) = ix2 j k := funext fun a => Fin.ext (by
    match a with
    | ⟨0, _⟩ => exact rhs_dot_S512x512_S2000x512_S512x2000_1_1_0_0_n_n_0 _ _
    | ⟨1, _⟩ => exact (rhs_dot_S512x512_S2000x512_S512x2000_1_1_0_0_n_n_1 _ _).trans hk)
  rw [el, er]

/-! ## Words -/

/-- A select on an integer "equal" test is an `if` on the equality. -/
theorem select_cmpi_eq {α : Type} {w : ℕ} (x y : BitVec w) (a b : α) :
    Scalar.select (IntOp.cmpi .eq x y) a b = if x = y then a else b := by
  by_cases h : x = y
  · rw [if_pos h]; subst h; simp [Scalar.select, IntOp.cmpi]
  · rw [if_neg h]
    have hb : (x == y) = false := beq_eq_false_iff_ne.2 h
    simp [Scalar.select, IntOp.cmpi, hb]

theorem cmpi_apply {s : Shape} {w : ℕ} (p : CmpIPredicate) (x y : IVec s w) (i : s.Idx) : cmpi p x y i = IntOp.cmpi p (x i) (y i) := rfl
theorem addi_apply {s : Shape} {w : ℕ} (x y : IVec s w) (i : s.Idx) : addi x y i = IntOp.addi (x i) (y i) := rfl

/-- The label test at `(b, j)`: the class of column `j` of the tile, as a 32-bit word, against row `b`'s label. -/
theorem pay6_apply (i : grid0.Coords) (x2 : Vec F S512x1 .i32) (b : Fin 512) (j : Fin 2000) :
    k0_pay6 (F := F) i x2 (ix2 b j)
      = IntOp.cmpi .eq (BitVec.ofNat 32 (((i 0).val * 25 + (i 1).val) * 2000 + j.val)) (x2 (ix2 b (0 : Fin 1))) := by
  unfold k0_pay6
  dsimp only
  rw [cmpi_apply, broadcastTo_1b_ab_apply, broadcastTo_a1_ab_apply, shapeCast_self, addi_apply, broadcast_apply]
  have hi : iota .tc S1x2000 32 [1] iota_S1x2000_d1_w32 (ix2 (0 : Fin 1) j) = BitVec.ofNat 32 j.val := by
    show BitVec.ofNat 32 (0 * 2000 + j.val) = _
    rw [Nat.zero_mul, Nat.zero_add]
  rw [hi]
  congr 1
  simp [Scalar.muli, Scalar.addi, IntOp.muli, IntOp.addi, BitVec.ofNat_add, BitVec.ofNat_mul]

/-! ## The adjusted cosine and the update, read at an entry -/

theorem rsqrt_apply {s : Shape} {φ : FTy} (x : FVec Ideal s φ) (i : s.Idx) : rsqrt x i = Ideal.rsqrt (x i) := rfl
theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

/-- The column of reciprocal norms laid out as a row reads, at `(0, j)`, the column at `(j, 0)`. -/
theorem transpose_col_apply {α : Type} (x : S2000x1.Idx → α) (j : Fin 2000) :
    transpose S1x2000 [1, 0] x transposes_S2000x1_p1_0_S1x2000 (ix2 (0 : Fin 1) j) = x (ix2 j (0 : Fin 1)) :=
  transpose_ix2_apply x transposes_S2000x1_p1_0_S1x2000 0 j

/-- The adjusted cosine at `(b, j)`: the cosine `c` of embedding row `b` and weight row `j`, raised to
    `1.2 c + 0.2` where it exceeds the row's margin value. -/
theorem pay5_apply (x1 : Vec Ideal S2000x512 .f32) (x0 : Vec Ideal S512x512 .bf16) (x3 : Vec Ideal S512x1 .f32) (b : Fin 512) (j : Fin 2000) :
    k0_pay5 (F := Ideal) x1 x0 x3 (ix2 b j)
      = if x3 (ix2 b (0 : Fin 1)) < Spec.cosKer (fun d : Fin 512 => x0 (ix2 b d)) (fun d : Fin 512 => x1 (ix2 j d))
        then Spec.lit 0x3F99999A#32 * Spec.cosKer (fun d : Fin 512 => x0 (ix2 b d)) (fun d : Fin 512 => x1 (ix2 j d)) + Spec.lit 0x3E4CCCCD#32
        else Spec.cosKer (fun d : Fin 512 => x0 (ix2 b d)) (fun d : Fin 512 => x1 (ix2 j d)) := by
  unfold k0_pay5 k0_pay4
  dsimp only
  simp only [select_apply, cmpf_apply, addf_apply, mulf_apply, minimumf_apply, maximumf_apply, broadcast_apply,
    matmul_rows_apply, broadcastTo_1b_ab_apply, broadcastTo_a1_ab_apply, transpose_col_apply, rsqrt_apply,
    shapeCast_a_a1_apply, shapeCast_self, truncf_apply]
  have hN := rowsum_apply (mulf x1 x1) 0x00000000#32 reduces_S2000x512_S2000 (show FKind.Formats .f32 from .inl rfl) rfl j
  rw [transpose_col_apply, rsqrt_apply, shapeCast_a_a1_apply, hN, Ideal.cmpf_def, Spec.select_ogt]
  rfl

/-! ## The three readings -/

/-- The zero column, read at a row. -/
theorem zero_apply (b : Fin 512) : (k0_pay3 (F := Ideal)) (ix2 b (0 : Fin 1)) = 0 := by
  unfold k0_pay3
  rw [shapeCast_self, broadcast_apply]
  exact Ideal.ofBits_zero_f32

/-- The stored output block read at a row: the offset plus the logarithm of the column's entry. -/
theorem out_apply (v : Vec Ideal S512x1 .f32) (b : Fin 512) :
    k0_pay2 (F := Ideal) v (ix3 (0 : Fin 1) b (0 : Fin 1)) = Spec.lit 0x42B33332#32 + Ideal.log (v (ix2 b (0 : Fin 1))) := by
  unfold k0_pay2
  rw [shapeCast_ab_1ab_apply]
  rfl

/-- The update read at row `b`: the old entry plus the tile's sum of `exp (logit - offset)`; column `j` of the tile
    is class (25 i₀ + i₁)·2000 + j, compared as a 32-bit word with the row's label. -/
theorem step_apply (i : grid0.Coords) (x0 : Vec Ideal S512x512 .bf16) (x1 : Vec Ideal S2000x512 .f32)
    (x2 : Vec Ideal S512x1 .i32) (x3 : Vec Ideal S512x1 .f32) (acc : Vec Ideal S512x1 .f32) (b : Fin 512) :
    step (F := Ideal) i x0 x1 x2 x3 acc (ix2 b (0 : Fin 1))
      = acc (ix2 b (0 : Fin 1)) + ∑ j : Fin 2000, Ideal.exp
          (Spec.logit (Spec.cosKer (fun d : Fin 512 => x0 (ix2 b d)) (fun d : Fin 512 => x1 (ix2 j d)))
              (x3 (ix2 b (0 : Fin 1)))
              (decide (BitVec.ofNat 32 (((i 0).val * 25 + (i 1).val) * 2000 + j.val) = x2 (ix2 b (0 : Fin 1))))
            - Spec.lit 0x42B33332#32) := by
  unfold step k0_pay1 k0_pay4
  dsimp only
  simp only [shapeCast_self, addf_apply, shapeCast_a_a1_apply, exp_apply, subf_apply, mulf_apply,
    broadcast_apply, select_apply, broadcastTo_a1_ab_apply, pay5_apply, pay6_apply, select_cmpi_eq]
  refine congrArg (acc (ix2 b (0 : Fin 1)) + ·) ((rowsum_apply _ _ _ _ _ _).trans (Finset.sum_congr rfl fun j _ => ?_))
  simp only [exp_apply, subf_apply, mulf_apply, broadcast_apply, select_apply, broadcastTo_a1_ab_apply, pay5_apply, pay6_apply, select_cmpi_eq]
  unfold Spec.logit
  simp only [decide_eq_true_eq]
  rfl

end Cert.KernelIdeal.Body

end
-- ==== Proof.KAccum.lean ====
/-
  The tiled region's result array.

  The grid is two halves of twenty-five points; point 25 p + k holds the weight rows (25 p + k)·2000 … +1999, and the
  other three operands whole. By induction on the point, the carried column after point 25 p + k holds, in row b, the
  sum over the tiles 25 p … 25 p + k of that row's Σ_j exp (logit - offset); the last point of half p writes
  offset + log of it to block p of the result, and nothing else writes that block.
-/
import proofs.«423590_j54898271977563_3_alg».proof.Proof.Gen.KernelIdeal.Frame
import proofs.«423590_j54898271977563_3_alg».proof.Proof.Spec
import proofs.«423590_j54898271977563_3_alg».proof.Proof.KArrays
import proofs.«423590_j54898271977563_3_alg».proof.Proof.KBody
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.Accum

open Cert.KernelIdeal Cert.KernelIdeal.Gen Cert.KernelIdeal.Arrays Cert.KernelIdeal.Body Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- Row `b` of the logits, from the four arrays as the region finds them; a column is a natural number, compared
    with the row's label as a 32-bit word. -/
def X (c : Dev nD) (b : Fin 512) (col : ℕ) : EReal :=
  if h : col < 100000 then
    Spec.logit (Spec.cosKer (fun d : Fin 512 => eArr m c (ix2 b d)) (fun d : Fin 512 => wArr m c (ix2 (⟨col, h⟩ : Fin 100000) d)))
      (phiArr m c (ix2 b (0 : Fin 1))) (decide (BitVec.ofNat 32 col = gtArr m c (ix2 b (0 : Fin 1))))
  else 0

/-! ## The input blocks -/

/-- The embeddings' block at point `t`. -/
abbrev eblk (c : Dev nD) (t : Fin cfg0.N) : Vec Ideal S512x512 .bf16 := iblk m c 0 t
/-- The weights' block at point `t`. -/
abbrev wblk (c : Dev nD) (t : Fin cfg0.N) : Vec Ideal S2000x512 .f32 := iblk m c 1 t
/-- The labels' block at point `t`. -/
abbrev gblk (c : Dev nD) (t : Fin cfg0.N) : Vec Ideal S512x1 .i32 := iblk m c 2 t
/-- The margin values' block at point `t`. -/
abbrev pblk (c : Dev nD) (t : Fin cfg0.N) : Vec Ideal S512x1 .f32 := iblk m c 3 t

/-- The block indices of the five windows at every point, and the point's grid coordinates. -/
theorem idx_facts : ∀ t : Fin grid0.N,
    (win0_0.index t 0 = 0 ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val / 25 ∧ win0_4.index t 1 = 0 ∧ win0_4.index t 2 = 0)
    ∧ ((grid0.coords t 0).val = t.val / 25 ∧ (grid0.coords t 1).val = t.val % 25) := by decide +kernel

/-- The embeddings' block is the whole array. -/
theorem eblk_apply (c : Dev nD) (t : Fin cfg0.N) (b d : Fin 512) : eblk m c t (ix2 b d) = eArr m c (ix2 b d) := by
  have hi := (idx_facts t).1
  unfold eblk iblk
  rw [View.read_apply]
  show V m c main_v3 _ = V m c main_v3 _
  congr 1
  funext a
  apply Fin.ext
  match a with
  | ⟨0, _⟩ => show win0_0.index t 0 * 512 + 1 * b.val = b.val; rw [hi.1]; omega
  | ⟨1, _⟩ => show win0_0.index t 1 * 512 + 1 * d.val = d.val; rw [hi.2]; omega

/-- The weights' block at point `t` is rows `2000 t … 2000 t + 1999` of the array. -/
theorem wblk_apply (c : Dev nD) (t : Fin cfg0.N) (j : Fin 2000) (d : Fin 512) (h : t.val * 2000 + j.val < 100000) :
    wblk m c t (ix2 j d) = wArr m c (ix2 (⟨t.val * 2000 + j.val, h⟩ : Fin 100000) d) := by
  have hi := (idx_facts t).2.1
  unfold wblk iblk
  rw [View.read_apply]
  show V m c main_arg1 _ = V m c main_arg1 _
  congr 1
  funext a
  apply Fin.ext
  match a with
  | ⟨0, _⟩ => show win0_1.index t 0 * 2000 + 1 * j.val = t.val * 2000 + j.val; rw [hi.1]; omega
  | ⟨1, _⟩ => show win0_1.index t 1 * 512 + 1 * d.val = d.val; rw [hi.2]; omega

/-- The labels' block is the whole column. -/
theorem gblk_apply (c : Dev nD) (t : Fin cfg0.N) (b : Fin 512) :
    gblk m c t (ix2 b (0 : Fin 1)) = gtArr m c (ix2 b (0 : Fin 1)) := by
  have hi := (idx_facts t).2.2.1
  unfold gblk iblk
  rw [View.read_apply]
  show V m c main_v33 _ = V m c main_v33 _
  congr 1
  funext a
  apply Fin.ext
  match a with
  | ⟨0, _⟩ => show win0_2.index t 0 * 512 + 1 * b.val = b.val; rw [hi.1]; omega
  | ⟨1, _⟩ => show win0_2.index t 1 * 1 + 1 * 0 = 0; rw [hi.2]

/-- The margin values' block is the whole column. -/
theorem pblk_apply (c : Dev nD) (t : Fin cfg0.N) (b : Fin 512) :
    pblk m c t (ix2 b (0 : Fin 1)) = phiArr m c (ix2 b (0 : Fin 1)) := by
  have hi := (idx_facts t).2.2.2.1
  unfold pblk iblk
  rw [View.read_apply]
  show V m c main_v32 _ = V m c main_v32 _
  congr 1
  funext a
  apply Fin.ext
  match a with
  | ⟨0, _⟩ => show win0_3.index t 0 * 512 + 1 * b.val = b.val; rw [hi.1]; omega
  | ⟨1, _⟩ => show win0_3.index t 1 * 1 + 1 * 0 = 0; rw [hi.2]

/-! ## The carried column -/

/-- What point `t` adds to row `b` of the carried column: tile `t`'s sum of the row's logits. -/
theorem tile_eq (c : Dev nD) (t : Fin cfg0.N) (b : Fin 512) :
    (∑ j : Fin 2000, Ideal.exp (Spec.logit (Spec.cosKer (fun d : Fin 512 => eblk m c t (ix2 b d)) (fun d : Fin 512 => wblk m c t (ix2 j d)))
        (pblk m c t (ix2 b (0 : Fin 1)))
        (decide (BitVec.ofNat 32 (((grid0.coords t 0).val * 25 + (grid0.coords t 1).val) * 2000 + j.val) = gblk m c t (ix2 b (0 : Fin 1))))
      - Spec.lit 0x42B33332#32))
    = Spec.tileSum (X m c b) t.val := by
  have hN : t.val < 50 := lt_of_lt_of_eq t.isLt (show cfg0.N = 50 from N_0)
  have hg := (idx_facts t).2.2.2.2.2
  have ht : (grid0.coords t 0).val * 25 + (grid0.coords t 1).val = t.val := by rw [hg.1, hg.2]; omega
  unfold Spec.tileSum
  refine Finset.sum_congr rfl fun j _ => ?_
  have hj : t.val * 2000 + j.val < 100000 := by have := j.isLt; omega
  rw [ht, gblk_apply, pblk_apply]
  simp only [eblk_apply, wblk_apply m c t j _ hj]
  unfold X
  rw [dif_pos hj]

/-- THE INVARIANT. After point `n`, row `b` of the carried column holds the sum over the tiles of `n`'s half up to
    `n` of the row's tile sums. -/
theorem acc_eq (c : Dev nD) (b : Fin 512) : ∀ (n : ℕ) (hn : n < cfg0.N),
    (outsAt0 m c n hn).2 (ix2 b (0 : Fin 1))
      = ∑ k ∈ Finset.range (n % 25 + 1), Spec.tileSum (X m c b) (25 * (n / 25) + k) := by
  intro n
  induction n using Nat.strong_induction_on with
  | _ n ih =>
    intro hn
    have hN : n < 50 := lt_of_lt_of_eq hn (show cfg0.N = 50 from N_0)
    have hdm : 25 * (n / 25) + n % 25 = n := Nat.div_add_mod n 25
    by_cases h0 : n % 25 = 0
    · have h1 : ¬n % 25 = 24 := by omega
      rw [outsAt0_A m c ⟨n, hn⟩ h0 h1]
      dsimp only
      refine (congrFun (sout_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) ((hcond0_0 ⟨n, hn⟩).mpr h0) (fun h => h1 ((hcond0_1 ⟨n, hn⟩).mp h)) (eblk m c ⟨n, hn⟩) (wblk m c ⟨n, hn⟩) (gblk m c ⟨n, hn⟩) (pblk m c ⟨n, hn⟩)) (ix2 b (0 : Fin 1))).trans ?_
      rw [step_apply, zero_apply, zero_add, tile_eq, h0, zero_add, Finset.sum_range_one, add_zero]
      congr 1; show n = 25 * (n / 25); omega
    · have hih := ih (n - 1) (by omega) (by omega)
      have e1 : (n - 1) % 25 + 1 = n % 25 := by omega
      have e2 : (n - 1) / 25 = n / 25 := by omega
      rw [e1, e2] at hih
      rw [Finset.sum_range_succ, hdm, ← hih]
      by_cases h1 : n % 25 = 24
      · rw [outsAt0_C m c ⟨n, hn⟩ h0 h1]
        dsimp only
        refine (congrFun (sout_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) (fun h => h0 ((hcond0_0 ⟨n, hn⟩).mp h)) ((hcond0_1 ⟨n, hn⟩).mpr h1) (eblk m c ⟨n, hn⟩) (wblk m c ⟨n, hn⟩) (gblk m c ⟨n, hn⟩) (pblk m c ⟨n, hn⟩) (outsAt0 m c (n - 1) (Nat.lt_of_le_of_lt (Nat.sub_le _ _) hn)).2) (ix2 b (0 : Fin 1))).trans ?_
        rw [step_apply, tile_eq]
      · rw [outsAt0_B m c ⟨n, hn⟩ h0 h1]
        dsimp only
        refine (congrFun (sout_B (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) (fun h => h0 ((hcond0_0 ⟨n, hn⟩).mp h)) (fun h => h1 ((hcond0_1 ⟨n, hn⟩).mp h)) (eblk m c ⟨n, hn⟩) (wblk m c ⟨n, hn⟩) (gblk m c ⟨n, hn⟩) (pblk m c ⟨n, hn⟩) (outsAt0 m c (n - 1) (Nat.lt_of_le_of_lt (Nat.sub_le _ _) hn)).2) (ix2 b (0 : Fin 1))).trans ?_
        rw [step_apply, tile_eq]

/-! ## The result array -/

/-- At the last point of a half the output block is the stored form of the carried column that point leaves. -/
theorem out_eq (c : Dev nD) (t : Fin cfg0.N) (h0 : ¬t.val % 25 = 0) (h1 : t.val % 25 = 24) :
    (outsAt0 m c t.val t.isLt).1 = k0_pay2 (F := Ideal) (outsAt0 m c t.val t.isLt).2 := by
  rw [outsAt0_C m c t h0 h1]
  dsimp only
  rw [out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (eblk m c t) (wblk m c t) (gblk m c t) (pblk m c t) (outsAt0 m c (t.val - 1) (Nat.lt_of_le_of_lt (Nat.sub_le _ _) t.isLt)).2,
    sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (eblk m c t) (wblk m c t) (gblk m c t) (pblk m c t) (outsAt0 m c (t.val - 1) (Nat.lt_of_le_of_lt (Nat.sub_le _ _) t.isLt)).2]

/-- What the result array ends as: block `p`, row `b` at half `p`'s value of row `b`. -/
def G (c : Dev nD) : S2x512x1.Idx → EReal := fun i => Spec.halfLse (X m c (i 1)) (i 0).val

/-- The write-back at the last point of half `p` writes block `p` of `G`. -/
theorem flushed_eq (c : Dev nD) (t : Fin cfg0.N) (hf : (cfg0.win 4).flush t = true) :
    (dats m 0 c).flushed 4 t = ((cfg0.win 4).blk t).view.read (Elt Ideal) (G m c) := by
  have hN : t.val < 50 := lt_of_lt_of_eq t.isLt (show cfg0.N = 50 from N_0)
  have h1 : t.val % 25 = 24 := (flush0_4 t).mp hf
  have h0 : ¬t.val % 25 = 0 := by omega
  have hi := (idx_facts t).2.2.2.2.1
  show (cfg0.win 4).cut (grid0.coords t) ((dats m 0 c).after 4 t) = _
  rw [after0_4, out_eq m c t h0 h1]
  funext j
  have hj0 : (j 0).val < 1 := (j 0).isLt
  have hj1 : (j 1).val < 512 := (j 1).isLt
  have hj2 : (j 2).val < 1 := (j 2).isLt
  rw [View.read_apply]
  show k0_pay2 (F := Ideal) (outsAt0 m c t.val t.isLt).2 ((cfg0.win 4).xinj (grid0.coords t) j) = G m c (((cfg0.win 4).blk t).view.emb j)
  have e1 : (cfg0.win 4).xinj (grid0.coords t) j = ix3 (0 : Fin 1) (⟨(j 1).val, hj1⟩ : Fin 512) (0 : Fin 1) := by
    funext a
    apply Fin.ext
    match a with
    | ⟨0, _⟩ => show (j 0).val = 0; omega
    | ⟨1, _⟩ => rfl
    | ⟨2, _⟩ => show (j 2).val = 0; omega
  have e2 : ((cfg0.win 4).blk t).view.emb j = ix3 (⟨t.val / 25, by omega⟩ : Fin 2) (⟨(j 1).val, hj1⟩ : Fin 512) (0 : Fin 1) := by
    funext a
    apply Fin.ext
    match a with
    | ⟨0, _⟩ => show win0_4.index t 0 * 1 + 1 * (j 0).val = t.val / 25; rw [hi.1]; omega
    | ⟨1, _⟩ => show win0_4.index t 1 * 512 + 1 * (j 1).val = (j 1).val; rw [hi.2.1]; omega
    | ⟨2, _⟩ => show win0_4.index t 2 * 1 + 1 * (j 2).val = 0; rw [hi.2.2]; omega
  rw [e1, e2, out_apply, acc_eq m c _ t.val t.isLt, h1]
  rfl

/-- Every entry of the result array lies in the block the last point of its half writes back. -/
theorem cover (c : Dev nD) (i : ((cfg0.win 4).arr.view.loc (c.tc : Thread nD τ)).2.ty.Idx) :
    ∃ t : Fin cfg0.N, (cfg0.win 4).flush t = true ∧ i ∈ ((cfg0.win 4).blk t).view.set := by
  have hi0 : (i 0).val < 2 := (i 0).isLt
  have hi1 : (i 1).val < 512 := (i 1).isLt
  have hi2 : (i 2).val < 1 := (i 2).isLt
  have hlt : 25 * (i 0).val + 24 < cfg0.N := by rw [show cfg0.N = 50 from N_0]; omega
  refine ⟨⟨25 * (i 0).val + 24, hlt⟩, (flush0_4 _).mpr (by dsimp only; omega), ?_⟩
  have hi := (idx_facts ⟨25 * (i 0).val + 24, hlt⟩).2.2.2.2.1
  show i ∈ ((View.whole main_v34).slice (win0_4.rect ⟨25 * (i 0).val + 24, hlt⟩)).set
  rw [View.set_slice_whole, Rect.mem_set_unit]
  intro a
  match a with
  | ⟨0, _⟩ =>
    show win0_4.index ⟨25 * (i 0).val + 24, hlt⟩ 0 * 1 ≤ (i 0).val ∧ (i 0).val < win0_4.index ⟨25 * (i 0).val + 24, hlt⟩ 0 * 1 + 1
    rw [hi.1]; dsimp only; omega
  | ⟨1, _⟩ =>
    show win0_4.index ⟨25 * (i 0).val + 24, hlt⟩ 1 * 512 ≤ (i 1).val ∧ (i 1).val < win0_4.index ⟨25 * (i 0).val + 24, hlt⟩ 1 * 512 + 512
    rw [hi.2.1]; omega
  | ⟨2, _⟩ =>
    show win0_4.index ⟨25 * (i 0).val + 24, hlt⟩ 2 * 1 ≤ (i 2).val ∧ (i 2).val < win0_4.index ⟨25 * (i 0).val + 24, hlt⟩ 2 * 1 + 1
    rw [hi.2.2]; omega

/-- The result array after the run: block `p`, row `b`, holds half `p`'s value of row `b`. -/
theorem final4 (c : Dev nD) (p : Fin 2) (b : Fin 512) :
    outArr (dats m) c (ix3 p b (0 : Fin 1)) = Spec.halfLse (X m c b) p.val := by
  have h : (dats m 0 c).arrAt 4 cfg0.N = G m c :=
    (dats m 0 c).arrAt_eq_of_cover 4 (G m c) (flushed_eq m c) (cover c)
  show (dats m 0 c).arrAt 4 cfg0.N (ix3 p b (0 : Fin 1)) = _
  rw [h]
  rfl

end Cert.KernelIdeal.Accum

end
-- ==== Proof.KRun.lean ====
/-
  The tiled program's run, with its result named: every weakly fair execution ends with the result at the tiled loss
  of the logits and margin values the region is handed, and the three arguments unchanged.
-/
import proofs.«423590_j54898271977563_3_alg».proof.Proof.KHost
import proofs.«423590_j54898271977563_3_alg».proof.Proof.KAccum

noncomputable section

namespace Cert.KernelIdeal.Value

open Cert.KernelIdeal Cert.KernelIdeal.Gen Cert.KernelIdeal.Arrays Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The margin values the region is handed, one per embedding row. -/
abbrev phiRow (c : Dev nD) (b : Fin 512) : EReal := phiArr m c (ix2 b (0 : Fin 1))

/-- The mean the host operations after the region take, with each half's value named: the tiled loss. -/
theorem mean_eq (c : Dev nD) :
    Ideal.div (∑ b : Fin 512,
        (Spec.logAddExp (outArr (dats m) c (ix3 (0 : Fin 2) b (0 : Fin 1))) (outArr (dats m) c (ix3 (1 : Fin 2) b (0 : Fin 1)))
          - phiArr m c (ix2 b (0 : Fin 1)) * Spec.lit 0x42800000#32)) (Spec.lit 0x44000000#32)
      = Spec.lossKer (Accum.X m c) (phiRow m c) := by
  unfold Spec.lossKer
  refine congrArg (fun s => Ideal.div s (Spec.lit 0x44000000#32)) (Finset.sum_congr rfl fun b _ => ?_)
  rw [Accum.final4 m c 0 b, Accum.final4 m c 1 b]
  rfl

/-- What the host operations after the region make of the region's result: the tiled loss. -/
theorem result_eq (c : Dev nD) :
    Pipeline.afterTail₀ cfgs (dats m) 0 (V0 m) [hostOps1] c main_v55
      = fun _ => Spec.lossKer (Accum.X m c) (phiRow m c) :=
  (Host.tail_eq m (dats m) (A_eq m) c).trans (funext fun _ => mean_eq m c)

/-- The run. -/
theorem run : θ_run defs (onTc (τ := τ) (main (F := Ideal))) ⟨m, fun _ => 0, ρ⟩ (fun r => ∀ c : Dev nD,
      r.2.mem ((c.tc : Thread nD τ).loc main_v55) = (fun _ => Spec.lossKer (Accum.X m c) (phiRow m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v55 (Pipeline.mem_restRefs_of main_v55 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Value

end
-- ==== Proof.LibSoftmax.lean ====
/-
  The algebra behind streaming softmax attention, over the extended reals with real-valued data.

  For a row of logits l and a column of values v over a finite, nonempty set of slots, and ANY real shift M,
      sum_s (exp (l s - M) / sum_s' exp (l s' - M)) * v s  =  (sum_s exp (l s) * v s) / (sum_s exp (l s)) :
  the factor exp (-M) is common to numerator and denominator and cancels, and the quotient by the (positive) total
  comes out of the sum.  The left side is the softmax with the row maximum subtracted; the right side is the form a
  streaming kernel accumulates, with no subtraction at all.  Every quantity must be a real number for this: on the
  extended reals distributivity and cancellation fail at the infinities.

  Also here: what it means for an extended real to be a real number and how that passes through sums, products and
  maxima; and a sum over m * n slots regrouped as m consecutive blocks of n.
-/
import Idealize.ShloMosaic.PureOps.Ideal

noncomputable section

namespace Cert.Attn

open Idealize.ShloMosaic

/-! ## Extended reals that are real numbers -/

/-- The extended real x is a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy; exact ⟨Max.max a b, (EReal.coe_strictMono.monotone.map_max (a := a) (b := b)).symm⟩

theorem IsReal.exp {x : EReal} (hx : IsReal x) : IsReal (Ideal.exp x) := by
  obtain ⟨a, rfl⟩ := hx; exact ⟨Real.exp a, rfl⟩

theorem IsReal.sum {ι : Type*} (s : Finset ι) (f : ι → EReal) (hf : ∀ i ∈ s, IsReal (f i)) : IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running maximum, from minus infinity, of real numbers over a nonempty finite set is a real number. -/
theorem IsReal.fold_max {ι : Type*} (s : Finset ι) (hs : s.Nonempty) (f : ι → EReal) (hf : ∀ i ∈ s, IsReal (f i)) :
    IsReal (s.fold Max.max (⊥ : EReal) f) := by
  classical
  induction hs using Finset.Nonempty.cons_induction with
  | singleton a =>
    rw [Finset.fold_singleton, max_bot_right]
    exact hf a (Finset.mem_singleton_self a)
  | cons a s ha hs ih =>
    rw [Finset.fold_cons]
    exact (hf a (Finset.mem_cons_self a s)).max (ih fun i hi => hf i (Finset.mem_cons.2 (Or.inr hi)))

/-- Dividing by one changes nothing. -/
theorem div_one' (x : EReal) : Ideal.div x 1 = x := by
  have h := Ideal.div_coe (y := 1) one_ne_zero x
  rw [EReal.coe_one] at h
  rw [h]; norm_num

/-! ## The law -/

/-- The real identity: a common factor exp (-M) cancels, and the quotient by the total comes out of the sum. -/
theorem softmax_real {ι : Type*} [Fintype ι] [Nonempty ι] (l v : ι → ℝ) (M : ℝ) :
    ∑ s, Real.exp (l s - M) * (1 / ∑ s', Real.exp (l s' - M)) * v s
      = (∑ s, Real.exp (l s) * v s) * (1 / ∑ s, Real.exp (l s)) := by
  have hpos : 0 < ∑ s, Real.exp (l s) := Finset.sum_pos (fun s _ => Real.exp_pos _) Finset.univ_nonempty
  have hM : ∀ s, Real.exp (l s - M) = Real.exp (l s) * Real.exp (-M) := fun s => by
    rw [← Real.exp_add]; ring_nf
  have hZ : ∑ s', Real.exp (l s' - M) = (∑ s', Real.exp (l s')) * Real.exp (-M) := by
    rw [Finset.sum_mul]; exact Finset.sum_congr rfl fun s _ => hM s
  rw [Finset.sum_mul]
  refine Finset.sum_congr rfl fun s _ => ?_
  rw [hZ, hM s]
  have he : Real.exp (-M) ≠ 0 := (Real.exp_pos _).ne'
  have hp : (∑ s, Real.exp (l s)) ≠ 0 := hpos.ne'
  field_simp

/-- The law on the extended reals, for real-valued logits l, values v and shift M: the shifted, normalised weights
    (their total taken from zero) applied to the values give the quotient of the two unshifted sums. -/
theorem softmax_ereal {ι : Type*} [Fintype ι] [Nonempty ι] (l v : ι → EReal) (M : EReal)
    (hl : ∀ s, IsReal (l s)) (hv : ∀ s, IsReal (v s)) (hM : IsReal M) :
    ∑ s, Ideal.div (Ideal.exp (l s - M)) (0 + ∑ s', Ideal.exp (l s' - M)) * v s
      = Ideal.div (∑ s, Ideal.exp (l s) * v s) (∑ s, Ideal.exp (l s) * 1) := by
  classical
  choose lr hlr using hl
  choose vr hvr using hv
  obtain ⟨Mr, rfl⟩ := hM
  have hZpos : 0 < ∑ s', Real.exp (lr s' - Mr) := Finset.sum_pos (fun s _ => Real.exp_pos _) Finset.univ_nonempty
  have hDpos : 0 < ∑ s', Real.exp (lr s') := Finset.sum_pos (fun s _ => Real.exp_pos _) Finset.univ_nonempty
  have hE : ∀ s, Ideal.exp (l s - (Mr : EReal)) = ((Real.exp (lr s - Mr) : ℝ) : EReal) := fun s => by
    rw [hlr s, ← EReal.coe_sub]; rfl
  have hE0 : ∀ s, Ideal.exp (l s) = ((Real.exp (lr s) : ℝ) : EReal) := fun s => by rw [hlr s]; rfl
  have hZ : (0 : EReal) + ∑ s', Ideal.exp (l s' - (Mr : EReal)) = ((∑ s', Real.exp (lr s' - Mr) : ℝ) : EReal) := by
    rw [zero_add, coe_sum]; exact Finset.sum_congr rfl fun s _ => hE s
  have hN : ∑ s, Ideal.exp (l s) * v s = ((∑ s, Real.exp (lr s) * vr s : ℝ) : EReal) := by
    rw [coe_sum]; exact Finset.sum_congr rfl fun s _ => by rw [hE0 s, hvr s, EReal.coe_mul]
  have hD : ∑ s, Ideal.exp (l s) * 1 = ((∑ s, Real.exp (lr s) : ℝ) : EReal) := by
    rw [coe_sum]; exact Finset.sum_congr rfl fun s _ => by rw [hE0 s, mul_one]
  rw [hZ, hN, hD, Ideal.div_coe hDpos.ne', ← EReal.coe_mul, ← softmax_real lr vr Mr,
    coe_sum Finset.univ fun s => Real.exp (lr s - Mr) * (1 / ∑ s', Real.exp (lr s' - Mr)) * vr s]
  refine Finset.sum_congr rfl fun s _ => ?_
  rw [hE s, Ideal.div_coe hZpos.ne', hvr s, ← EReal.coe_mul, ← EReal.coe_mul]

end Cert.Attn

end
-- ==== Proof.PreFacts.lean ====
/-
  What the precondition says of the inputs.

  The precondition is a conjunction of five tests, each an "all" over an array: every embedding entry and every
  weight entry has absolute value below +∞; every label is ≥ 0 and < 100000 as a signed 32-bit word; every weight row
  has a positive sum of squares. Read at the extended reals: every weight entry is a real number, every weight row's
  sum of squares is positive, and every label is the word of a class index below 100000.
-/
import proofs.«423590_j54898271977563_3_alg».proof.Proof.Gen.Pre_finite_inputs
import proofs.«423590_j54898271977563_3_alg».proof.Proof.Spec
import proofs.«423590_j54898271977563_3_alg».proof.Proof.LibSoftmax
import Idealize.ShloMosaic.Lib.ValueIdx
import Idealize.ShloMosaic.Lib.ReduceAll
import Idealize.ShloMosaic.Lib.StableHlo.Predicate
import Idealize.ShloMosaic.PureOps.Ideal.Laws

noncomputable section

namespace Cert.PreFacts

open Idealize.ShloMosaic Idealize.ShloMosaic.ValueIdx Cert.Attn Cert.Pre_finite_inputs

/-- The scalar shape has one index. -/
instance : Subsingleton S_.Idx := ⟨fun a b => funext fun d => d.elim0⟩

/-- The word 0x7F800000 is +∞. -/
theorem ofBits_inf : Ideal.ofBits .f32 0x7F800000#32 = ⊤ := by simp [Ideal.ofBits, Ideal.ieee]

/-- An extended real whose absolute value `max a (-a)` is below +∞ is neither infinity: it is a real number. -/
theorem isReal_of_abs_lt_top (a : EReal) (h : max a (-a) < ⊤) : IsReal a := by
  induction a using EReal.rec with
  | bot => simp at h
  | coe r => exact ⟨r, rfl⟩
  | top => simp at h

/-- A 32-bit word that reads, signed, at least 0 and below 100000 is the word of a number below 100000. -/
theorem word_of_range (v : BitVec 32) (h₀ : (0#32 : BitVec 32).toInt ≤ v.toInt) (h₁ : v.toInt < (100000#32 : BitVec 32).toInt) :
    ∃ g : Fin 100000, v = BitVec.ofNat 32 g.val := by
  rw [show (0#32 : BitVec 32).toInt = 0 from by decide] at h₀
  rw [show (100000#32 : BitVec 32).toInt = 100000 from by decide] at h₁
  have hc := BitVec.toInt_eq_toNat_cond v
  have hlt := v.isLt
  refine ⟨⟨v.toNat, by split at hc <;> omega⟩, ?_⟩
  apply BitVec.eq_of_toNat_eq
  rw [BitVec.toNat_ofNat]
  exact (Nat.mod_eq_of_lt hlt).symm

/-- The three facts the proof uses, from the precondition evaluated all ones at the extended reals. -/
theorem of_pre [Cert.Pre_finite_inputs.Facts] (x0 : FVec Ideal S512x512 .f32) (x1 : FVec Ideal S100000x512 .f32) (x2 : IVec S512 32)
    (h : Cert.Pre_finite_inputs.fn (F := Ideal) x0 x1 x2 = fun _ => 1#1) :
    (∀ (c : Fin 100000) (d : Fin 512), IsReal (x1 (ix2 c d)))
    ∧ (∀ c : Fin 100000, 0 < ∑ d : Fin 512, x1 (ix2 c d) * x1 (ix2 c d))
    ∧ (∀ b : Fin 512, ∃ g : Fin 100000, x2 (ix1 b) = BitVec.ofNat 32 g.val) := by
  -- the conjunction of the five tests is 1, so each test is 1
  have h0 := congrFun h ValueIdx.ix0
  dsimp only [fn, fn_part1] at h0
  simp only [andi] at h0
  rw [IntOp.andi_eq_one, IntOp.andi_eq_one, IntOp.andi_eq_one, IntOp.andi_eq_one] at h0
  obtain ⟨⟨⟨⟨-, h2⟩, h3⟩, h4⟩, h5⟩ := h0
  -- an "all" that is 1 had a 1 at every index
  have e2 := Host.reduce_andi_all _ _ _ _ _ h2
  have e3 := Host.reduce_andi_all _ _ _ _ _ h3
  have e4 := Host.reduce_andi_all _ _ _ _ _ h4
  have e5 := Host.reduce_andi_all _ _ _ _ _ h5
  refine ⟨fun c d => ?_, fun c => ?_, fun b => ?_⟩
  · -- |x1 (c, d)| < +∞
    have a2 := e2 (ix2 c d)
    simp only [cmpf, Host.absf, Ideal.hostAbsf_def, Ideal.cmpf_def, Ideal.absf_def, broadcastInDim, constant,
      Ideal.ofBits_def, ofBits_inf, Ideal.cmp, StableHlo.Predicate.ofBool_eq_one_iff, decide_eq_true_eq] at a2
    exact isReal_of_abs_lt_top _ a2
  · -- 0 < 0 + ∑ d, x1 (c, d) * x1 (c, d)
    have a5 := e5 (ix1 c)
    simp only [cmpf, Ideal.cmpf_def, Ideal.cmp, broadcastInDim, constant, Ideal.ofBits_def, Ideal.ofBits_zero_f32,
      StableHlo.Predicate.ofBool_eq_one_iff, decide_eq_true_eq, Host.reduceAdd, Ideal.hostReduceAdd_def] at a5
    rw [Ideal.hostReduceAdd_single Facts.reducesTo_S100000x512_S100000_d1 (by decide), zero_add] at a5
    refine lt_of_lt_of_eq a5 (Finset.sum_congr rfl fun k _ => ?_)
    have hk : (Shape.Reduces.lift (s := S100000x512) (t := S100000) (a := 1) (by decide) (ix1 c) k) = ix2 c k :=
      funext fun a => Fin.ext (by match a with | ⟨0, _⟩ => rfl | ⟨1, _⟩ => rfl)
    simp only [mulf, Ideal.mulf_def]
    rw [hk]
    rfl
  · -- 0 ≤ x2 b < 100000, read signed
    have a3 := e3 (ix1 b)
    have a4 := e4 (ix1 b)
    simp only [cmpi, broadcastInDim, constantI, IntOp.cmpi_sge, IntOp.cmpi_slt] at a3 a4
    exact word_of_range _ a3 a4

end Cert.PreFacts

end
-- ==== Proof.CosLaw.lean ====
/-
  The two spellings of a cosine agree.

  For a weight row of real numbers whose sum of squares s is positive, dividing each entry by √s before the
  contraction is multiplying the contraction by 1/√s afterwards: Σ e_d (w_d / √s) = (Σ e_d w_d) (√s)⁻¹. The factor
  (√s)⁻¹ is a nonnegative real, and a nonnegative real factor moves across a finite sum of extended reals whatever
  the e_d are (an embedding row of junk values included), so nothing is asked of `e`.
  Also: a clipped value, a margin value and a logit built from real numbers are real numbers. A 32-bit float word
  whose exponent field is not all ones denotes a real number (a dyadic rational), positive when the sign bit is clear
  and the exponent field is not zero; every constant the three definitions spell is such a word.
-/
import proofs.«423590_j54898271977563_3_alg».proof.Proof.Spec
import proofs.«423590_j54898271977563_3_alg».proof.Proof.LibSoftmax

noncomputable section

namespace Cert.Spec

open Idealize.ShloMosaic Cert.Attn

/-! ## Real numbers among the extended reals: negation, difference, minimum -/

theorem isReal_neg {x : EReal} (hx : IsReal x) : IsReal (-x) := by
  obtain ⟨a, rfl⟩ := hx; exact ⟨-a, (EReal.coe_neg a).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_min {x y : EReal} (hx : IsReal x) (hy : IsReal y) : IsReal (min x y) := by
  obtain ⟨a, rfl⟩ := hx; obtain ⟨b, rfl⟩ := hy
  exact ⟨Min.min a b, (EReal.coe_strictMono.monotone.map_min (a := a) (b := b)).symm⟩

/-! ## Float words that denote real numbers -/

/-- A 32-bit float word whose exponent field is not all ones denotes a real number. -/
theorem lit_isReal (b : BitVec 32) (h : (b.extractLsb' 23 8).toNat ≠ 255) : IsReal (lit b) := by
  unfold lit Ideal.ofBits Ideal.ieee
  simp only []
  rw [if_neg (by simpa using h)]
  split_ifs <;> exact ⟨_, rfl⟩

/-- A normal 32-bit float word with a clear sign bit denotes a positive number. -/
theorem lit_pos (b : BitVec 32) (h : (b.extractLsb' 23 8).toNat ≠ 255) (h0 : (b.extractLsb' 23 8).toNat ≠ 0)
    (hs : (b.extractLsb' 31 1 == 1#1) = false) : 0 < lit b := by
  unfold lit Ideal.ofBits Ideal.ieee
  simp only []
  rw [if_neg (by simpa using h), if_neg h0, hs]
  rw [EReal.coe_pos]
  simp only [Bool.false_eq_true, if_false, one_mul]
  positivity

/-- The square root of a positive real number is a real number. -/
theorem sqrt_isReal_of_pos {x : EReal} (hx : IsReal x) (hpos : 0 < x) : IsReal (Ideal.sqrt x) := by
  obtain ⟨a, rfl⟩ := hx
  have ha : 0 < a := by exact_mod_cast hpos
  rw [Ideal.sqrt_coe, if_neg (not_lt.2 ha.le)]
  exact ⟨_, rfl⟩

/-! ## A nonnegative real factor across a finite sum -/

/-- Multiplying each term of a finite sum of extended reals by one nonnegative real number multiplies the sum. -/
theorem sum_mul_nonneg_real {ι : Type*} (s : Finset ι) (f : ι → EReal) (r : ℝ) (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

/-! ## The four facts -/

/-- The two cosines are one value when the weight row is real with a positive sum of squares. -/
theorem cosKer_eq_cosRef {n : ℕ} (e wt : Fin n → EReal) (hw : ∀ d, IsReal (wt d)) (hpos : 0 < ∑ k, wt k * wt k) :
    cosKer e wt = cosRef e wt := by
  choose w hwr using hw
  -- the sum of squares is the real number s = Σ (w k)², and s > 0
  have hs : ∑ k, wt k * wt k = ((∑ k, w k * w k : ℝ) : EReal) := by
    rw [coe_sum]; exact Finset.sum_congr rfl fun k _ => by rw [hwr k, EReal.coe_mul]
  have hspos : 0 < ∑ k, w k * w k := by rw [hs] at hpos; exact_mod_cast hpos
  have hsq : 0 < Real.sqrt (∑ k, w k * w k) := Real.sqrt_pos.2 hspos
  -- each term of the reference's contraction is the raw term times (√s)⁻¹
  have hu : ∀ d, e d * unitRow wt d = (e d * wt d) * (((Real.sqrt (∑ k, w k * w k))⁻¹ : ℝ) : EReal) := fun d => by
    unfold unitRow
    rw [hs, Ideal.sqrt_coe, if_neg (not_lt.2 hspos.le), Ideal.div_coe hsq.ne', one_div, mul_assoc]
  unfold cosKer cosRef
  congr 1
  rw [hs, Ideal.rsqrt_coe, if_neg (not_lt.2 hspos.le), if_neg hspos.ne', Finset.sum_congr rfl fun d _ => hu d]
  exact (sum_mul_nonneg_real _ _ _ (inv_nonneg.2 hsq.le)).symm

/-- A clipped value is a real number, whatever was clipped. -/
theorem clip_isReal (x : EReal) : IsReal (clip x) := by
  have hhi : IsReal (lit 0x3F7FFFFE#32) := lit_isReal _ (by decide)
  have hlo : IsReal (lit 0xBF7FFFFE#32) := lit_isReal _ (by decide)
  unfold clip
  -- min hi y is hi or y; and y = max lo x is lo, or else it is x with lo ≤ x ≤ hi, a value between two reals
  rcases le_total (lit 0x3F7FFFFE#32) (max (lit 0xBF7FFFFE#32) x) with h | h
  · rw [min_eq_left h]; exact hhi
  · rw [min_eq_right h]
    rcases le_total (lit 0xBF7FFFFE#32) x with h' | h'
    · rw [max_eq_right h'] at h ⊢
      obtain ⟨a, ha⟩ := hlo
      obtain ⟨b, hb⟩ := hhi
      rw [ha] at h'; rw [hb] at h
      induction x using EReal.rec with
      | bot => exact absurd h' (by simp)
      | coe r => exact ⟨r, rfl⟩
      | top => exact absurd h (by simp)
    · rw [max_eq_left h']; exact hlo

/-- The margin of a real cosine is a real number. -/
theorem margin_isReal {p : EReal} (hp : IsReal p) : IsReal (margin p) := by
  unfold margin
  split_ifs
  · have hfloor : 0 < lit 0x33D6BF95#32 := lit_pos _ (by decide) (by decide) (by decide)
    have hin : IsReal (max (lit 0x33D6BF95#32) (lit 0x3F800000#32 - p * p)) :=
      (lit_isReal _ (by decide)).max (isReal_sub (lit_isReal _ (by decide)) (hp.mul hp))
    have hr : IsReal (min (lit 0x3F7FFFFE#32) (max (lit 0x33D6BF95#32) (lit 0x3F800000#32 - p * p))) :=
      isReal_min (lit_isReal _ (by decide)) hin
    have hrpos : 0 < min (lit 0x3F7FFFFE#32) (max (lit 0x33D6BF95#32) (lit 0x3F800000#32 - p * p)) :=
      lt_min (lit_pos _ (by decide) (by decide) (by decide)) (lt_of_lt_of_le hfloor (le_max_left _ _))
    exact isReal_sub (hp.mul (lit_isReal _ (by decide)))
      ((sqrt_isReal_of_pos hr hrpos).mul (lit_isReal _ (by decide)))
  · exact isReal_sub hp (lit_isReal _ (by decide))

/-- A logit of a real cosine and a real margin value is a real number. -/
theorem logit_isReal {c φ : EReal} (hc : IsReal c) (hφ : IsReal φ) (l : Bool) : IsReal (logit c φ l) := by
  unfold logit
  refine IsReal.mul ?_ (lit_isReal _ (by decide))
  split_ifs
  · exact hφ
  · exact ((lit_isReal _ (by decide)).mul hc).add (lit_isReal _ (by decide))
  · exact hc

end Cert.Spec

end
-- ==== Proof.LossLaw.lean ====
/-
  The two spellings of the loss agree on rows of real logits.

  For a row x of real logits, any real shift M and any real offset O:
    log Σ_c exp (x_c - M) + M = log Σ_c exp x_c = O + log Σ_c exp (x_c - O),
  the classes split into two halves of twenty-five tiles of two thousand, and
    max a b + log (1 + e^(-|a - b|)) = log (e^a + e^b).
  So the two halves' values a = O + log S₀, b = O + log S₁ join to O + log (S₀ + S₁) = log Σ_c exp x_c, and where the
  label's logit is φ·64 both programs return the mean of (log Σ_c exp x_c - φ·64).
-/
import proofs.«423590_j54898271977563_3_alg».proof.Proof.Spec
import proofs.«423590_j54898271977563_3_alg».proof.Proof.LibSoftmax

noncomputable section

namespace Cert.Spec

open Idealize.ShloMosaic Cert.Attn

/-! ## The three literals -/

/-- The word `0x42800000` denotes 64. -/
theorem lit_64 : lit 0x42800000#32 = ((64 : ℝ) : EReal) := by
  simp [Ideal.ofBits, Ideal.ieee, -EReal.coe_mul]; norm_num

/-- The word `0x44000000` denotes 512. -/
theorem lit_512 : lit 0x44000000#32 = ((512 : ℝ) : EReal) := by
  simp [Ideal.ofBits, Ideal.ieee, -EReal.coe_mul]; norm_num

/-- The offset's word denotes a real number. -/
theorem lit_off_real : ∃ O : ℝ, lit 0x42B33332#32 = (O : EReal) := by
  simp [Ideal.ofBits, Ideal.ieee, -EReal.coe_mul]

/-! ## Real identities -/

/-- A sum over `a * b` consecutive indices is the sum over `a` consecutive blocks of `b`. -/
theorem sum_range_blocks (f : ℕ → ℝ) (a b : ℕ) :
    ∑ i ∈ Finset.range (a * b), f i = ∑ q ∈ Finset.range a, ∑ r ∈ Finset.range b, f (q * b + r) := by
  induction a with
  | zero => simp
  | succ a ih => rw [Nat.succ_mul, Finset.sum_range_add, ih, Finset.sum_range_succ]

/-- `max a b + log (1 + e^(-|a - b|)) = log (e^a + e^b)`, the larger exponent first. -/
theorem real_logAddExp_of_le {a b : ℝ} (h : b ≤ a) :
    a + Real.log (1 + Real.exp (-(a - b))) = Real.log (Real.exp a + Real.exp b) := by
  have e : Real.exp a + Real.exp b = Real.exp a * (1 + Real.exp (-(a - b))) := by
    rw [mul_add, mul_one, ← Real.exp_add]; ring_nf
  rw [e, Real.log_mul (Real.exp_pos a).ne' (by positivity), Real.log_exp]

/-- `max a b + log (1 + e^(-|a - b|)) = log (e^a + e^b)`. -/
theorem real_logAddExp (a b : ℝ) :
    max a b + Real.log (1 + Real.exp (-(max (a - b) (-(a - b))))) = Real.log (Real.exp a + Real.exp b) := by
  rcases le_total b a with h | h
  · rw [max_eq_left h, max_eq_left (by linarith : -(a - b) ≤ a - b)]
    exact real_logAddExp_of_le h
  · rw [max_eq_right h, max_eq_right (by linarith : a - b ≤ -(a - b)), add_comm (Real.exp a)]
    have := real_logAddExp_of_le h
    rwa [show -(b - a) = - -(a - b) by ring] at this

/-- Two offset logarithms of positive sums join to the offset logarithm of the total. -/
theorem real_join (O S₀ S₁ : ℝ) (h₀ : 0 < S₀) (h₁ : 0 < S₁) :
    Real.log (Real.exp (O + Real.log S₀) + Real.exp (O + Real.log S₁)) = O + Real.log (S₀ + S₁) := by
  rw [Real.exp_add, Real.exp_add, Real.exp_log h₀, Real.exp_log h₁, ← mul_add,
    Real.log_mul (Real.exp_pos O).ne' (by positivity), Real.log_exp]

/-- Subtracting a shift inside the exponentials subtracts it from the logarithm of the sum. -/
theorem real_log_sum_shift {ι : Type*} (s : Finset ι) (x : ι → ℝ) (M : ℝ) (hs : s.Nonempty) :
    Real.log (∑ c ∈ s, Real.exp (x c - M)) = Real.log (∑ c ∈ s, Real.exp (x c)) - M := by
  have hpos : 0 < ∑ c ∈ s, Real.exp (x c) := Finset.sum_pos (fun c _ => Real.exp_pos _) hs
  have e : ∑ c ∈ s, Real.exp (x c - M) = (∑ c ∈ s, Real.exp (x c)) * Real.exp (-M) := by
    rw [Finset.sum_mul]; exact Finset.sum_congr rfl fun c _ => by rw [← Real.exp_add]; ring_nf
  rw [e, Real.log_mul hpos.ne' (Real.exp_pos _).ne', Real.log_exp]; ring

/-- The two halves' block sums add up to the sum over all hundred thousand classes. -/
theorem real_halves (e : ℕ → ℝ) :
    (∑ k ∈ Finset.range 25, ∑ j ∈ Finset.range 2000, e ((25 * 0 + k) * 2000 + j))
      + (∑ k ∈ Finset.range 25, ∑ j ∈ Finset.range 2000, e ((25 * 1 + k) * 2000 + j))
      = ∑ c ∈ Finset.range 100000, e c := by
  rw [show (100000 : ℕ) = (25 + 25) * 2000 from rfl, sum_range_blocks, Finset.sum_range_add]
  simp only [Nat.mul_zero, Nat.zero_add, Nat.mul_one]

/-! ## The operations on real numbers inside the extended reals -/

theorem coe_max' (a b : ℝ) : max (a : EReal) (b : EReal) = ((max a b : ℝ) : EReal) :=
  (EReal.coe_strictMono.monotone.map_max (a := a) (b := b)).symm

theorem log_coe_pos {r : ℝ} (h : 0 < r) : Ideal.log (r : EReal) = ((Real.log r : ℝ) : EReal) := by
  rw [Ideal.log_coe, if_neg (not_le.2 h)]

/-- The join of two real numbers is the logarithm of the sum of their exponentials. -/
theorem logAddExp_coe (a b : ℝ) :
    logAddExp (a : EReal) (b : EReal) = ((Real.log (Real.exp a + Real.exp b) : ℝ) : EReal) := by
  have h1 : (1 : EReal) + ((Real.exp (-(max (a - b) (-(a - b)))) : ℝ) : EReal)
      = ((1 + Real.exp (-(max (a - b) (-(a - b)))) : ℝ) : EReal) := by
    rw [EReal.coe_add, EReal.coe_one]
  unfold logAddExp Ideal.log1p
  rw [← EReal.coe_sub, ← EReal.coe_neg, coe_max', coe_max', ← EReal.coe_neg, Ideal.exp_coe, h1,
    log_coe_pos (by positivity), ← EReal.coe_add, real_logAddExp]

section Row

variable (x : ℕ → EReal) (xr : ℕ → ℝ) (O : ℝ) (hO : lit 0x42B33332#32 = (O : EReal))
  (hx : ∀ c, c < 100000 → x c = (xr c : EReal))

include hO hx

/-- A tile's sum, for a tile inside the classes, is the real sum of the shifted exponentials. -/
theorem tileSum_coe (t : ℕ) (ht : t < 50) :
    tileSum x t = ((∑ j ∈ Finset.range 2000, Real.exp (xr (t * 2000 + j) - O) : ℝ) : EReal) := by
  unfold tileSum
  rw [← Fin.sum_univ_eq_sum_range (fun j => Real.exp (xr (t * 2000 + j) - O)) 2000, coe_sum]
  refine Finset.sum_congr rfl fun j _ => ?_
  have hc : t * 2000 + j.val < 100000 := by have := j.isLt; omega
  rw [hx _ hc, hO, ← EReal.coe_sub, Ideal.exp_coe]

/-- A half's value is the offset plus the real logarithm of its (positive) sum. -/
theorem halfLse_coe (p : ℕ) (hp : p < 2) :
    halfLse x p = ((O + Real.log (∑ k ∈ Finset.range 25, ∑ j ∈ Finset.range 2000,
      Real.exp (xr ((25 * p + k) * 2000 + j) - O)) : ℝ) : EReal) := by
  unfold halfLse
  have hpos : 0 < ∑ k ∈ Finset.range 25, ∑ j ∈ Finset.range 2000, Real.exp (xr ((25 * p + k) * 2000 + j) - O) :=
    Finset.sum_pos (fun k _ => Finset.sum_pos (fun j _ => Real.exp_pos _) (by simp)) (by simp)
  have hs : ∑ k ∈ Finset.range 25, tileSum x (25 * p + k)
      = ((∑ k ∈ Finset.range 25, ∑ j ∈ Finset.range 2000, Real.exp (xr ((25 * p + k) * 2000 + j) - O) : ℝ) : EReal) := by
    rw [coe_sum]
    refine Finset.sum_congr rfl fun k hk => ?_
    exact tileSum_coe x xr O hO hx _ (by have := Finset.mem_range.1 hk; omega)
  rw [hs, hO, log_coe_pos hpos, ← EReal.coe_add]

/-- The two halves join to the logarithm of the sum of the exponentials of the whole row. -/
theorem row_join_coe :
    logAddExp (halfLse x 0) (halfLse x 1)
      = ((Real.log (∑ c ∈ Finset.range 100000, Real.exp (xr c)) : ℝ) : EReal) := by
  have hpos : ∀ p : ℕ, 0 < ∑ k ∈ Finset.range 25, ∑ j ∈ Finset.range 2000,
      Real.exp (xr ((25 * p + k) * 2000 + j) - O) := fun p =>
    Finset.sum_pos (fun k _ => Finset.sum_pos (fun j _ => Real.exp_pos _) (by simp)) (by simp)
  rw [halfLse_coe x xr O hO hx 0 (by omega), halfLse_coe x xr O hO hx 1 (by omega), logAddExp_coe,
    real_join O _ _ (hpos 0) (hpos 1), real_halves (fun c => Real.exp (xr c - O)),
    real_log_sum_shift _ _ _ (by simp)]
  congr 1; ring

/-- The reference's logarithm of the shifted row sum. -/
theorem ref_log_coe (m : ℝ) :
    Ideal.log (∑ c : Fin 100000, Ideal.exp (x c.val - (m : EReal)))
      = ((Real.log (∑ c ∈ Finset.range 100000, Real.exp (xr c)) - m : ℝ) : EReal) := by
  have hs : ∑ c : Fin 100000, Ideal.exp (x c.val - (m : EReal))
      = ((∑ c ∈ Finset.range 100000, Real.exp (xr c - m) : ℝ) : EReal) := by
    rw [← Fin.sum_univ_eq_sum_range (fun c => Real.exp (xr c - m)) 100000, coe_sum]
    refine Finset.sum_congr rfl fun c _ => ?_
    rw [hx _ c.isLt, ← EReal.coe_sub, Ideal.exp_coe]
  rw [hs, log_coe_pos (Finset.sum_pos (fun c _ => Real.exp_pos _) (by simp)),
    real_log_sum_shift _ _ _ (by simp)]

end Row

/-- On real logits, with the label's logit equal to the margin value times 64, the tiled loss is the reference's,
    whatever real shift the reference subtracts. -/
theorem lossKer_eq_lossRef (X : Fin 512 → ℕ → EReal) (φ M : Fin 512 → EReal) (g : Fin 512 → Fin 100000)
    (hX : ∀ b c, c < 100000 → IsReal (X b c)) (hφ : ∀ b, IsReal (φ b)) (hM : ∀ b, IsReal (M b))
    (hg : ∀ b, X b (g b).val = φ b * lit 0x42800000#32) :
    lossKer X φ = lossRef X M g := by
  classical
  obtain ⟨O, hO⟩ := lit_off_real
  choose! xr hxr using hX
  choose fr hfr using hφ
  choose mr hmr using hM
  have hL : ∀ b, logAddExp (halfLse (X b) 0) (halfLse (X b) 1) - φ b * lit 0x42800000#32
      = ((Real.log (∑ c ∈ Finset.range 100000, Real.exp (xr b c)) - fr b * 64 : ℝ) : EReal) := fun b => by
    rw [row_join_coe (X b) (xr b) O hO (hxr b), hfr b, lit_64, ← EReal.coe_mul, ← EReal.coe_sub]
  have hR : ∀ b, (X b (g b).val - M b) - Ideal.log (∑ c : Fin 100000, Ideal.exp (X b c.val - M b))
      = ((-(Real.log (∑ c ∈ Finset.range 100000, Real.exp (xr b c)) - fr b * 64) : ℝ) : EReal) := fun b => by
    rw [hg b, hmr b, ref_log_coe (X b) (xr b) O hO (hxr b), hfr b, lit_64, ← EReal.coe_mul, ← EReal.coe_sub,
      ← EReal.coe_sub]
    congr 1; ring
  unfold lossKer lossRef
  rw [Finset.sum_congr rfl fun b _ => hL b, Finset.sum_congr rfl fun b _ => hR b, lit_512,
    Ideal.div_coe (by norm_num), Ideal.div_coe (by norm_num), ← coe_sum, ← coe_sum, ← EReal.coe_mul, ← EReal.coe_mul,
    ← EReal.coe_neg, Finset.sum_neg_distrib]
  congr 1; ring

end Cert.Spec

end
-- ==== Proof.RefCos.lean ====
/-
  The reference's first stages, as values: the clipped cosines, the label's cosine, the margin.

  Entry (b, c) of the cosine matrix is the inner product of embedding row b and weight row c, each divided by its
  norm, clipped. The label's cosine of row b is the matrix's entry at column g b — the indexed read with its
  wrap-around of negative indices and its fill outside the range is the plain read when the label is a class index —
  and the margin is applied to it entry by entry.
-/
import proofs.«423590_j54898271977563_3_alg».proof.Proof.RefReadP
import proofs.«423590_j54898271977563_3_alg».proof.Proof.Spec
import proofs.«423590_j54898271977563_3_alg».proof.Proof.LibSoftmax
import Idealize.ShloMosaic.Lib.Pipeline.Value
import Idealize.ShloMosaic.Lib.ValueIdx
import Idealize.ShloMosaic.Lib.ValueLayout
import Idealize.ShloMosaic.Lib.ReduceAll
import Idealize.ShloMosaic.PureOps.Ideal.Laws
import Idealize.ShloMosaic.Lib.StableHlo.Predicate

noncomputable section

namespace Cert.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

/-! ## The cosine matrix -/

/-- Entry (b, k) of the embedding divided by its row norms. -/
theorem cos_unit0 (x0 : (⟨S512x512, .f32⟩ : BufTy).Contents (Elt Ideal)) (b k : Fin 512) :
    val_main_v2 (F := Ideal) x0 (ix2 b k) = Spec.unitRow (fun k : Fin 512 => x0 (ix2 b k)) k := by
  rw [val_main_v2_apply, val_main_v1_apply, val_main_v0_apply, val_main_call0_v2_apply, val_main_call0_v1_apply,
    val_main_call0_cst_apply]
  simp only [val_main_call0_v0_apply, Ideal.hostDivf_def, Ideal.hostUnary_sqrt_def, Ideal.ofBits_def,
    Ideal.ofBits_zero_f32, zero_add, Ideal.mulf_def]
  unfold Spec.unitRow
  refine congrArg (fun s => Ideal.div _ (Ideal.sqrt s)) (Finset.sum_congr rfl fun k' _ => ?_)
  have e : idx_main_call0_v1 (idx_main_call0_v2 (idx_main_v1 (ix2 b k))) k' = ix2 b k' :=
    funext fun a => Fin.ext (by match a with | ⟨0, _⟩ => rfl | ⟨1, _⟩ => rfl)
  rw [e]

/-- Entry (c, d) of the weight divided by its row norms. -/
theorem cos_unit1 (x1 : (⟨S100000x512, .f32⟩ : BufTy).Contents (Elt Ideal)) (c : Fin 100000) (d : Fin 512) :
    val_main_v5 (F := Ideal) x1 (ix2 c d) = Spec.unitRow (fun d : Fin 512 => x1 (ix2 c d)) d := by
  rw [val_main_v5_apply, val_main_v4_apply, val_main_v3_apply, val_main_call1_v2_apply, val_main_call1_v1_apply,
    val_main_call1_cst_apply]
  simp only [val_main_call1_v0_apply, Ideal.hostDivf_def, Ideal.hostUnary_sqrt_def, Ideal.ofBits_def,
    Ideal.ofBits_zero_f32, zero_add, Ideal.mulf_def]
  unfold Spec.unitRow
  refine congrArg (fun s => Ideal.div _ (Ideal.sqrt s)) (Finset.sum_congr rfl fun k' _ => ?_)
  have e : idx_main_call1_v1 (idx_main_call1_v2 (idx_main_v4 (ix2 c d))) k' = ix2 c k' :=
    funext fun a => Fin.ext (by match a with | ⟨0, _⟩ => rfl | ⟨1, _⟩ => rfl)
  rw [e]

/-- The clipped cosine matrix, entry (b, c). -/
theorem cos_apply (x0 : (⟨S512x512, .f32⟩ : BufTy).Contents (Elt Ideal)) (x1 : (⟨S100000x512, .f32⟩ : BufTy).Contents (Elt Ideal)) (b : Fin 512) (c : Fin 100000) :
    val_main_v7 (F := Ideal) x0 x1 (ix2 b c)
      = Spec.cosRef (Spec.unitRow (fun k : Fin 512 => x0 (ix2 b k))) (fun d : Fin 512 => x1 (ix2 c d)) := by
  rw [val_main_v7_apply, val_main_call2_v4_apply, val_main_call2_v3_apply, val_main_cst_0_apply,
    val_main_call2_v2_apply, val_main_call2_v1_apply, val_main_call2_v0_apply, val_main_cst_apply, val_main_v6_apply]
  simp only [Ideal.minimumf_def, Ideal.maximumf_def, Ideal.ofBits_def]
  unfold Spec.cosRef Spec.clip
  refine congrArg (fun s => min _ (max _ s)) (Finset.sum_congr rfl fun k _ => ?_)
  have el : lidx_main_v6 (ix2 b c) k = ix2 b k :=
    funext fun a => Fin.ext (by match a with | ⟨0, _⟩ => rfl | ⟨1, _⟩ => rfl)
  have er : ridx_main_v6 (ix2 b c) k = ix2 c k :=
    funext fun a => Fin.ext (by match a with | ⟨0, _⟩ => rfl | ⟨1, _⟩ => rfl)
  rw [el, er, cos_unit0, cos_unit1]

/-! ## The label's cosine -/

/-- A class index, as a 32-bit word, reads back unsigned as itself. -/
theorem cos_word_toNat (n : ℕ) (hn : n < 100000) : (BitVec.ofNat 32 n).toNat = n := by
  rw [BitVec.toNat_ofNat]; exact Nat.mod_eq_of_lt (by omega)

/-- A signed "less than zero" test of a class index fails. -/
theorem cos_word_not_neg (n : ℕ) (hn : n < 100000) : IntOp.cmpi .slt (BitVec.ofNat 32 n) 0#32 = 0#1 :=
  eq_zero_of_ne_one fun h => by
    have h' := (Predicate.slt_iff_toNat (a := BitVec.ofNat 32 n) (b := 0#32)
      (by rw [cos_word_toNat n hn]; omega) (by decide)).1 h
    exact Nat.not_lt_zero _ h'

/-- A class index passes the range test `0 ≤ · ≤ 99999`. -/
theorem cos_word_inrange (n : ℕ) (hn : n < 100000) :
    IntOp.andi (IntOp.cmpi .sge (BitVec.ofNat 32 n) 0#32) (IntOp.cmpi .sle (BitVec.ofNat 32 n) 99999#32) = 1#1 := by
  have h9 : (99999#32 : BitVec 32).toNat = 99999 := rfl
  have h1 : IntOp.cmpi .sge (BitVec.ofNat 32 n) 0#32 = 1#1 :=
    (Predicate.sge_iff_toNat (by rw [cos_word_toNat n hn]; omega) (by decide)).2 (Nat.zero_le _)
  have h2 : IntOp.cmpi .sle (BitVec.ofNat 32 n) 99999#32 = 1#1 :=
    (Predicate.sle_iff_toNat (by rw [cos_word_toNat n hn]; omega) (by decide)).2
      (by rw [cos_word_toNat n hn, h9]; omega)
  rw [h1, h2]; rfl

section Labels

variable (x2 : (⟨S512, .i32⟩ : BufTy).Contents (Elt Ideal)) (g : Fin 512 → Fin 100000)
  (hg : ∀ b : Fin 512, x2 (ix1 b) = BitVec.ofNat 32 (g b).val)

include hg

/-- The index column, wrapped as a negative index is wrapped, is the label itself where the label is a class index. -/
theorem cos_wrapped (i : S512x1.Idx) :
    val_main_call3_v4 (F := Ideal) x2 i = BitVec.ofNat 32 (g (i 0)).val := by
  have h8 : val_main_v8 (F := Ideal) x2 i = BitVec.ofNat 32 (g (i 0)).val := by
    rw [val_main_v8_apply, ← hg (i 0)]
    exact congrArg x2 (funext fun a => Fin.ext (by match a with | ⟨0, _⟩ => rfl))
  rw [val_main_call3_v4_apply, val_main_call3_v1_apply, val_main_call3_v0_apply, val_main_call3_c_apply, h8,
    cos_word_not_neg _ (g (i 0)).isLt, select_zero]

/-- The start indices of the gather: entry (b, 0, 0) is the label of row b. -/
theorem cos_index (i : S512x1x1.Idx) :
    val_main_call3_v5 (F := Ideal) x2 i = BitVec.ofNat 32 (g (i 0)).val := by
  rw [val_main_call3_v5_apply, cos_wrapped x2 g hg]
  have e : idx_main_call3_v5 i 0 = i 0 := Fin.ext (by
    have h1 : (i 1).val < 1 := (i 1).isLt
    have h2 : (i 2).val < 1 := (i 2).isLt
    show (((i 0).val * 1 + (i 1).val) * 1 + (i 2).val) / 1 = (i 0).val
    omega)
  rw [e]

/-- Every start index passes the range test. -/
theorem cos_inrange (i : S512x1x1.Idx) : val_main_call3_v11 (F := Ideal) x2 i = 1#1 := by
  rw [val_main_call3_v11_apply, val_main_call3_v7_apply, val_main_call3_v10_apply, val_main_call3_v6_apply,
    val_main_call3_c_2_apply, val_main_call3_v9_apply, val_main_call3_v8_apply, val_main_call3_c_1_apply,
    cos_index x2 g hg]
  exact cos_word_inrange _ (g (i 0)).isLt

omit hg in
/-- A left fold by `and` from 1 over words that are all 1 is 1. -/
theorem cos_foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi (1#1 : BitVec 1) 1#1 = 1#1 := by decide
    rw [List.foldl_cons, h a (List.mem_cons_self ..), e]
    exact cos_foldl_andi_one f l fun n hn => h n (List.mem_cons_of_mem _ hn)

/-- So the and-reduce of the range tests over the size-one axis is 1 everywhere. -/
theorem cos_allrange (j : S512x1.Idx) : val_main_call3_v12 (F := Ideal) x2 j = 1#1 := by
  unfold val_main_call3_v12
  rw [Host.reduce_eq_foldl]
  exact cos_foldl_andi_one _ _ fun i _ => cos_inrange x2 g hg i

end Labels

/-- The gather of `take_along_axis` read at (b, 0): row b of the operand at the start index (b, 0, 0), read signed and
    clamped into the columns. Axis 0 is a batching axis, axis 1 the collapsed, start-indexed one. -/
theorem cos_gather {α : Type} (x : S512x100000.Idx → α) (idx : IVec S512x1x1 32) (b : Fin 512) :
    Host.gather gather_S512x100000_S512x1x1_S512x1_n_1_0_0_1_2_11 x idx (ix2 b (0 : Fin 1))
      = x (ix2 b ⟨min (idx (ix3 b (0 : Fin 1) (0 : Fin 1))).toInt.toNat 99999, by omega⟩) := by
  unfold Host.gather
  congr 1
  funext a
  refine Fin.ext ?_
  match a with
  | ⟨0, _⟩ =>
    show gather_S512x100000_S512x1x1_S512x1_n_1_0_0_1_2_11.start (ix2 b (0 : Fin 1)) idx 0
      + gather_S512x100000_S512x1x1_S512x1_n_1_0_0_1_2_11.batchCoord (ix2 b (0 : Fin 1)) 0
      + gather_S512x100000_S512x1x1_S512x1_n_1_0_0_1_2_11.offCoord (ix2 b (0 : Fin 1)) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show gather_S512x100000_S512x1x1_S512x1_n_1_0_0_1_2_11.start (ix2 b (0 : Fin 1)) idx 1
      + gather_S512x100000_S512x1x1_S512x1_n_1_0_0_1_2_11.batchCoord (ix2 b (0 : Fin 1)) 1
      + gather_S512x100000_S512x1x1_S512x1_n_1_0_0_1_2_11.offCoord (ix2 b (0 : Fin 1)) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S512x100000_S512x1x1_S512x1_n_1_0_0_1_2_11.startIndexMap from
      List.mem_singleton.mpr rfl)]
    have hsi : gather_S512x100000_S512x1x1_S512x1_n_1_0_0_1_2_11.siIdx (ix2 b (0 : Fin 1))
        ⟨List.idxOf (1 : Fin 2) gather_S512x100000_S512x1x1_S512x1_n_1_0_0_1_2_11.startIndexMap,
          List.idxOf_lt_length_iff.2 (List.mem_singleton.mpr rfl)⟩ = ix3 b (0 : Fin 1) (0 : Fin 1) := by
      funext c; refine Fin.ext ?_
      match c with
      | ⟨0, _⟩ => rfl
      | ⟨1, _⟩ => rfl
      | ⟨2, _⟩ => rfl
    rw [hsi]
    rfl

/-- The label's cosine of row b is the matrix's entry at the label's column, where the labels are class indices. -/
theorem pos_apply (x0 : (⟨S512x512, .f32⟩ : BufTy).Contents (Elt Ideal)) (x1 : (⟨S100000x512, .f32⟩ : BufTy).Contents (Elt Ideal)) (x2 : (⟨S512, .i32⟩ : BufTy).Contents (Elt Ideal)) (g : Fin 512 → Fin 100000)
    (hg : ∀ b : Fin 512, x2 (ix1 b) = BitVec.ofNat 32 (g b).val) (b : Fin 512) :
    val_main_v9 (F := Ideal) x0 x1 x2 (ix2 b (0 : Fin 1)) = val_main_v7 (F := Ideal) x0 x1 (ix2 b (g b)) := by
  rw [val_main_v9_apply, cos_allrange x2 g hg, select_one]
  unfold val_main_call3_v13
  rw [cos_gather]
  refine congrArg (fun c => val_main_v7 (F := Ideal) x0 x1 (ix2 b c)) (Fin.ext ?_)
  show min (val_main_call3_v5 (F := Ideal) x2 (ix3 b (0 : Fin 1) (0 : Fin 1))).toInt.toNat 99999 = (g b).val
  rw [cos_index x2 g hg]
  show min (BitVec.ofNat 32 (g b).val).toInt.toNat 99999 = (g b).val
  have hn := (g b).isLt
  rw [Predicate.toInt_ofNat_small _ (by omega), Int.toNat_natCast]
  omega

/-- The margin value of row b is the margin of the label's cosine. -/
theorem phi_apply (x0 : (⟨S512x512, .f32⟩ : BufTy).Contents (Elt Ideal)) (x1 : (⟨S100000x512, .f32⟩ : BufTy).Contents (Elt Ideal)) (x2 : (⟨S512, .i32⟩ : BufTy).Contents (Elt Ideal)) (b : Fin 512) :
    val_main_v24 (F := Ideal) x0 x1 x2 (ix2 b (0 : Fin 1)) = Spec.margin (val_main_v9 (F := Ideal) x0 x1 x2 (ix2 b (0 : Fin 1))) := by
  simp only [val_main_v24_apply, val_main_v21_apply, val_main_v20_apply, val_main_cst_6_apply, val_main_v19_apply,
    val_main_v16_apply, val_main_v15_apply, val_main_cst_4_apply, val_main_v18_apply, val_main_v17_apply,
    val_main_cst_5_apply, val_main_v14_apply, val_main_v13_apply, val_main_call4_v4_apply, val_main_call4_v3_apply,
    val_main_cst_3_apply, val_main_call4_v2_apply, val_main_call4_v1_apply, val_main_call4_v0_apply,
    val_main_cst_2_apply, val_main_v12_apply, val_main_v11_apply, val_main_cst_1_apply, val_main_v10_apply,
    val_main_v23_apply, val_main_v22_apply, val_main_cst_7_apply, Ideal.cmpf_def, Spec.select_ogt, Ideal.subf_def,
    Ideal.mulf_def, Ideal.hostUnary_sqrt_def, Ideal.minimumf_def, Ideal.maximumf_def, Ideal.ofBits_def]
  rfl

end Cert.RefValue

end
-- ==== Proof.RefLogits.lean ====
/-
  The reference's logits, as values.

  Away from the label's column a logit is the cosine, raised to 1.2 c + 0.2 where it exceeds the row's margin value;
  the scatter then writes the margin value into column g b of row b — rows are distinct, so exactly one update lands
  in each row, and none is out of range when the labels are class indices — and everything is multiplied by 64.
-/
import proofs.«423590_j54898271977563_3_alg».proof.Proof.RefReadP
import proofs.«423590_j54898271977563_3_alg».proof.Proof.Spec
import proofs.«423590_j54898271977563_3_alg».proof.Proof.LibSoftmax
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Predicate
import Idealize.ShloMosaic.PureOps.Ideal.Laws

noncomputable section

namespace Cert.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

/-! ## A fold of writes, read at one entry -/

/-- A left fold of steps, none of which touches entry `i`, leaves it as it was. -/
theorem logits_foldl_keep {ι β γ : Type} (step : (β → γ) → ι → (β → γ)) (hit : ι → Prop) (i : β)
    (hkeep : ∀ r n, ¬ hit n → step r n i = r i) (l : List ι) (x : β → γ) (h : ∀ n ∈ l, ¬ hit n) :
    l.foldl step x i = x i := by
  induction l generalizing x with
  | nil => rfl
  | cons n l ih =>
    rw [List.foldl_cons, ih _ (fun m hm => h m (List.mem_cons_of_mem _ hm)), hkeep _ _ (h n (by simp))]

/-- A left fold of steps over a list without repeats, exactly one of which (`n0`) writes entry `i`, leaves there
    what that step writes. -/
theorem logits_foldl_hit {ι β γ : Type} (step : (β → γ) → ι → (β → γ)) (hit : ι → Prop) (i : β) (v : ι → γ)
    (hkeep : ∀ r n, ¬ hit n → step r n i = r i) (hset : ∀ r n, hit n → step r n i = v n)
    (n0 : ι) (l : List ι) (x : β → γ) (hl : l.Nodup) (hn0 : n0 ∈ l) (huniq : ∀ n ∈ l, hit n → n = n0) (h0 : hit n0) :
    l.foldl step x i = v n0 := by
  induction l generalizing x with
  | nil => simp at hn0
  | cons n l ih =>
    rw [List.foldl_cons]
    have hnd := List.nodup_cons.mp hl
    by_cases hn : n = n0
    · subst hn
      rw [logits_foldl_keep step hit i hkeep l _
        (fun m hm hh => hnd.1 ((huniq m (List.mem_cons_of_mem _ hm) hh) ▸ hm)), hset _ _ h0]
    · have hmem : n0 ∈ l := by
        rcases List.mem_cons.mp hn0 with h | h
        · exact absurd h.symm hn
        · exact h
      exact ih _ hnd.2 hmem (fun m hm => huniq m (List.mem_cons_of_mem _ hm))

/-! ## A scatter whose body takes the update, read at one entry -/

/-- No update lands on entry `i`: the scatter leaves the operand's. -/
theorem logits_scatter_keep {α : Type} {s si u : Shape} {w : Nat} (d : ScatterDims s si u) (x : s.Idx → α)
    (idx : IVec si w) (upd : u.Idx → α) (i : s.Idx) (h : ∀ j, d.resultIdx? j idx ≠ some i) :
    Host.scatter d (fun _ b => b) x idx upd i = x i := by
  unfold Host.scatter
  refine logits_foldl_keep _ (fun n => d.resultIdx? (u.rowMajor.symm n) idx = some i) i ?_ _ x (fun n _ => h _)
  intro r n hn
  generalize d.resultIdx? (u.rowMajor.symm n) idx = o at hn
  cases o with
  | none => rfl
  | some i1 =>
    show (if i = i1 then _ else r i) = r i
    rw [if_neg (fun e => hn (by rw [e]))]

/-- Exactly one update (`j0`) lands on entry `i`: the scatter leaves that update there. -/
theorem logits_scatter_hit {α : Type} {s si u : Shape} {w : Nat} (d : ScatterDims s si u) (x : s.Idx → α)
    (idx : IVec si w) (upd : u.Idx → α) (i : s.Idx) (j0 : u.Idx) (h0 : d.resultIdx? j0 idx = some i)
    (huniq : ∀ j, d.resultIdx? j idx = some i → j = j0) :
    Host.scatter d (fun _ b => b) x idx upd i = upd j0 := by
  unfold Host.scatter
  have key := logits_foldl_hit
    (fun r n =>
      match d.resultIdx? (u.rowMajor.symm n) idx with
      | some i1 => fun i' => if i' = i1 then (fun _ b => b) (r i1) (upd (u.rowMajor.symm n)) else r i'
      | none => r)
    (fun n => d.resultIdx? (u.rowMajor.symm n) idx = some i) i (fun n => upd (u.rowMajor.symm n))
    ?_ ?_ (u.rowMajor j0) (List.finRange u.numel) x (List.nodup_finRange _) (List.mem_finRange _) ?_ ?_
  · rw [Equiv.symm_apply_apply] at key; exact key
  · intro r n hn
    generalize d.resultIdx? (u.rowMajor.symm n) idx = o at hn
    cases o with
    | none => rfl
    | some i1 =>
      show (if i = i1 then _ else r i) = r i
      rw [if_neg (fun e => hn (by rw [e]))]
  · intro r n hn
    generalize d.resultIdx? (u.rowMajor.symm n) idx = o at hn
    cases o with
    | none => cases hn
    | some i1 =>
      show (if i = i1 then _ else r i) = _
      rw [if_pos (Option.some.inj hn).symm]
  · intro n _ hn
    rw [← huniq _ hn, Equiv.apply_symm_apply]
  · show d.resultIdx? (u.rowMajor.symm (u.rowMajor j0)) idx = some i
    rw [Equiv.symm_apply_apply]; exact h0

/-! ## The reference's scatter -/

/-- The reference's scatter: a [512, 100000] operand, [512, 2] indices (row, column), [512] updates. -/
abbrev logits_D : ScatterDims S512x100000 S512x2 S512 := scatter_S512x100000_S512x2_S512_n_01_01_1

/-- Where update `j` lands: at the row and the column that row `j 0` of the indices holds, when they are a row number
    and a class index. -/
theorem logits_resultIdx (idx : IVec S512x2 32) (j : S512.Idx) (r : Fin 512) (c : Fin 100000)
    (h0 : (idx (ix2 (j 0 : Fin 512) (0 : Fin 2))).toInt = (r.val : Int))
    (h1 : (idx (ix2 (j 0 : Fin 512) (1 : Fin 2))).toInt = (c.val : Int)) :
    logits_D.resultIdx? j idx = some (ix2 r c) := by
  have hs0 : ∀ h, logits_D.start j idx ⟨0, h⟩ = (r.val : Int) := by
    intro h
    have hm : (⟨0, h⟩ : Fin S512x100000.rank) ∈ logits_D.scatterDimsToOperandDims :=
      (by decide : (0 : Fin 2) ∈ logits_D.scatterDimsToOperandDims)
    unfold ScatterDims.start
    rw [dif_pos hm]
    have hsi : logits_D.siIdx j ⟨List.idxOf (⟨0, h⟩ : Fin S512x100000.rank) logits_D.scatterDimsToOperandDims,
        List.idxOf_lt_length_iff.2 hm⟩ = ix2 (j 0 : Fin 512) (0 : Fin 2) := by
      funext b; refine Fin.ext ?_
      match b with
      | ⟨0, _⟩ => rfl
      | ⟨1, _⟩ => rfl
    rw [hsi]; exact h0
  have hs1 : ∀ h, logits_D.start j idx ⟨1, h⟩ = (c.val : Int) := by
    intro h
    have hm : (⟨1, h⟩ : Fin S512x100000.rank) ∈ logits_D.scatterDimsToOperandDims :=
      (by decide : (1 : Fin 2) ∈ logits_D.scatterDimsToOperandDims)
    unfold ScatterDims.start
    rw [dif_pos hm]
    have hsi : logits_D.siIdx j ⟨List.idxOf (⟨1, h⟩ : Fin S512x100000.rank) logits_D.scatterDimsToOperandDims,
        List.idxOf_lt_length_iff.2 hm⟩ = ix2 (j 0 : Fin 512) (1 : Fin 2) := by
      funext b; refine Fin.ext ?_
      match b with
      | ⟨0, _⟩ => rfl
      | ⟨1, _⟩ => rfl
    rw [hsi]; exact h1
  have hk : logits_D.sKept = [] := by decide
  have hw : ∀ a, logits_D.window j a = 0 := by
    intro a
    unfold ScatterDims.window
    rw [dif_neg (by rw [hk]; exact List.not_mem_nil)]
  have hall : ∀ a, 0 ≤ logits_D.start j idx a + logits_D.window j a ∧
      logits_D.start j idx a + logits_D.window j a < S512x100000.size a := by
    intro a
    match a with
    | ⟨0, h⟩ =>
      rw [hs0 h, hw]
      have := r.isLt
      refine ⟨by omega, ?_⟩
      show (r.val : Int) + ((0 : Nat) : Int) < ((512 : Nat) : Int)
      omega
    | ⟨1, h⟩ =>
      rw [hs1 h, hw]
      have := c.isLt
      refine ⟨by omega, ?_⟩
      show (c.val : Int) + ((0 : Nat) : Int) < ((100000 : Nat) : Int)
      omega
  unfold ScatterDims.resultIdx?
  rw [dif_pos hall]
  congr 1
  funext a; refine Fin.ext ?_
  match a with
  | ⟨0, h⟩ =>
    show (logits_D.start j idx ⟨0, h⟩ + (logits_D.window j ⟨0, h⟩ : Int)).toNat = r.val
    rw [hs0 h, hw]; omega
  | ⟨1, h⟩ =>
    show (logits_D.start j idx ⟨1, h⟩ + (logits_D.window j ⟨1, h⟩ : Int)).toNat = c.val
    rw [hs1 h, hw]; omega

/-- THE SCATTER READ AT `(b, c)`: row `j` of the indices holds the row number `j` and a class index `g j`, so entry
    `(b, c)` takes update `b` when `c` is `g b` and keeps the operand's otherwise. -/
theorem logits_scatter_apply {α : Type} (x : S512x100000.Idx → α) (idx : IVec S512x2 32) (upd : S512.Idx → α)
    (g : Fin 512 → Fin 100000)
    (h0 : ∀ j : Fin 512, (idx (ix2 j (0 : Fin 2))).toInt = (j.val : Int))
    (h1 : ∀ j : Fin 512, (idx (ix2 j (1 : Fin 2))).toInt = ((g j).val : Int)) (b : Fin 512) (c : Fin 100000) :
    Host.scatter logits_D (fun _ u => u) x idx upd (ix2 b c) = if c = g b then upd (ix1 b) else x (ix2 b c) := by
  have hres : ∀ j : S512.Idx, logits_D.resultIdx? j idx = some (ix2 (j 0 : Fin 512) (g (j 0))) :=
    fun j => logits_resultIdx idx j (j 0) (g (j 0)) (h0 _) (h1 _)
  have hinj : ∀ (a a' : Fin 512) (e e' : Fin 100000), (ix2 a e : S512x100000.Idx) = ix2 a' e' → a = a' ∧ e = e' :=
    fun a a' e e' h => ⟨congrFun h 0, congrFun h 1⟩
  by_cases hc : c = g b
  · rw [if_pos hc]
    refine logits_scatter_hit logits_D x idx upd (ix2 b c) (ix1 b) ?_ ?_
    · rw [hres, hc]; rfl
    · intro j hj
      rw [hres] at hj
      have := (hinj _ _ _ _ (Option.some.inj hj)).1
      rw [eq_ix1 j]; exact congrArg ix1 this
  · rw [if_neg hc]
    refine logits_scatter_keep logits_D x idx upd (ix2 b c) ?_
    intro j hj
    rw [hres] at hj
    obtain ⟨e0, e1⟩ := hinj _ _ _ _ (Option.some.inj hj)
    exact hc (by rw [← e1, e0])

/-! ## The scatter's indices -/

/-- A small non-negative word is not below zero as a signed word. -/
theorem logits_slt_zero (a : Nat) (ha : a < 2 ^ 31) : IntOp.cmpi .slt (BitVec.ofNat 32 a) 0#32 = 0#1 := by
  refine eq_zero_of_ne_one (fun h => ?_)
  have hlt : (BitVec.ofNat 32 a).toNat < 2 ^ 31 := by
    rw [BitVec.toNat_ofNat, Nat.mod_eq_of_lt (by omega)]; exact ha
  have := (Predicate.slt_iff_toNat hlt (by decide)).mp h
  simp at this

/-- Column 0 of the scatter's indices holds the row number. -/
theorem logits_idx_row (x2 : (⟨S512, .i32⟩ : BufTy).Contents (Elt Ideal)) (j : Fin 512) :
    (val_main_v46 (F := Ideal) x2 (ix2 j (0 : Fin 2))).toInt = (j.val : Int) := by
  unfold val_main_v46
  rw [concatenate_pair_apply_left (1 : Fin S512x2.rank) _ _ concatenates_S512x1_S512x1_S512x2_d1
    (ix2 j (0 : Fin 2)) rfl (ix2 j (0 : Fin 1)) (fun b => match b with | ⟨0, _⟩ => rfl | ⟨1, _⟩ => rfl)]
  rw [val_main_v44_apply, val_main_v38_apply, val_main_v35_apply, val_main_v32_apply, val_main_v34_apply,
    val_main_c_apply]
  show (Scalar.select (IntOp.cmpi .slt (BitVec.ofNat 32 j.val) 0#32) _ (BitVec.ofNat 32 j.val)).toInt = _
  have := j.isLt
  rw [logits_slt_zero _ (by omega), select_zero, Predicate.toInt_ofNat_small _ (by omega)]

/-- Column 1 of the scatter's indices holds the row's label, a class index. -/
theorem logits_idx_col (x2 : (⟨S512, .i32⟩ : BufTy).Contents (Elt Ideal)) (g : Fin 512 → Fin 100000)
    (hg : ∀ b : Fin 512, x2 (ix1 b) = BitVec.ofNat 32 (g b).val) (j : Fin 512) :
    (val_main_v46 (F := Ideal) x2 (ix2 j (1 : Fin 2))).toInt = ((g j).val : Int) := by
  unfold val_main_v46
  rw [concatenate_pair_apply_right (1 : Fin S512x2.rank) _ _ concatenates_S512x1_S512x1_S512x2_d1
    (ix2 j (1 : Fin 2)) rfl rfl (ix2 j (0 : Fin 1))
    (fun b => match b with | ⟨0, _⟩ => fun _ => rfl | ⟨1, _⟩ => fun hb => absurd rfl hb) rfl]
  rw [val_main_v45_apply, val_main_v43_apply, val_main_v40_apply, val_main_v39_apply, val_main_c_11_apply]
  have e : idx_main_v45 (ix2 j (0 : Fin 1)) = ix1 j := by
    funext a; refine Fin.ext ?_
    match a with
    | ⟨0, _⟩ => rfl
  rw [e, hg]
  have := (g j).isLt
  rw [logits_slt_zero _ (by omega), select_zero, Predicate.toInt_ofNat_small _ (by omega)]

/-- The scaled logits, entry (b, c), where the labels are class indices `g`. -/
theorem logits_apply (x0 : (⟨S512x512, .f32⟩ : BufTy).Contents (Elt Ideal)) (x1 : (⟨S100000x512, .f32⟩ : BufTy).Contents (Elt Ideal)) (x2 : (⟨S512, .i32⟩ : BufTy).Contents (Elt Ideal)) (g : Fin 512 → Fin 100000)
    (hg : ∀ b : Fin 512, x2 (ix1 b) = BitVec.ofNat 32 (g b).val) (b : Fin 512) (c : Fin 100000) :
    val_main_v49 (F := Ideal) x0 x1 x2 (ix2 b c)
      = Spec.logit (val_main_v7 (F := Ideal) x0 x1 (ix2 b c)) (val_main_v24 (F := Ideal) x0 x1 x2 (ix2 b (0 : Fin 1))) (decide (c = g b)) := by
  rw [val_main_v49_apply, val_main_v48_apply, val_main_cst_13_apply]
  unfold val_main_v47
  rw [logits_scatter_apply _ _ _ g (logits_idx_row x2) (logits_idx_col x2 g hg) b c]
  rw [val_main_v33_apply, val_main_v31_apply, val_main_v26_apply, val_main_v25_apply, val_main_v30_apply,
    val_main_v28_apply, val_main_v27_apply, val_main_cst_8_apply, val_main_v29_apply, val_main_cst_9_apply]
  have e1 : idx_main_v33 (ix1 b) = ix2 b (0 : Fin 1) := by
    funext a; refine Fin.ext ?_
    match a with
    | ⟨0, _⟩ => exact Nat.div_one _
    | ⟨1, _⟩ => rfl
  have e2 : idx_main_v25 (ix2 b c) = ix2 b (0 : Fin 1) := by
    funext a; refine Fin.ext ?_
    match a with
    | ⟨0, _⟩ => rfl
    | ⟨1, _⟩ => rfl
  rw [e1, e2]
  generalize val_main_v7 (F := Ideal) x0 x1 (ix2 b c) = cs
  generalize val_main_v24 (F := Ideal) x0 x1 x2 (ix2 b (0 : Fin 1)) = φ
  unfold Spec.logit
  show (if c = g b then φ else Scalar.select (Ideal.cmp .ogt cs φ) (Spec.lit 0x3F99999A#32 * cs + Spec.lit 0x3E4CCCCD#32) cs)
      * Spec.lit 0x42800000#32 = _
  rw [Spec.select_ogt]
  by_cases hc : c = g b
  · rw [if_pos hc]; simp [hc]
  · rw [if_neg hc]; simp [hc]

end Cert.RefValue

end
-- ==== Proof.RefLoss.lean ====
/-
  The reference's last stages, as values: the log-softmax, the label's log-probability, the mean.

  Row b of the log-softmax is (x - M) - log Σ_c exp (x_c - M) with M the row's maximum, a real number when the
  logits are; the label's entry is read at column g b (the plain read, the labels being class indices); the result
  is minus the mean over the 512 rows.
-/
import proofs.«423590_j54898271977563_3_alg».proof.Proof.RefReadP
import proofs.«423590_j54898271977563_3_alg».proof.Proof.Spec
import proofs.«423590_j54898271977563_3_alg».proof.Proof.LibSoftmax
import Idealize.ShloMosaic.Lib.Pipeline.Value
import Idealize.ShloMosaic.Lib.ValueIdx
import Idealize.ShloMosaic.Lib.ValueLayout
import Idealize.ShloMosaic.Lib.ReduceAll
import Idealize.ShloMosaic.PureOps.Ideal.Laws

noncomputable section

namespace Cert.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx Cert.Attn

/-- The gather of the label's column, read at row `b`: the operand at `(b, clamp (index word at (b, 0, 0)))`. The
    record's one batching axis pairs row with row, its one collapsed axis is the column, and the start index's one
    component, read signed and clamped into [0, 99999], is the column. -/
theorem loss_gather_apply {α : Type} (x : S512x100000.Idx → α) (idx : IVec S512x1x1 32) (b : Fin 512) :
    Host.gather gather_S512x100000_S512x1x1_S512x1_n_1_0_0_1_2_11 x idx (ix2 b (0 : Fin 1))
      = x (ix2 b ⟨min (idx (ix3 b (0 : Fin 1) (0 : Fin 1))).toInt.toNat 99999, by omega⟩) := by
  unfold Host.gather
  congr 1
  funext a
  refine Fin.ext ?_
  match a with
  | ⟨0, h0⟩ =>
    have hm : (⟨0, h0⟩ : Fin S512x100000.rank) ∈ gather_S512x100000_S512x1x1_S512x1_n_1_0_0_1_2_11.operandBatchingDims :=
      List.mem_singleton.mpr rfl
    show GatherDims.start _ _ idx _ + GatherDims.batchCoord _ _ _ + GatherDims.offCoord _ _ _ = _
    rw [GatherDims.start_batching _ _ _ _ hm,
      GatherDims.offCoord_eq_zero _ _ _ (fun h => ((GatherDims.mem_sKept _ _).mp h).2 hm)]
    simp only [Nat.zero_add, Nat.add_zero]
    unfold GatherDims.batchCoord
    rw [dif_pos hm]
    rfl
  | ⟨1, h1⟩ =>
    have hm : (⟨1, h1⟩ : Fin S512x100000.rank) ∈ gather_S512x100000_S512x1x1_S512x1_n_1_0_0_1_2_11.startIndexMap :=
      List.mem_singleton.mpr rfl
    have hc : (⟨1, h1⟩ : Fin S512x100000.rank) ∈ gather_S512x100000_S512x1x1_S512x1_n_1_0_0_1_2_11.collapsedSliceDims :=
      List.mem_singleton.mpr rfl
    have hb : (⟨1, h1⟩ : Fin S512x100000.rank) ∉ gather_S512x100000_S512x1x1_S512x1_n_1_0_0_1_2_11.operandBatchingDims :=
      fun h => absurd (congrArg Fin.val (List.mem_singleton.mp h)) (show ¬ (1 : Nat) = 0 by decide)
    show GatherDims.start _ _ idx _ + GatherDims.batchCoord _ _ _ + GatherDims.offCoord _ _ _ = _
    rw [GatherDims.batchCoord_eq_zero _ _ _ hb,
      GatherDims.offCoord_eq_zero _ _ _ (fun h => ((GatherDims.mem_sKept _ _).mp h).1 hc)]
    simp only [Nat.add_zero]
    unfold GatherDims.start
    rw [dif_pos hm]
    have hsi : gather_S512x100000_S512x1x1_S512x1_n_1_0_0_1_2_11.siIdx (ix2 b (0 : Fin 1))
        ⟨List.idxOf (⟨1, h1⟩ : Fin S512x100000.rank) gather_S512x100000_S512x1x1_S512x1_n_1_0_0_1_2_11.startIndexMap,
          List.idxOf_lt_length_iff.2 hm⟩ = ix3 b (0 : Fin 1) (0 : Fin 1) := by
      funext c; refine Fin.ext ?_
      match c with
      | ⟨0, _⟩ => rfl
      | ⟨1, _⟩ => rfl
      | ⟨2, _⟩ => rfl
    rw [hsi]
    rfl

/-- The word 0xFF800000 is -∞. -/
theorem loss_ofBits_neg_inf : Ideal.ofBits .f32 0xFF800000#32 = ⊥ := by simp [Ideal.ofBits, Ideal.ieee]

/-! ## The log-softmax -/

/-- The running maximum, from -∞, of real numbers over a nonempty finite set is a real number. -/
theorem loss_fold_maximumf_real {ι : Type} (s : Finset ι) (hs : s.Nonempty) (f : ι → EReal) (hf : ∀ i ∈ s, IsReal (f i)) :
    IsReal (s.fold (FloatOps.maximumf (F := Ideal) (φ := .f32)) (⊥ : EReal) f) :=
  IsReal.fold_max s hs f hf

/-- The shift the reference subtracts from row `b`: the row's maximum (taken from -∞, then once more against -∞). It is
    a real number when the row's entries are. -/
theorem loss_rowmax_real (x0 : (⟨S512x512, .f32⟩ : BufTy).Contents (Elt Ideal)) (x1 : (⟨S100000x512, .f32⟩ : BufTy).Contents (Elt Ideal)) (x2 : (⟨S512, .i32⟩ : BufTy).Contents (Elt Ideal))
    (hreal : ∀ (b : Fin 512) (c : Fin 100000), IsReal (val_main_v49 (F := Ideal) x0 x1 x2 (ix2 b c))) (b : Fin 512) :
    IsReal (val_main_call7_v2 (F := Ideal) x0 x1 x2 (ix1 b)) := by
  rw [val_main_call7_v2_apply, val_main_call7_v1_apply, val_main_call7_cst_0_apply]
  unfold val_main_call7_v0
  rw [Host.reduce_eq_fold_single FloatOps.maximumf _ _ Facts₀.reducesTo_S512x100000_S512_d1 (by decide) Facts₀.h_S_ (ix1 b)]
  rw [val_main_call7_cst_apply]
  simp only [Ideal.ofBits_def, loss_ofBits_neg_inf, Ideal.maximumf_def]
  rw [max_bot_left]
  haveI : Nonempty (Fin (S512x100000.size 1)) := ⟨⟨0, by decide⟩⟩
  refine loss_fold_maximumf_real Finset.univ Finset.univ_nonempty _ fun k _ => ?_
  have hall : ∀ j : S512x100000.Idx, IsReal (val_main_v49 (F := Ideal) x0 x1 x2 j) := fun j => by
    obtain ⟨b', c', rfl⟩ : ∃ (b' : Fin 512) (c' : Fin 100000), j = ix2 b' c' := ⟨j 0, j 1, eq_ix2 j⟩
    exact hreal b' c'
  exact hall _

/-- Entry `(b, c)` of the log-softmax: `(x - M) - log (0 + Σ_k exp (x_k - M))`, `M` the row's shift. -/
theorem loss_v50_apply (x0 : (⟨S512x512, .f32⟩ : BufTy).Contents (Elt Ideal)) (x1 : (⟨S100000x512, .f32⟩ : BufTy).Contents (Elt Ideal)) (x2 : (⟨S512, .i32⟩ : BufTy).Contents (Elt Ideal)) (b : Fin 512) (c : Fin 100000) :
    val_main_v50 (F := Ideal) x0 x1 x2 (ix2 b c)
      = (val_main_v49 (F := Ideal) x0 x1 x2 (ix2 b c) - val_main_call7_v2 (F := Ideal) x0 x1 x2 (ix1 b))
        - Ideal.log (0 + ∑ k : Fin 100000,
            Ideal.exp (val_main_v49 (F := Ideal) x0 x1 x2 (ix2 b k) - val_main_call7_v2 (F := Ideal) x0 x1 x2 (ix1 b))) := by
  have e1 : ∀ k : Fin 100000, idx_main_call7_v3 (idx_main_call7_v4 (ix2 b k)) = ix1 b := fun k =>
    funext fun a => Fin.ext (by match a with | ⟨0, _⟩ => rfl)
  have e2 : idx_main_call7_v8 (idx_main_call7_v10 (ix2 b c)) = ix1 b :=
    funext fun a => Fin.ext (by match a with | ⟨0, _⟩ => rfl)
  have e3 : ∀ k : Fin 100000, idx_main_call7_v7 (ix1 b) k = ix2 b k := fun k =>
    funext fun a => Fin.ext (by match a with | ⟨0, _⟩ => rfl | ⟨1, _⟩ => rfl)
  rw [val_main_v50_apply, val_main_call7_v5_apply, val_main_call7_v4_apply, val_main_call7_v3_apply, e1,
    val_main_call7_v10_apply, val_main_call7_v9_apply, val_main_call7_v8_apply, e2, val_main_call7_v7_apply,
    val_main_call7_cst_1_apply]
  simp only [Ideal.subf_def, Ideal.hostUnary_log_def, Ideal.ofBits_def, Ideal.ofBits_zero_f32]
  have hs : (∑ k : Fin 100000, val_main_call7_v6 (F := Ideal) x0 x1 x2 (idx_main_call7_v7 (ix1 b) k))
      = ∑ k : Fin 100000, Ideal.exp (val_main_v49 (F := Ideal) x0 x1 x2 (ix2 b k) - val_main_call7_v2 (F := Ideal) x0 x1 x2 (ix1 b)) :=
    Finset.sum_congr rfl fun k _ => by
      rw [e3, val_main_call7_v6_apply, val_main_call7_v5_apply, val_main_call7_v4_apply, val_main_call7_v3_apply, e1]
      simp only [Ideal.subf_def, Ideal.hostUnary_exp_def]
  rw [hs]

/-! ## The label's entry -/

/-- The word of a class index reads, signed, as that index. -/
theorem loss_toInt_word (n : Nat) (hn : n < 100000) : (BitVec.ofNat 32 n).toInt = (n : Int) := by
  have hm : (BitVec.ofNat 32 n).toNat = n := by rw [BitVec.toNat_ofNat]; omega
  rw [BitVec.toInt_eq_toNat_of_lt (by rw [hm]; omega), hm]

/-- The index word of row `b` after the wrap of negative indices: the label's word, which is not negative. -/
theorem loss_v4_word (x2 : (⟨S512, .i32⟩ : BufTy).Contents (Elt Ideal)) (g : Fin 512 → Fin 100000)
    (hg : ∀ b : Fin 512, x2 (ix1 b) = BitVec.ofNat 32 (g b).val) (b : Fin 512) (q : Fin 1) :
    val_main_call8_v4 (F := Ideal) x2 (ix2 b q) = BitVec.ofNat 32 (g b).val := by
  have e : idx_main_v51 (ix2 b q) = ix1 b := funext fun a => Fin.ext (by match a with | ⟨0, _⟩ => rfl)
  have h51 : val_main_v51 (F := Ideal) x2 (ix2 b q) = BitVec.ofNat 32 (g b).val := by
    rw [val_main_v51_apply, e, hg]
  rw [val_main_call8_v4_apply, val_main_call8_v1_apply, h51, val_main_call8_v0_apply, val_main_call8_c_apply]
  have hz : IntOp.cmpi .slt (BitVec.ofNat 32 (g b).val) 0#32 = 0#1 := by
    refine eq_zero_of_ne_one fun h => ?_
    rw [IntOp.cmpi_slt, loss_toInt_word _ (g b).isLt, show (0#32 : BitVec 32).toInt = 0 from by decide] at h
    omega
  rw [hz, select_zero]

/-- The same word after the reshape to [512, 1, 1]. -/
theorem loss_v5_word (x2 : (⟨S512, .i32⟩ : BufTy).Contents (Elt Ideal)) (g : Fin 512 → Fin 100000)
    (hg : ∀ b : Fin 512, x2 (ix1 b) = BitVec.ofNat 32 (g b).val) (b : Fin 512) (p q : Fin 1) :
    val_main_call8_v5 (F := Ideal) x2 (ix3 b p q) = BitVec.ofNat 32 (g b).val := by
  have e : idx_main_call8_v5 (ix3 b p q) = ix2 b (0 : Fin 1) := funext fun a => Fin.ext (by
    match a with
    | ⟨0, _⟩ =>
      show ((b.val * 1 + p.val) * 1 + q.val) / 1 = b.val
      have := p.isLt; have := q.isLt; omega
    | ⟨1, _⟩ => rfl)
  rw [val_main_call8_v5_apply, e, loss_v4_word x2 g hg]

/-- A fold by `and` from 1 over words that are all 1 is 1. -/
theorem loss_fold_andi_one {ι : Type} (s : Finset ι) (f : ι → BitVec 1) (hf : ∀ i ∈ s, f i = 1#1) :
    s.fold IntOp.andi 1#1 f = 1#1 := by
  classical
  induction s using Finset.induction_on with
  | empty => rfl
  | insert a s ha ih =>
    rw [Finset.fold_insert ha, hf a (Finset.mem_insert_self a s), ih fun i hi => hf i (Finset.mem_insert_of_mem hi)]
    decide

/-- The range test on the index word, 0 ≤ word ≤ 99999, holds in every row. -/
theorem loss_v11_one (x2 : (⟨S512, .i32⟩ : BufTy).Contents (Elt Ideal)) (g : Fin 512 → Fin 100000)
    (hg : ∀ b : Fin 512, x2 (ix1 b) = BitVec.ofNat 32 (g b).val) (i : S512x1x1.Idx) :
    val_main_call8_v11 (F := Ideal) x2 i = 1#1 := by
  obtain ⟨b, p, q, rfl⟩ : ∃ (b : Fin 512) (p q : Fin 1), i = ix3 b p q := ⟨i 0, i 1, i 2, eq_ix3 i⟩
  rw [val_main_call8_v11_apply, val_main_call8_v7_apply, val_main_call8_v10_apply, loss_v5_word x2 g hg,
    val_main_call8_v6_apply, val_main_call8_c_2_apply, val_main_call8_v9_apply, val_main_call8_v8_apply,
    val_main_call8_c_1_apply, IntOp.andi_eq_one, IntOp.cmpi_sge, IntOp.cmpi_sle, loss_toInt_word _ (g b).isLt,
    show (0#32 : BitVec 32).toInt = 0 from by decide, show (99999#32 : BitVec 32).toInt = 99999 from by decide]
  have := (g b).isLt
  omega

/-- So its and-reduce over the last axis is 1 at every index. -/
theorem loss_v12_one (x2 : (⟨S512, .i32⟩ : BufTy).Contents (Elt Ideal)) (g : Fin 512 → Fin 100000)
    (hg : ∀ b : Fin 512, x2 (ix1 b) = BitVec.ofNat 32 (g b).val) (j : S512x1.Idx) :
    val_main_call8_v12 (F := Ideal) x2 j = 1#1 := by
  unfold val_main_call8_v12
  rw [Host.reduce_eq_fold_single IntOp.andi _ _ Facts₀.reducesTo_S512x1x1_S512x1_d2 (by decide) Facts₀.h_S_ j,
    val_main_call8_c_3_apply]
  exact loss_fold_andi_one _ _ fun k _ => loss_v11_one x2 g hg _

/-- The label's entry of the log-softmax: the gather reads column `g b` of row `b`, and the fill keeps it. -/
theorem loss_v52_apply (x0 : (⟨S512x512, .f32⟩ : BufTy).Contents (Elt Ideal)) (x1 : (⟨S100000x512, .f32⟩ : BufTy).Contents (Elt Ideal)) (x2 : (⟨S512, .i32⟩ : BufTy).Contents (Elt Ideal)) (g : Fin 512 → Fin 100000)
    (hg : ∀ b : Fin 512, x2 (ix1 b) = BitVec.ofNat 32 (g b).val) (b : Fin 512) :
    val_main_v52 (F := Ideal) x0 x1 x2 (ix2 b (0 : Fin 1)) = val_main_v50 (F := Ideal) x0 x1 x2 (ix2 b (g b)) := by
  rw [val_main_v52_apply, loss_v12_one x2 g hg, select_one]
  unfold val_main_call8_v13
  rw [loss_gather_apply]
  refine congrArg _ (congrArg (ix2 b) (Fin.ext ?_))
  show min (val_main_call8_v5 (F := Ideal) x2 (ix3 b (0 : Fin 1) (0 : Fin 1))).toInt.toNat 99999 = (g b).val
  rw [loss_v5_word x2 g hg, loss_toInt_word _ (g b).isLt, Int.toNat_natCast]
  have := (g b).isLt
  omega

/-- The reference's result from its scaled logits: `Spec.lossRef` at some real shifts `M`. -/
theorem loss_apply (x0 : (⟨S512x512, .f32⟩ : BufTy).Contents (Elt Ideal)) (x1 : (⟨S100000x512, .f32⟩ : BufTy).Contents (Elt Ideal)) (x2 : (⟨S512, .i32⟩ : BufTy).Contents (Elt Ideal)) (g : Fin 512 → Fin 100000)
    (hg : ∀ b : Fin 512, x2 (ix1 b) = BitVec.ofNat 32 (g b).val)
    (hreal : ∀ (b : Fin 512) (c : Fin 100000), IsReal (val_main_v49 (F := Ideal) x0 x1 x2 (ix2 b c))) :
    ∃ M : Fin 512 → EReal, (∀ b, IsReal (M b)) ∧
      val_main_v55 (F := Ideal) x0 x1 x2
        = fun _ => Spec.lossRef (fun b col => if h : col < 100000 then val_main_v49 (F := Ideal) x0 x1 x2 (ix2 b (⟨col, h⟩ : Fin 100000)) else 0) M g := by
  refine ⟨fun b => val_main_call7_v2 (F := Ideal) x0 x1 x2 (ix1 b), fun b => loss_rowmax_real x0 x1 x2 hreal b, ?_⟩
  funext i
  rw [val_main_v55_apply, val_main_v54_apply, val_main_v53_apply, val_main_cst_14_apply, val_main_cst_15_apply]
  simp only [Ideal.hostNegf_def, Ideal.negf_def, Ideal.hostDivf_def, Ideal.ofBits_def, Ideal.ofBits_zero_f32, zero_add]
  unfold Spec.lossRef Spec.lit
  refine congrArg (fun z => -Ideal.div z (Ideal.ofBits FTy.f32 0x44000000#32)) ?_
  rw [sum_idx2]
  refine Finset.sum_congr rfl fun b _ => ?_
  rw [Fin.sum_univ_one, loss_v52_apply x0 x1 x2 g hg b, loss_v50_apply, zero_add]
  simp only [dif_pos (g b).isLt, Fin.eta, Fin.is_lt, dite_true]

end Cert.RefValue

end
-- ==== Proof.RefStretch1.lean ====
/-
  One stretch of the reference's straight line, read back: the first 23 operations: the two normalisations, the contraction and the clip, ending at the clipped cosines. From any buffer contents `G` that hold
  the stage values this stretch takes over, the fold of its operations leaves the stage values it hands on.
-/
import proofs.«423590_j54898271977563_3_alg».proof.Proof.RefOpsP
import proofs.«423590_j54898271977563_3_alg».proof.Proof.RefReadP

noncomputable section

namespace Cert.ReferenceIdeal.StagedRun

open Cert.ReferenceIdeal Cert.ReferenceIdeal.Gen Cert.ReferenceIdeal.OpsP Cert.ReferenceIdeal.ReadP
open Idealize.ShloMosaic Idealize.ShloMosaic.TcCoe Idealize.SL.Sem Idealize.ShloMosaic.StableHlo

variable {F : FTy → Type} [FloatOps F]

set_option maxRecDepth 8192 in
/-- Stretch 1. -/
theorem stretch1 (G : Valuation τ sig (Elt F)) (x0 : (⟨S512x512, .f32⟩ : BufTy).Contents (Elt F)) (x1 : (⟨S100000x512, .f32⟩ : BufTy).Contents (Elt F)) (x2 : (⟨S512, .i32⟩ : BufTy).Contents (Elt F))
    (h0 : G (Proc.devRef .tc main_arg0) = x0) (h1 : G (Proc.devRef .tc main_arg1) = x1) (h2 : G (Proc.devRef .tc main_arg2) = x2) :
    after ((ops (F := F)).take 23) G (Proc.devRef .tc main_v7) = val_main_v7 (F := F) x0 x1
      ∧ after ((ops (F := F)).take 23) G (Proc.devRef .tc main_arg2) = x2 := by
  simp only [ops, List.take_succ_cons, List.take_zero]
  refine ⟨?_, ?_⟩
  · after_results_simp
    rw [h0, h1]
    simp only [TRef.ofBuf, TRef.toBuf, cast_eq]
    rfl
  · after_results_simp
    exact h2

end Cert.ReferenceIdeal.StagedRun

end
-- ==== Proof.RefStretch2.lean ====
/-
  One stretch of the reference's straight line, read back: operations 24 to 73: the label's cosine read along the class axis and the margin chain, ending at the margin values. From any buffer contents `G` that hold
  the stage values this stretch takes over, the fold of its operations leaves the stage values it hands on.
-/
import proofs.«423590_j54898271977563_3_alg».proof.Proof.RefOpsP
import proofs.«423590_j54898271977563_3_alg».proof.Proof.RefReadP

noncomputable section

namespace Cert.ReferenceIdeal.StagedRun

open Cert.ReferenceIdeal Cert.ReferenceIdeal.Gen Cert.ReferenceIdeal.OpsP Cert.ReferenceIdeal.ReadP
open Idealize.ShloMosaic Idealize.ShloMosaic.TcCoe Idealize.SL.Sem Idealize.ShloMosaic.StableHlo

variable {F : FTy → Type} [FloatOps F]

set_option maxRecDepth 8192 in
/-- Stretch 2. -/
theorem stretch2 (G : Valuation τ sig (Elt F)) (x0 : (⟨S512x512, .f32⟩ : BufTy).Contents (Elt F)) (x1 : (⟨S100000x512, .f32⟩ : BufTy).Contents (Elt F)) (x2 : (⟨S512, .i32⟩ : BufTy).Contents (Elt F))
    (h7 : G (Proc.devRef .tc main_v7) = val_main_v7 (F := F) x0 x1) (h2 : G (Proc.devRef .tc main_arg2) = x2) :
    after (((ops (F := F)).drop 23).take 50) G (Proc.devRef .tc main_v7) = val_main_v7 (F := F) x0 x1
      ∧ after (((ops (F := F)).drop 23).take 50) G (Proc.devRef .tc main_v24) = val_main_v24 (F := F) x0 x1 x2
      ∧ after (((ops (F := F)).drop 23).take 50) G (Proc.devRef .tc main_arg2) = x2 := by
  simp only [ops, List.drop_succ_cons, List.drop_zero, List.take_succ_cons, List.take_zero]
  refine ⟨?_, ?_, ?_⟩
  · after_results_simp
    exact h7
  · after_results_simp
    rw [h7, h2]
    simp only [TRef.ofBuf, TRef.toBuf, cast_eq]
    rfl
  · after_results_simp
    exact h2

end Cert.ReferenceIdeal.StagedRun

end
-- ==== Proof.RefStretch3.lean ====
/-
  One stretch of the reference's straight line, read back: operations 74 to 105: the raised cosines, the scatter of the margin values into the labels' columns and the scaling, ending at the scaled logits. From any buffer contents `G` that hold
  the stage values this stretch takes over, the fold of its operations leaves the stage values it hands on.
-/
import proofs.«423590_j54898271977563_3_alg».proof.Proof.RefOpsP
import proofs.«423590_j54898271977563_3_alg».proof.Proof.RefReadP

noncomputable section

namespace Cert.ReferenceIdeal.StagedRun

open Cert.ReferenceIdeal Cert.ReferenceIdeal.Gen Cert.ReferenceIdeal.OpsP Cert.ReferenceIdeal.ReadP
open Idealize.ShloMosaic Idealize.ShloMosaic.TcCoe Idealize.SL.Sem Idealize.ShloMosaic.StableHlo

variable {F : FTy → Type} [FloatOps F]

/-- The contents after two lists of operations run one after the other. -/
theorem s3_after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

set_option maxRecDepth 8192 in
/-- The stretch is its first twenty-seven operations (through the two index columns) followed by its last five (the
    joined index pairs, the scatter, the scale). -/
theorem s3_split : ((ops (F := F)).drop 73).take 32 = ((ops (F := F)).drop 73).take 27 ++ ((ops (F := F)).drop 100).take 5 := rfl

set_option maxRecDepth 8192 in
/-- Stretch 3. -/
theorem stretch3 (G : Valuation τ sig (Elt F)) (x0 : (⟨S512x512, .f32⟩ : BufTy).Contents (Elt F)) (x1 : (⟨S100000x512, .f32⟩ : BufTy).Contents (Elt F)) (x2 : (⟨S512, .i32⟩ : BufTy).Contents (Elt F))
    (h7 : G (Proc.devRef .tc main_v7) = val_main_v7 (F := F) x0 x1) (h24 : G (Proc.devRef .tc main_v24) = val_main_v24 (F := F) x0 x1 x2) (h2 : G (Proc.devRef .tc main_arg2) = x2) :
    after (((ops (F := F)).drop 73).take 32) G (Proc.devRef .tc main_v49) = val_main_v49 (F := F) x0 x1 x2
      ∧ after (((ops (F := F)).drop 73).take 32) G (Proc.devRef .tc main_arg2) = x2 := by
  refine ⟨?_, ?_⟩
  · rw [s3_split, s3_after_append]
    simp only [ops, List.drop_succ_cons, List.drop_zero, List.take_succ_cons, List.take_zero]
    generalize hG' : after (_ :: _) G = G'
    have e31 : G' (Proc.devRef .tc main_v31) = val_main_v31 (F := F) x0 x1 x2 := by
      rw [← hG']
      after_results_simp
      rw [h7, h24]
      simp only [TRef.ofBuf, TRef.toBuf, cast_eq]
      rfl
    have e33 : G' (Proc.devRef .tc main_v33) = val_main_v33 (F := F) x0 x1 x2 := by
      rw [← hG']
      after_results_simp
      rw [h24]
      rfl
    have e44 : G' (Proc.devRef .tc main_v44) = val_main_v44 (F := F) := by
      rw [← hG']
      after_results_simp
      rfl
    have e45 : G' (Proc.devRef .tc main_v45) = val_main_v45 (F := F) x2 := by
      rw [← hG']
      after_results_simp
      rw [h2]
      rfl
    after_results_simp
    rw [e31, e33, e44, e45]
    rfl
  · simp only [ops, List.drop_succ_cons, List.drop_zero, List.take_succ_cons, List.take_zero]
    after_results_simp
    exact h2

end Cert.ReferenceIdeal.StagedRun

end
-- ==== Proof.RefStretch4.lean ====
/-
  One stretch of the reference's straight line, read back: operations 106 to 120: the log-softmax, ending at the log-probabilities. From any buffer contents `G` that hold
  the stage values this stretch takes over, the fold of its operations leaves the stage values it hands on.
-/
import proofs.«423590_j54898271977563_3_alg».proof.Proof.RefOpsP
import proofs.«423590_j54898271977563_3_alg».proof.Proof.RefReadP

noncomputable section

namespace Cert.ReferenceIdeal.StagedRun

open Cert.ReferenceIdeal Cert.ReferenceIdeal.Gen Cert.ReferenceIdeal.OpsP Cert.ReferenceIdeal.ReadP
open Idealize.ShloMosaic Idealize.ShloMosaic.TcCoe Idealize.SL.Sem Idealize.ShloMosaic.StableHlo

variable {F : FTy → Type} [FloatOps F]

/-- Contents moved to a typed reference's buffer type and back are the contents. -/
theorem s4_ofBuf_toBuf {T : BufTy} (x : TRef sig T) (v : T.Contents (Elt F)) : x.ofBuf (x.toBuf v) = v := by
  obtain ⟨r, rfl, h1, h2⟩ := x
  rfl

set_option maxRecDepth 8192 in
/-- Stretch 4. -/
theorem stretch4 (G : Valuation τ sig (Elt F)) (x0 : (⟨S512x512, .f32⟩ : BufTy).Contents (Elt F)) (x1 : (⟨S100000x512, .f32⟩ : BufTy).Contents (Elt F)) (x2 : (⟨S512, .i32⟩ : BufTy).Contents (Elt F))
    (h49 : G (Proc.devRef .tc main_v49) = val_main_v49 (F := F) x0 x1 x2) (h2 : G (Proc.devRef .tc main_arg2) = x2) :
    after (((ops (F := F)).drop 105).take 15) G (Proc.devRef .tc main_v50) = val_main_v50 (F := F) x0 x1 x2
      ∧ after (((ops (F := F)).drop 105).take 15) G (Proc.devRef .tc main_arg2) = x2 := by
  have hL : ((ops (F := F)).drop 105).take 15 = [
      TRef.nullary (TRef.of (T := ⟨S_, .f32⟩) main_call7_cst) (constant S_ .f32 0xFF800000#32),
      TRef.binary (TRef.of (T := ⟨S512x100000, .f32⟩) main_v49) (TRef.of (T := ⟨S_, .f32⟩) main_call7_cst) (TRef.of (T := ⟨S512, .f32⟩) main_call7_v0) (fun x v => Host.reduce FloatOps.maximumf x v reducesTo_S512x100000_S512_d1 h_S_),
      TRef.nullary (TRef.of (T := ⟨S_, .f32⟩) main_call7_cst_0) (constant S_ .f32 0xFF800000#32),
      TRef.unary (TRef.of (T := ⟨S_, .f32⟩) main_call7_cst_0) (TRef.of (T := ⟨S512, .f32⟩) main_call7_v1) (broadcastInDim S512 ![] bcast_S_S512),
      TRef.binary (TRef.of (T := ⟨S512, .f32⟩) main_call7_v1) (TRef.of (T := ⟨S512, .f32⟩) main_call7_v0) (TRef.of (T := ⟨S512, .f32⟩) main_call7_v2) maximumf,
      TRef.unary (TRef.of (T := ⟨S512, .f32⟩) main_call7_v2) (TRef.of (T := ⟨S512x1, .f32⟩) main_call7_v3) (broadcastInDim S512x1 ![0] bcast_S512_S512x1_0),
      TRef.unary (TRef.of (T := ⟨S512x1, .f32⟩) main_call7_v3) (TRef.of (T := ⟨S512x100000, .f32⟩) main_call7_v4) (broadcastInDim S512x100000 ![0, 1] bcast_S512x1_S512x100000_0_1),
      TRef.binary (TRef.of (T := ⟨S512x100000, .f32⟩) main_v49) (TRef.of (T := ⟨S512x100000, .f32⟩) main_call7_v4) (TRef.of (T := ⟨S512x100000, .f32⟩) main_call7_v5) subf,
      TRef.unary (TRef.of (T := ⟨S512x100000, .f32⟩) main_call7_v5) (TRef.of (T := ⟨S512x100000, .f32⟩) main_call7_v6) Host.exp,
      TRef.nullary (TRef.of (T := ⟨S_, .f32⟩) main_call7_cst_1) (constant S_ .f32 0x00000000#32),
      TRef.binary (TRef.of (T := ⟨S512x100000, .f32⟩) main_call7_v6) (TRef.of (T := ⟨S_, .f32⟩) main_call7_cst_1) (TRef.of (T := ⟨S512, .f32⟩) main_call7_v7) (fun x v => Host.reduceAdd x v reducesTo_S512x100000_S512_d1 h_S_),
      TRef.unary (TRef.of (T := ⟨S512, .f32⟩) main_call7_v7) (TRef.of (T := ⟨S512x1, .f32⟩) main_call7_v8) (broadcastInDim S512x1 ![0] bcast_S512_S512x1_0),
      TRef.unary (TRef.of (T := ⟨S512x1, .f32⟩) main_call7_v8) (TRef.of (T := ⟨S512x1, .f32⟩) main_call7_v9) Host.log,
      TRef.unary (TRef.of (T := ⟨S512x1, .f32⟩) main_call7_v9) (TRef.of (T := ⟨S512x100000, .f32⟩) main_call7_v10) (broadcastInDim S512x100000 ![0, 1] bcast_S512x1_S512x100000_0_1),
      TRef.binary (TRef.of (T := ⟨S512x100000, .f32⟩) main_call7_v5) (TRef.of (T := ⟨S512x100000, .f32⟩) main_call7_v10) (TRef.of (T := ⟨S512x100000, .f32⟩) main_v50) subf ] := by
    simp only [ops, List.drop_succ_cons, List.take_succ_cons, List.take_zero, List.drop_zero]
  rw [hL]
  refine ⟨?_, ?_⟩
  · after_results_simp
    rw [h49]
    unfold val_main_v50 val_main_call7_v10 val_main_call7_v9 val_main_call7_v8 val_main_call7_v7 val_main_call7_cst_1 val_main_call7_v6 val_main_call7_v5 val_main_call7_v4 val_main_call7_v3 val_main_call7_v2 val_main_call7_v1 val_main_call7_cst_0 val_main_call7_v0 val_main_call7_cst
    generalize val_main_v49 (F := F) x0 x1 x2 = y49
    simp only [s4_ofBuf_toBuf]
    rw [show (TRef.of (T := ⟨S512x100000, .f32⟩) main_v49).ofBuf y49 = y49 from rfl]
    rfl
  · after_results_simp
    exact h2

end Cert.ReferenceIdeal.StagedRun

end
-- ==== Proof.RefStretch5.lean ====
/-
  One stretch of the reference's straight line, read back: the last 28 operations: the label's log-probability read along the class axis, the sum, the mean and the sign, ending at the result. From any buffer contents `G` that hold
  the stage values this stretch takes over, the fold of its operations leaves the stage values it hands on.
-/
import proofs.«423590_j54898271977563_3_alg».proof.Proof.RefOpsP
import proofs.«423590_j54898271977563_3_alg».proof.Proof.RefReadP

noncomputable section

namespace Cert.ReferenceIdeal.StagedRun

open Cert.ReferenceIdeal Cert.ReferenceIdeal.Gen Cert.ReferenceIdeal.OpsP Cert.ReferenceIdeal.ReadP
open Idealize.ShloMosaic Idealize.ShloMosaic.TcCoe Idealize.SL.Sem Idealize.ShloMosaic.StableHlo

variable {F : FTy → Type} [FloatOps F]

/-- Stretch 5. -/
theorem stretch5 (G : Valuation τ sig (Elt F)) (x0 : (⟨S512x512, .f32⟩ : BufTy).Contents (Elt F)) (x1 : (⟨S100000x512, .f32⟩ : BufTy).Contents (Elt F)) (x2 : (⟨S512, .i32⟩ : BufTy).Contents (Elt F))
    (h50 : G (Proc.devRef .tc main_v50) = val_main_v50 (F := F) x0 x1 x2) (h2 : G (Proc.devRef .tc main_arg2) = x2) :
    after ((ops (F := F)).drop 120) G (Proc.devRef .tc main_v55) = val_main_v55 (F := F) x0 x1 x2 := by
  -- the last 28 operations as a literal list, folded over `G`; the taken-over contents rewritten; the typed references' casts are along `rfl`
  simp only [ops, List.drop_succ_cons, List.drop_zero]
  after_results_simp
  rw [h50, h2]
  simp only [TRef.ofBuf, TRef.toBuf, cast_eq]
  rfl

end Cert.ReferenceIdeal.StagedRun

end
-- ==== Proof.RefRun.lean ====
/-
  The reference's run, read back: the five stretches joined.

  The fold of a list of operations over buffer contents is the fold of its tail over the fold of its head, so the
  fold of the whole straight line is the last stretch's fold over the contents the first four leave; each stretch
  hands on the stage values the next one takes over, and the last leaves the result at the last stage of the three
  arguments. Every weakly fair execution ends with each buffer at that fold of its launch contents.
-/
import proofs.«423590_j54898271977563_3_alg».proof.Proof.RefStretch1
import proofs.«423590_j54898271977563_3_alg».proof.Proof.RefStretch2
import proofs.«423590_j54898271977563_3_alg».proof.Proof.RefStretch3
import proofs.«423590_j54898271977563_3_alg».proof.Proof.RefStretch4
import proofs.«423590_j54898271977563_3_alg».proof.Proof.RefStretch5

noncomputable section

namespace Cert.ReferenceIdeal.StagedRun

open Cert.ReferenceIdeal Cert.ReferenceIdeal.Gen Cert.ReferenceIdeal.OpsP Cert.ReferenceIdeal.ReadP
open Idealize.ShloMosaic Idealize.ShloMosaic.TcCoe Idealize.SL.Sem Idealize.ShloMosaic.StableHlo

variable {F : FTy → Type} [FloatOps F]

/-- The fold over an appended list is the second list's fold over the first's. -/
theorem after_append' (l₁ l₂ : List (HloOp τ sig (Elt F))) (V : Valuation τ sig (Elt F)) :
    after (l₁ ++ l₂) V = after l₂ (after l₁ V) := by
  induction l₁ generalizing V with
  | nil => rfl
  | cons op l ih => exact ih _

/-- Cutting a list at `n`: the fold of the rest over the fold of the first `n`. -/
theorem after_cut (l : List (HloOp τ sig (Elt F))) (n : ℕ) (V : Valuation τ sig (Elt F)) :
    after l V = after (l.drop n) (after (l.take n) V) := by
  rw [← after_append', List.take_append_drop]

/-- The whole line's fold at the result buffer is the last stage of the contents at the three argument buffers. -/
theorem after_result (V : Valuation τ sig (Elt F)) :
    after (ops (F := F)) V (Proc.devRef .tc main_v55)
      = val_main_v55 (F := F) (V (Proc.devRef .tc main_arg0)) (V (Proc.devRef .tc main_arg1)) (V (Proc.devRef .tc main_arg2)) := by
  obtain ⟨a7, a2⟩ := stretch1 V _ _ _ rfl rfl rfl
  obtain ⟨b7, b24, b2⟩ := stretch2 _ _ _ _ a7 a2
  obtain ⟨c49, c2⟩ := stretch3 _ _ _ _ b7 b24 b2
  obtain ⟨d50, d2⟩ := stretch4 _ _ _ _ c49 c2
  have e := stretch5 _ _ _ _ d50 d2
  rw [after_cut (ops (F := F)) 23 V, after_cut ((ops (F := F)).drop 23) 50, List.drop_drop,
    after_cut ((ops (F := F)).drop (23 + 50)) 32, List.drop_drop,
    after_cut ((ops (F := F)).drop (23 + 50 + 32)) 15, List.drop_drop]
  exact e

set_option maxRecDepth 8192 in
set_option maxHeartbeats 4000000 in
/-- The run: the result buffer ends at the last stage of the three arguments' launch contents; the arguments end
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
        = val_main_v55 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v55).trans (after_result (launchContents m c)),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.StagedRun

end
-- ==== Proof.Claims.lean ====
/-
  The two programs return the same loss.

  Under the precondition every weight entry is a real number, every weight row has a positive sum of squares, and
  every label is a class index g b. Then, entry by entry:
    * the reference's clipped cosine of embedding row b and weight row c is the tiled program's (the normalisation
      moved across the contraction: `cosKer_eq_cosRef`), so the two rows of logits are one row X b of real numbers,
      with the margin value φ b · 64 in the label's column;
    * the tiled program returns the mean of (log (e^a + e^b) of its two halves - φ b · 64) and the reference minus the
      mean of ((X b (g b) - M b) - log Σ_c exp (X b c - M b)) for its real shifts M b: one number
      (`lossKer_eq_lossRef`).
-/
import proofs.«423590_j54898271977563_3_alg».proof.Proof.KRun
import proofs.«423590_j54898271977563_3_alg».proof.Proof.PreFacts
import proofs.«423590_j54898271977563_3_alg».proof.Proof.CosLaw
import proofs.«423590_j54898271977563_3_alg».proof.Proof.LossLaw
import proofs.«423590_j54898271977563_3_alg».proof.Proof.RefCos
import proofs.«423590_j54898271977563_3_alg».proof.Proof.RefLogits
import proofs.«423590_j54898271977563_3_alg».proof.Proof.RefLoss
import proofs.«423590_j54898271977563_3_alg».proof.Proof.RefRun
import proofs.«423590_j54898271977563_3_alg».proof.Proof.Gen.Kernel.Frame
import proofs.«423590_j54898271977563_3_alg».proof.Defs

noncomputable section

namespace Cert.Proof.Claims

open Idealize.ShloMosaic Idealize.ShloMosaic.TcCoe Idealize.SL.Sem Idealize.ShloMosaic.ValueIdx Cert.Attn Cert.Spec
open Cert.KernelIdeal.Arrays

/-- A class index below 100000 is recovered from its 32-bit word. -/
theorem word_eq_iff (col : ℕ) (hcol : col < 100000) (g : Fin 100000) :
    BitVec.ofNat 32 col = BitVec.ofNat 32 g.val ↔ col = g.val := by
  constructor
  · intro h
    have := congrArg BitVec.toNat h
    simp only [BitVec.toNat_ofNat] at this
    have hg := g.isLt
    omega
  · intro h; rw [h]

/-- On one device: the reference's result at the tiled program's arguments is the tiled loss the run names. -/
theorem value_eq [Cert.Pre_finite_inputs.Facts] (m : (ℓ : Loc Cert.KernelIdeal.nD Cert.KernelIdeal.τ Cert.KernelIdeal.sig) → Buf (Elt Ideal) ℓ)
    (c : Dev Cert.KernelIdeal.nD)
    (h : Cert.Pre_finite_inputs.fn (F := Ideal) (embArg m c) (wArg m c) (gtArg m c) = fun _ => 1#1) :
    Cert.ReferenceIdeal.ReadP.val_main_v55 (F := Ideal) (embArg m c) (wArg m c) (gtArg m c)
      = fun _ => Spec.lossKer (Cert.KernelIdeal.Accum.X m c) (Cert.KernelIdeal.Value.phiRow m c) := by
  obtain ⟨hWreal, hpos, hgt⟩ := Cert.PreFacts.of_pre (embArg m c) (wArg m c) (gtArg m c) h
  choose g hg using hgt
  -- the reference's logits, entry by entry
  have hv49 : ∀ (b : Fin 512) (c' : Fin 100000),
      Cert.ReferenceIdeal.ReadP.val_main_v49 (F := Ideal) (embArg m c) (wArg m c) (gtArg m c) (ix2 b c')
        = logit (cosRef (unitRow (fun k : Fin 512 => embArg m c (ix2 b k))) (fun d : Fin 512 => wArg m c (ix2 c' d)))
            (margin (cosRef (unitRow (fun k : Fin 512 => embArg m c (ix2 b k))) (fun d : Fin 512 => wArg m c (ix2 (g b) d))))
            (decide (c' = g b)) := by
    intro b c'
    rw [Cert.RefValue.logits_apply _ _ _ g hg, Cert.RefValue.cos_apply, Cert.RefValue.phi_apply,
      Cert.RefValue.pos_apply _ _ _ g hg, Cert.RefValue.cos_apply]
  have hφreal : ∀ b : Fin 512, IsReal (margin (cosRef (unitRow (fun k : Fin 512 => embArg m c (ix2 b k))) (fun d : Fin 512 => wArg m c (ix2 (g b) d)))) :=
    fun b => margin_isReal (clip_isReal _)
  have hreal49 : ∀ (b : Fin 512) (c' : Fin 100000),
      IsReal (Cert.ReferenceIdeal.ReadP.val_main_v49 (F := Ideal) (embArg m c) (wArg m c) (gtArg m c) (ix2 b c')) := by
    intro b c'; rw [hv49]; exact logit_isReal (clip_isReal _) (hφreal b) _
  obtain ⟨M, hM, hloss⟩ := Cert.RefValue.loss_apply _ _ _ g hg hreal49
  rw [hloss]
  funext _
  -- the tiled program's margin values and logits are the reference's
  have hφ : ∀ b : Fin 512, Cert.KernelIdeal.Value.phiRow m c b
      = margin (cosRef (unitRow (fun k : Fin 512 => embArg m c (ix2 b k))) (fun d : Fin 512 => wArg m c (ix2 (g b) d))) :=
    fun b => Cert.KernelIdeal.Host.V_phi m c g hg b
  have hX : Cert.KernelIdeal.Accum.X m c
      = fun b col => if h : col < 100000 then Cert.ReferenceIdeal.ReadP.val_main_v49 (F := Ideal) (embArg m c) (wArg m c) (gtArg m c) (ix2 b (⟨col, h⟩ : Fin 100000)) else 0 := by
    funext b col
    unfold Cert.KernelIdeal.Accum.X
    by_cases hc : col < 100000
    · rw [dif_pos hc, dif_pos hc, hv49, ← hφ b]
      have he : (fun d : Fin 512 => eArr m c (ix2 b d)) = unitRow (fun k : Fin 512 => embArg m c (ix2 b k)) :=
        funext fun d => Cert.KernelIdeal.Host.V_e m c b d
      have hw : (fun d : Fin 512 => wArr m c (ix2 (⟨col, hc⟩ : Fin 100000) d)) = fun d : Fin 512 => wArg m c (ix2 (⟨col, hc⟩ : Fin 100000) d) := by
        rw [Cert.KernelIdeal.Host.V_w m c]
      rw [he, hw, cosKer_eq_cosRef _ _ (fun d => hWreal ⟨col, hc⟩ d) (hpos ⟨col, hc⟩)]
      have hb : decide (BitVec.ofNat 32 col = gtArr m c (ix2 b (0 : Fin 1))) = decide ((⟨col, hc⟩ : Fin 100000) = g b) := by
        rw [Cert.KernelIdeal.Host.V_gt m c b, hg b]
        exact decide_eq_decide.mpr ((word_eq_iff col hc (g b)).trans
          ⟨fun h => Fin.ext h, fun h => congrArg Fin.val h⟩)
      rw [hb]
    · rw [dif_neg hc, dif_neg hc]
  rw [hX]
  refine (lossKer_eq_lossRef _ _ M g ?_ ?_ hM ?_).symm
  · intro b col hc
    rw [dif_pos hc]; exact hreal49 b ⟨col, hc⟩
  · intro b; rw [hφ b]; exact hφreal b
  · intro b
    rw [dif_pos (g b).isLt, hv49, hφ b]
    simp [logit]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.StagedRun.run (F := Ideal) m ρ)

theorem preserves : Cert.preserves_Kernel_KernelIdeal := trivial

theorem algebraic : Cert.algebraic_KernelIdeal_ReferenceIdeal := by
  intro m ρ m' ρ' hpre hagree
  refine ⟨fun c => fun _ => Spec.lossKer (Cert.KernelIdeal.Accum.X m c) (Cert.KernelIdeal.Value.phiRow m c),
    Cert.KernelIdeal.Value.run m ρ, ?_⟩
  refine (θ_run Cert.ReferenceIdeal.defs _ _).mono (fun _ h c => ⟨(h c).1.trans ?_, (h c).2⟩)
    (Cert.ReferenceIdeal.StagedRun.run (F := Ideal) m' ρ')
  rw [(hagree c).1, (hagree c).2.1, (hagree c).2.2]
  exact value_eq m c (hpre c)

end Cert.Proof.Claims

end
-- ==== Proof.lean ====
/-
  The certificate: the three programs run, and the tiled program and the reference return the same loss.
  Each conjunct is proved in Proof/Claims.lean; the programs' stated side conditions are the generated instances.
-/
import proofs.«423590_j54898271977563_3_alg».proof.Proof.Claims
import proofs.«423590_j54898271977563_3_alg».proof.Proof.Gen.Kernel
import proofs.«423590_j54898271977563_3_alg».proof.Proof.Gen.KernelIdeal
import proofs.«423590_j54898271977563_3_alg».proof.Proof.Gen.ReferenceIdeal
import proofs.«423590_j54898271977563_3_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
